-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x32 : Shape := ⟨2, ![150000, 32]⟩
abbrev S27x32x32 : Shape := ⟨3, ![27, 32, 32]⟩
abbrev S32 : Shape := ⟨1, ![32]⟩
abbrev S27x150000 : Shape := ⟨2, ![27, 150000]⟩
abbrev S_ : Shape := ⟨0, ![]⟩

class Facts : Prop where
  bcast_S_S150000x32 : S_.BroadcastsInDim S150000x32 (![] : Fin 0 → Fin S150000x32.rank)
  reducesTo_S150000x32_S_d0_1 : S150000x32.ReducesTo [0, 1] S_
  h_S_ : 0 < S_.numel
  bcast_S_S27x32x32 : S_.BroadcastsInDim S27x32x32 (![] : Fin 0 → Fin S27x32x32.rank)
  reducesTo_S27x32x32_S_d0_1_2 : S27x32x32.ReducesTo [0, 1, 2] S_
  bcast_S_S32 : S_.BroadcastsInDim S32 (![] : Fin 0 → Fin S32.rank)
  reducesTo_S32_S_d0 : S32.ReducesTo [0] S_
  bcast_S_S27x150000 : S_.BroadcastsInDim S27x150000 (![] : Fin 0 → Fin S27x150000.rank)
  reducesTo_S27x150000_S_d0_1 : S27x150000.ReducesTo [0, 1] S_

variable [Facts]

def fn_part2 {F : FTy → Type} [FloatOps F] (main_arg7 : IVec S27x150000 32) (main_v33 : IVec S_ 1) : IVec S_ 1 :=
  let main_c_12 : IVec S_ 32 := constantI S_ 32 0#32
  let main_v34 : IVec S27x150000 32 := broadcastInDim S27x150000 ![] bcast_S_S27x150000 main_c_12
  let main_v35 : IVec S27x150000 1 := cmpi .sge main_arg7 main_v34
  let main_c_13 : IVec S_ 32 := constantI S_ 32 150000#32
  let main_v36 : IVec S27x150000 32 := broadcastInDim S27x150000 ![] bcast_S_S27x150000 main_c_13
  let main_v37 : IVec S27x150000 1 := cmpi .slt main_arg7 main_v36
  let main_v38 : IVec S27x150000 1 := andi main_v35 main_v37
  let main_c_14 : IVec S_ 1 := constantI S_ 1 1#1
  let main_v39 : IVec S_ 1 := (fun x v => Host.reduce IntOp.andi x v reducesTo_S27x150000_S_d0_1 h_S_) main_v38 main_c_14
  let main_v40 : IVec S_ 1 := andi main_v33 main_v39
  main_v40

def fn_part1 {F : FTy → Type} [FloatOps F] (main_arg4 : FVec F S27x32x32 .f32) (main_arg5 : FVec F S32 .f32) (main_arg6 : FVec F S32 .f32) (main_arg7 : IVec S27x150000 32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S27x32x32 .f32 := Host.absf main_arg4
  let main_cst_6 : FVec F S_ .f32 := constant S_ .f32 0x7F800000#32
  let main_v20 : FVec F S27x32x32 .f32 := broadcastInDim S27x32x32 ![] bcast_S_S27x32x32 main_cst_6
  let main_v21 : IVec S27x32x32 1 := cmpf .olt main_v19 main_v20
  let main_c_7 : IVec S_ 1 := constantI S_ 1 1#1
  let main_v22 : IVec S_ 1 := (fun x v => Host.reduce IntOp.andi x v reducesTo_S27x32x32_S_d0_1_2 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_v33

def fn {F : FTy → Type} [FloatOps F] (main_arg0 : FVec F S150000x32 .f32) (main_arg1 : FVec F S27x32x32 .f32) (main_arg2 : FVec F S32 .f32) (main_arg3 : FVec F S32 .f32) (main_arg4 : FVec F S27x32x32 .f32) (main_arg5 : FVec F S32 .f32) (main_arg6 : FVec F S32 .f32) (main_arg7 : IVec S27x150000 32) (main_arg8 : IVec S27x150000 32) (main_arg9 : IVec S27x150000 1) : IVec S_ 1 :=
  let main_v0 : FVec F S150000x32 .f32 := Host.absf main_arg0
  let main_cst : FVec F S_ .f32 := constant S_ .f32 0x7F800000#32
  let main_v1 : FVec F S150000x32 .f32 := broadcastInDim S150000x32 ![] bcast_S_S150000x32 main_cst
  let main_v2 : IVec S150000x32 1 := cmpf .olt main_v0 main_v1
  let main_c : IVec S_ 1 := constantI S_ 1 1#1
  let main_v3 : IVec S_ 1 := (fun x v => Host.reduce IntOp.andi x v reducesTo_S150000x32_S_d0_1 h_S_) main_v2 main_c
  let main_v4 : FVec F S27x32x32 .f32 := Host.absf main_arg1
  let main_cst_0 : FVec F S_ .f32 := constant S_ .f32 0x7F800000#32
  let main_v5 : FVec F S27x32x32 .f32 := broadcastInDim S27x32x32 ![] bcast_S_S27x32x32 main_cst_0
  let main_v6 : IVec S27x32x32 1 := cmpf .olt main_v4 main_v5
  let main_c_1 : IVec S_ 1 := constantI S_ 1 1#1
  let main_v7 : IVec S_ 1 := (fun x v => Host.reduce IntOp.andi x v reducesTo_S27x32x32_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S150000x32 : Shape := ⟨2, ![150000, 32]⟩
abbrev S27x32x32 : Shape := ⟨3, ![27, 32, 32]⟩
abbrev S32 : Shape := ⟨1, ![32]⟩
abbrev S27x150000 : Shape := ⟨2, ![27, 150000]⟩
abbrev S_ : Shape := ⟨0, ![]⟩
abbrev S27x159744 : Shape := ⟨2, ![27, 159744]⟩
abbrev S27x159744x1 : Shape := ⟨3, ![27, 159744, 1]⟩
abbrev S1 : Shape := ⟨1, ![1]⟩
abbrev S1x1x1 : Shape := ⟨3, ![1, 1, 1]⟩
abbrev S27x159744x32 : Shape := ⟨3, ![27, 159744, 32]⟩
abbrev S1x12288x32 : Shape := ⟨3, ![1, 12288, 32]⟩
abbrev S1x32x32 : Shape := ⟨3, ![1, 32, 32]⟩
abbrev S12288x32 : Shape := ⟨2, ![12288, 32]⟩
abbrev S32x32 : Shape := ⟨2, ![32, 32]⟩
abbrev S4313088 : Shape := ⟨1, ![4313088]⟩
abbrev S4313088x32 : Shape := ⟨2, ![4313088, 32]⟩
abbrev S4313088x1 : Shape := ⟨2, ![4313088, 1]⟩
abbrev S1x32 : Shape := ⟨2, ![1, 32]⟩
abbrev S1x1x32 : Shape := ⟨3, ![1, 1, 32]⟩
abbrev S3000x32 : Shape := ⟨2, ![3000, 32]⟩

abbrev nBuf : Space → Nat
  | .hbm => 187
  | .vmem => 22
  | .smem => 0
  | _ => 0

abbrev hbmTy0_0 (i : Nat) : BufTy := match i % 128 with
  | 0 => ⟨S150000x32, .f32⟩
  | 1 => ⟨S27x32x32, .f32⟩
  | 2 => ⟨S32, .f32⟩
  | 3 => ⟨S32, .f32⟩
  | 4 => ⟨S27x32x32, .f32⟩
  | 5 => ⟨S32, .f32⟩
  | 6 => ⟨S32, .f32⟩
  | 7 => ⟨S27x150000, .i32⟩
  | 8 => ⟨S27x150000, .i32⟩
  | 9 => ⟨S27x150000, .i1⟩
  | 10 => ⟨S_, .i32⟩
  | 11 => ⟨S_, .i32⟩
  | 12 => ⟨S27x159744, .i32⟩
  | 13 => ⟨S_, .i32⟩
  | 14 => ⟨S_, .i32⟩
  | 15 => ⟨S27x159744, .i32⟩
  | 16 => ⟨S_, .i1⟩
  | 17 => ⟨S27x159744, .i1⟩
  | 18 => ⟨S_, .i32⟩
  | 19 => ⟨S27x159744, .i32⟩
  | 20 => ⟨S27x159744, .i1⟩
  | 21 => ⟨S_, .i32⟩
  | 22 => ⟨S27x159744, .i32⟩
  | 23 => ⟨S27x159744, .i32⟩
  | 24 => ⟨S27x159744, .i32⟩
  | 25 => ⟨S27x159744x1, .i32⟩
  | 26 => ⟨S1, .i32⟩
  | 27 => ⟨S_, .i32⟩
  | 28 => ⟨S27x159744x1, .i32⟩
  | 29 => ⟨S27x159744x1, .i1⟩
  | 30 => ⟨S1x1x1, .i32⟩
  | 31 => ⟨S27x159744x1, .i32⟩
  | 32 => ⟨S27x159744x1, .i1⟩
  | 33 => ⟨S27x159744x1, .i1⟩
  | 34 => ⟨S_, .i1⟩
  | 35 => ⟨S27x159744, .i1⟩
  | 36 => ⟨S27x159744x32, .f32⟩
  | 37 => ⟨S27x159744x32, .i1⟩
  | 38 => ⟨S_, .f32⟩
  | 39 => ⟨S27x159744x32, .f32⟩
  | 40 => ⟨S27x159744x32, .f32⟩
  | 41 => ⟨S27x159744x1, .i1⟩
  | 42 => ⟨S_, .f32⟩
  | 43 => ⟨S_, .f32⟩
  | 44 => ⟨S27x159744x32, .i1⟩
  | 45 => ⟨S27x159744x32, .f32⟩
  | 46 => ⟨S27x159744x32, .f32⟩
  | 47 => ⟨S27x159744x32, .bf16⟩
  | 48 => ⟨S27x159744x32, .f32⟩
  | 49 => ⟨S_, .f32⟩
  | 50 => ⟨S150000x32, .f32⟩
  | 51 => ⟨S4313088, .i32⟩
  | 52 => ⟨S4313088x32, .f32⟩
  | 53 => ⟨S_, .i32⟩
  | 54 => ⟨S4313088, .i32⟩
  | 55 => ⟨S4313088, .i1⟩
  | 56 => ⟨S_, .i32⟩
  | 57 => ⟨S4313088, .i32⟩
  | 58 => ⟨S4313088, .i32⟩
  | 59 => ⟨S4313088, .i32⟩
  | 60 => ⟨S4313088x1, .i32⟩
  | 61 => ⟨S150000x32, .f32⟩
  | 62 => ⟨S_, .f32⟩
  | 63 => ⟨S32, .f32⟩
  | 64 => ⟨S1x32, .f32⟩
  | 65 => ⟨S_, .f32⟩
  | 66 => ⟨S1x32, .f32⟩
  | 67 => ⟨S1x32, .f32⟩
  | 68 => ⟨S_, .i32⟩
  | 69 => ⟨S_, .f32⟩
  | 70 => ⟨S32, .f32⟩
  | 71 => ⟨S1x32, .f32⟩
  | 72 => ⟨S_, .f32⟩
  | 73 => ⟨S1x32, .f32⟩
  | 74 => ⟨S1x32, .f32⟩
  | 75 => ⟨S150000x32, .f32⟩
  | 76 => ⟨S150000x32, .f32⟩
  | 77 => ⟨S150000x32, .f32⟩
  | 78 => ⟨S_, .f32⟩
  | 79 => ⟨S_, .f32⟩
  | 80 => ⟨S_, .f32⟩
  | 81 => ⟨S_, .f32⟩
  | 82 => ⟨S32, .f32⟩
  | 83 => ⟨S1x32, .f32⟩
  | 84 => ⟨S1x32, .f32⟩
  | 85 => ⟨S1x32, .f32⟩
  | 86 => ⟨S_, .f32⟩
  | 87 => ⟨S_, .i1⟩
  | 88 => ⟨S_, .f32⟩
  | 89 => ⟨S_, .f32⟩
  | 90 => ⟨S1x32, .f32⟩
  | 91 => ⟨S1x32, .f32⟩
  | 92 => ⟨S1x32, .f32⟩
  | 93 => ⟨S_, .f32⟩
  | 94 => ⟨S1x32, .f32⟩
  | 95 => ⟨S1x32, .f32⟩
  | 96 => ⟨S1x32, .f32⟩
  | 97 => ⟨S1x32, .f32⟩
  | 98 => ⟨S1x32, .f32⟩
  | 99 => ⟨S1x32, .f32⟩
  | 100 => ⟨S1x32, .f32⟩
  | 101 => ⟨S_, .i32⟩
  | 102 => ⟨S27x159744, .i32⟩
  | 103 => ⟨S27x159744, .i1⟩
  | 104 => ⟨S_, .i32⟩
  | 105 => ⟨S27x159744, .i32⟩
  | 106 => ⟨S27x159744, .i32⟩
  | 107 => ⟨S27x159744, .i32⟩
  | 108 => ⟨S27x159744x1, .i32⟩
  | 109 => ⟨S1, .i32⟩
  | 110 => ⟨S_, .i32⟩
  | 111 => ⟨S27x159744x1, .i32⟩
  | 112 => ⟨S27x159744x1, .i1⟩
  | 113 => ⟨S1x1x1, .i32⟩
  | 114 => ⟨S27x159744x1, .i32⟩
  | 115 => ⟨S27x159744x1, .i1⟩
  | 116 => ⟨S27x159744x1, .i1⟩
  | 117 => ⟨S_, .i1⟩
  | 118 => ⟨S27x159744, .i1⟩
  | 119 => ⟨S27x159744x32, .f32⟩
  | 120 => ⟨S27x159744x32, .i1⟩
  | 121 => ⟨S_, .f32⟩
  | 122 => ⟨S27x159744x32, .f32⟩
  | 123 => ⟨S27x159744x32, .f32⟩
  | 124 => ⟨S1x1x32, .f32⟩
  | 125 => ⟨S27x159744x32, .f32⟩
  | 126 => ⟨S27x159744x32, .f32⟩
  | 127 => ⟨S1x1x32, .f32⟩
  | _ => ⟨S150000x32, .f32⟩

abbrev hbmTy0_1 (i : Nat) : BufTy := match i % 128 with
  | 0 => ⟨S27x159744x32, .f32⟩
  | 1 => ⟨S27x159744x32, .f32⟩
  | 2 => ⟨S_, .f32⟩
  | 3 => ⟨S27x159744x32, .f32⟩
  | 4 => ⟨S27x159744x32, .f32⟩
  | 5 => ⟨S27x159744x1, .i1⟩
  | 6 => ⟨S_, .f32⟩
  | 7 => ⟨S_, .f32⟩
  | 8 => ⟨S27x159744x32, .i1⟩
  | 9 => ⟨S27x159744x32, .f32⟩
  | 10 => ⟨S27x159744x32, .f32⟩
  | 11 => ⟨S27x159744x32, .bf16⟩
  | 12 => ⟨S27x159744x32, .f32⟩
  | 13 => ⟨S_, .f32⟩
  | 14 => ⟨S150000x32, .f32⟩
  | 15 => ⟨S4313088, .i32⟩
  | 16 => ⟨S4313088x32, .f32⟩
  | 17 => ⟨S_, .i32⟩
  | 18 => ⟨S4313088, .i32⟩
  | 19 => ⟨S4313088, .i1⟩
  | 20 => ⟨S_, .i32⟩
  | 21 => ⟨S4313088, .i32⟩
  | 22 => ⟨S4313088, .i32⟩
  | 23 => ⟨S4313088, .i32⟩
  | 24 => ⟨S4313088x1, .i32⟩
  | 25 => ⟨S150000x32, .f32⟩
  | 26 => ⟨S_, .f32⟩
  | 27 => ⟨S32, .f32⟩
  | 28 => ⟨S1x32, .f32⟩
  | 29 => ⟨S_, .f32⟩
  | 30 => ⟨S1x32, .f32⟩
  | 31 => ⟨S1x32, .f32⟩
  | 32 => ⟨S_, .i32⟩
  | 33 => ⟨S_, .f32⟩
  | 34 => ⟨S32, .f32⟩
  | 35 => ⟨S1x32, .f32⟩
  | 36 => ⟨S_, .f32⟩
  | 37 => ⟨S1x32, .f32⟩
  | 38 => ⟨S1x32, .f32⟩
  | 39 => ⟨S150000x32, .f32⟩
  | 40 => ⟨S150000x32, .f32⟩
  | 41 => ⟨S150000x32, .f32⟩
  | 42 => ⟨S_, .f32⟩
  | 43 => ⟨S_, .f32⟩
  | 44 => ⟨S_, .f32⟩
  | 45 => ⟨S_, .f32⟩
  | 46 => ⟨S32, .f32⟩
  | 47 => ⟨S1x32, .f32⟩
  | 48 => ⟨S1x32, .f32⟩
  | 49 => ⟨S1x32, .f32⟩
  | 50 => ⟨S_, .f32⟩
  | 51 => ⟨S_, .i1⟩
  | 52 => ⟨S_, .f32⟩
  | 53 => ⟨S_, .f32⟩
  | 54 => ⟨S1x32, .f32⟩
  | 55 => ⟨S1x32, .f32⟩
  | 56 => ⟨S1x32, .f32⟩
  | 57 => ⟨S1x32, .f32⟩
  | 58 => ⟨S150000x32, .f32⟩
  | _ => ⟨S150000x32, .f32⟩

abbrev hbmTy (i : Nat) : BufTy := match i / 128 with
  | 0 => hbmTy0_0 i
  | 1 => hbmTy0_1 i
  | _ => ⟨S150000x32, .f32⟩

abbrev bufTy : (tb : Table) → Fin (tcTables nBuf tb) → BufTy
  | .hbm, ⟨i, _⟩ => hbmTy i
  | .local _ .vmem, ⟨0, _⟩ => ⟨S1x12288x32, .bf16⟩
  | .local _ .vmem, ⟨1, _⟩ => ⟨S1x12288x32, .bf16⟩
  | .local _ .vmem, ⟨2, _⟩ => ⟨S1x32x32, .f32⟩
  | .local _ .vmem, ⟨3, _⟩ => ⟨S1x32x32, .f32⟩
  | .local _ .vmem, ⟨4, _⟩ => ⟨S1x12288x32, .f32⟩
  | .local _ .vmem, ⟨5, _⟩ => ⟨S1x12288x32, .f32⟩
  | .local _ .vmem, ⟨6, _⟩ => ⟨S1x12288x32, .bf16⟩
  | .local _ .vmem, ⟨7, _⟩ => ⟨S1x12288x32, .bf16⟩
  | .local _ .vmem, ⟨8, _⟩ => ⟨S1x32x32, .f32⟩
  | .local _ .vmem, ⟨9, _⟩ => ⟨S1x32x32, .f32⟩
  | .local _ .vmem, ⟨10, _⟩ => ⟨S1x12288x32, .f32⟩
  | .local _ .vmem, ⟨11, _⟩ => ⟨S1x12288x32, .f32⟩
  | .local _ .vmem, ⟨12, _⟩ => ⟨S3000x32, .f32⟩
  | .local _ .vmem, ⟨13, _⟩ => ⟨S3000x32, .f32⟩
  | .local _ .vmem, ⟨14, _⟩ => ⟨S3000x32, .f32⟩
  | .local _ .vmem, ⟨15, _⟩ => ⟨S3000x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S3000x32, .f32⟩
  | .local _ .vmem, ⟨21, _⟩ => ⟨S3000x32, .f32⟩
  | _, _ => ⟨S150000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_call3_c : Ref sig .tc := ⟨.hbm, 18, rfl⟩
abbrev main_call3_v0 : Ref sig .tc := ⟨.hbm, 19, rfl⟩
abbrev main_call3_v1 : Ref sig .tc := ⟨.hbm, 20, rfl⟩
abbrev main_call3_c_0 : Ref sig .tc := ⟨.hbm, 21, rfl⟩
abbrev main_call3_v2 : Ref sig .tc := ⟨.hbm, 22, rfl⟩
abbrev main_call3_v3 : Ref sig .tc := ⟨.hbm, 23, rfl⟩
abbrev main_call3_v4 : Ref sig .tc := ⟨.hbm, 24, rfl⟩
abbrev main_call3_v5 : Ref sig .tc := ⟨.hbm, 25, rfl⟩
abbrev main_call3_c_1 : Ref sig .tc := ⟨.hbm, 26, rfl⟩
abbrev main_call3_c_2 : Ref sig .tc := ⟨.hbm, 27, rfl⟩
abbrev main_call3_v6 : Ref sig .tc := ⟨.hbm, 28, rfl⟩
abbrev main_call3_v7 : Ref sig .tc := ⟨.hbm, 29, rfl⟩
abbrev main_call3_v8 : Ref sig .tc := ⟨.hbm, 30, rfl⟩
abbrev main_call3_v9 : Ref sig .tc := ⟨.hbm, 31, rfl⟩
abbrev main_call3_v10 : Ref sig .tc := ⟨.hbm, 32, rfl⟩
abbrev main_call3_v11 : Ref sig .tc := ⟨.hbm, 33, rfl⟩
abbrev main_call3_c_3 : Ref sig .tc := ⟨.hbm, 34, rfl⟩
abbrev main_call3_v12 : Ref sig .tc := ⟨.hbm, 35, rfl⟩
abbrev main_call3_v13 : Ref sig .tc := ⟨.hbm, 36, rfl⟩
abbrev main_call3_v14 : Ref sig .tc := ⟨.hbm, 37, rfl⟩
abbrev main_call3_cst : Ref sig .tc := ⟨.hbm, 38, rfl⟩
abbrev main_call3_v15 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst_2 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_c_3 : Ref sig .tc := ⟨.hbm, 53, rfl⟩
abbrev main_v11 : Ref sig .tc := ⟨.hbm, 54, rfl⟩
abbrev main_v12 : Ref sig .tc := ⟨.hbm, 55, rfl⟩
abbrev main_c_4 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_5 : Ref sig .tc := ⟨.hbm, 62, rfl⟩
abbrev main_v18 : Ref sig .tc := ⟨.hbm, 63, rfl⟩
abbrev main_v19 : Ref sig .tc := ⟨.hbm, 64, rfl⟩
abbrev main_cst_6 : Ref sig .tc := ⟨.hbm, 65, rfl⟩
abbrev main_v20 : Ref sig .tc := ⟨.hbm, 66, rfl⟩
abbrev main_v21 : Ref sig .tc := ⟨.hbm, 67, rfl⟩
abbrev main_c_7 : Ref sig .tc := ⟨.hbm, 68, rfl⟩
abbrev main_call5_cst : Ref sig .tc := ⟨.hbm, 69, rfl⟩
abbrev main_call5_v0 : Ref sig .tc := ⟨.hbm, 70, rfl⟩
abbrev main_call5_v1 : Ref sig .tc := ⟨.hbm, 71, rfl⟩
abbrev main_call5_cst_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_v6 : Ref sig .tc := ⟨.hbm, 77, rfl⟩
abbrev main_call5_v7 : Ref sig .tc := ⟨.hbm, 78, rfl⟩
abbrev main_call5_cst_1 : Ref sig .tc := ⟨.hbm, 79, rfl⟩
abbrev main_call5_v8 : Ref sig .tc := ⟨.hbm, 80, rfl⟩
abbrev main_call5_cst_2 : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_v12 : Ref sig .tc := ⟨.hbm, 85, rfl⟩
abbrev main_call5_cst_3 : Ref sig .tc := ⟨.hbm, 86, rfl⟩
abbrev main_call5_v13 : Ref sig .tc := ⟨.hbm, 87, rfl⟩
abbrev main_call5_cst_4 : Ref sig .tc := ⟨.hbm, 88, rfl⟩
abbrev main_call5_call0_v0 : Ref sig .tc := ⟨.hbm, 89, rfl⟩
abbrev main_call5_call0_v1 : Ref sig .tc := ⟨.hbm, 90, rfl⟩
abbrev main_v22 : Ref sig .tc := ⟨.hbm, 91, rfl⟩
abbrev main_v23 : Ref sig .tc := ⟨.hbm, 92, rfl⟩
abbrev main_cst_8 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_call6_c : Ref sig .tc := ⟨.hbm, 101, rfl⟩
abbrev main_call6_v0 : Ref sig .tc := ⟨.hbm, 102, rfl⟩
abbrev main_call6_v1 : Ref sig .tc := ⟨.hbm, 103, rfl⟩
abbrev main_call6_c_0 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_v5 : Ref sig .tc := ⟨.hbm, 108, rfl⟩
abbrev main_call6_c_1 : Ref sig .tc := ⟨.hbm, 109, rfl⟩
abbrev main_call6_c_2 : Ref sig .tc := ⟨.hbm, 110, rfl⟩
abbrev main_call6_v6 : Ref sig .tc := ⟨.hbm, 111, rfl⟩
abbrev main_call6_v7 : Ref sig .tc := ⟨.hbm, 112, rfl⟩
abbrev main_call6_v8 : Ref sig .tc := ⟨.hbm, 113, rfl⟩
abbrev main_call6_v9 : Ref sig .tc := ⟨.hbm, 114, rfl⟩
abbrev main_call6_v10 : Ref sig .tc := ⟨.hbm, 115, rfl⟩
abbrev main_call6_v11 : Ref sig .tc := ⟨.hbm, 116, rfl⟩
abbrev main_call6_c_3 : Ref sig .tc := ⟨.hbm, 117, rfl⟩
abbrev main_call6_v12 : Ref sig .tc := ⟨.hbm, 118, rfl⟩
abbrev main_call6_v13 : Ref sig .tc := ⟨.hbm, 119, rfl⟩
abbrev main_call6_v14 : Ref sig .tc := ⟨.hbm, 120, rfl⟩
abbrev main_call6_cst : Ref sig .tc := ⟨.hbm, 121, rfl⟩
abbrev main_call6_v15 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_cst_9 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_cst_10 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_cst_11 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_c_12 : Ref sig .tc := ⟨.hbm, 145, rfl⟩
abbrev main_v47 : Ref sig .tc := ⟨.hbm, 146, rfl⟩
abbrev main_v48 : Ref sig .tc := ⟨.hbm, 147, rfl⟩
abbrev main_c_13 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_v53 : Ref sig .tc := ⟨.hbm, 153, rfl⟩
abbrev main_cst_14 : Ref sig .tc := ⟨.hbm, 154, rfl⟩
abbrev main_v54 : Ref sig .tc := ⟨.hbm, 155, rfl⟩
abbrev main_v55 : Ref sig .tc := ⟨.hbm, 156, rfl⟩
abbrev main_cst_15 : Ref sig .tc := ⟨.hbm, 157, rfl⟩
abbrev main_v56 : Ref sig .tc := ⟨.hbm, 158, rfl⟩
abbrev main_v57 : Ref sig .tc := ⟨.hbm, 159, rfl⟩
abbrev main_c_16 : Ref sig .tc := ⟨.hbm, 160, rfl⟩
abbrev main_call8_cst : Ref sig .tc := ⟨.hbm, 161, rfl⟩
abbrev main_call8_v0 : Ref sig .tc := ⟨.hbm, 162, rfl⟩
abbrev main_call8_v1 : Ref sig .tc := ⟨.hbm, 163, rfl⟩
abbrev main_call8_cst_0 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_call8_v5 : Ref sig .tc := ⟨.hbm, 168, rfl⟩
abbrev main_call8_v6 : Ref sig .tc := ⟨.hbm, 169, rfl⟩
abbrev main_call8_v7 : Ref sig .tc := ⟨.hbm, 170, rfl⟩
abbrev main_call8_cst_1 : Ref sig .tc := ⟨.hbm, 171, rfl⟩
abbrev main_call8_v8 : Ref sig .tc := ⟨.hbm, 172, rfl⟩
abbrev main_call8_cst_2 : Ref sig .tc := ⟨.hbm, 173, rfl⟩
abbrev main_call8_v9 : Ref sig .tc := ⟨.hbm, 174, rfl⟩
abbrev main_call8_v10 : Ref sig .tc := ⟨.hbm, 175, rfl⟩
abbrev main_call8_v11 : Ref sig .tc := ⟨.hbm, 176, rfl⟩
abbrev main_call8_v12 : Ref sig .tc := ⟨.hbm, 177, rfl⟩
abbrev main_call8_cst_3 : Ref sig .tc := ⟨.hbm, 178, rfl⟩
abbrev main_call8_v13 : Ref sig .tc := ⟨.hbm, 179, rfl⟩
abbrev main_call8_cst_4 : Ref sig .tc := ⟨.hbm, 180, rfl⟩
abbrev main_call8_call0_v0 : Ref sig .tc := ⟨.hbm, 181, rfl⟩
abbrev main_call8_call0_v1 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨2, ![27, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x12288x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x12288x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![27, 13], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x12288x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x12288x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  pads_S27x150000_S27x159744_000_097440 : S27x150000.Pads (![0, 0] : Fin 2 → Nat) ![0, 9744] ![0, 0] S27x159744
  h_S_ : 0 < S_.numel
  bcast_S_S27x159744 : S_.BroadcastsInDim S27x159744 (![] : Fin 0 → Fin S27x159744.rank)
  bcast_S27x159744_S27x159744x1_0_1 : S27x159744.BroadcastsInDim S27x159744x1 (![0, 1] : Fin 2 → Fin S27x159744x1.rank)
  bcast_S_S27x159744x1 : S_.BroadcastsInDim S27x159744x1 (![] : Fin 0 → Fin S27x159744x1.rank)
  bcast_S1_S1x1x1_2 : S1.BroadcastsInDim S1x1x1 (![2] : Fin 1 → Fin S1x1x1.rank)
  bcast_S1x1x1_S27x159744x1_0_1_2 : S1x1x1.BroadcastsInDim S27x159744x1 (![0, 1, 2] : Fin 3 → Fin S27x159744x1.rank)
  reducesTo_S27x159744x1_S27x159744_d2 : S27x159744x1.ReducesTo [2] S27x159744
  bcast_S27x159744_S27x159744x32_0_1 : S27x159744.BroadcastsInDim S27x159744x32 (![0, 1] : Fin 2 → Fin S27x159744x32.rank)
  bcast_S_S27x159744x32 : S_.BroadcastsInDim S27x159744x32 (![] : Fin 0 → Fin S27x159744x32.rank)
  bcast_S27x159744x1_S27x159744x32_0_1_2 : S27x159744x1.BroadcastsInDim S27x159744x32 (![0, 1, 2] : Fin 3 → Fin S27x159744x32.rank)
  bitsLt_bf16_f32 : FTy.bits .bf16 < FTy.bits .f32
  inb_S1x12288x32_S1x12288x32_0_0_0 : ∀ a, (![0, 0, 0] : Fin 3 → Nat) a + S1x12288x32.size a ≤ S1x12288x32.size a
  h_S1x12288x32 : 0 < S1x12288x32.numel
  shapeCasts_S1x12288x32_S12288x32 : S1x12288x32.ShapeCasts S12288x32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S12288x32_S1x12288x32 : S12288x32.ShapeCasts S1x12288x32
  bcast_S_S150000x32 : S_.BroadcastsInDim S150000x32 (![] : Fin 0 → Fin S150000x32.rank)
  shapeCasts_S27x159744_S4313088 : S27x159744.ShapeCasts S4313088
  shapeCasts_S27x159744x32_S4313088x32 : S27x159744x32.ShapeCasts S4313088x32
  bcast_S_S4313088 : S_.BroadcastsInDim S4313088 (![] : Fin 0 → Fin S4313088.rank)
  bcast_S4313088_S4313088x1_0 : S4313088.BroadcastsInDim S4313088x1 (![0] : Fin 1 → Fin S4313088x1.rank)
  reducesTo_S150000x32_S32_d0 : S150000x32.ReducesTo [0] S32
  bcast_S32_S1x32_1 : S32.BroadcastsInDim S1x32 (![1] : Fin 1 → Fin S1x32.rank)
  bcast_S_S1x32 : S_.BroadcastsInDim S1x32 (![] : Fin 0 → Fin S1x32.rank)
  bcast_S1x32_S150000x32_0_1 : S1x32.BroadcastsInDim S150000x32 (![0, 1] : Fin 2 → Fin S150000x32.rank)
  shapeCasts_S32_S1x32 : S32.ShapeCasts S1x32
  bcast_S1x32_S1x1x32_1_2 : S1x32.BroadcastsInDim S1x1x32 (![1, 2] : Fin 2 → Fin S1x1x32.rank)
  bcast_S1x1x32_S27x159744x32_0_1_2 : S1x1x32.BroadcastsInDim S27x159744x32 (![0, 1, 2] : Fin 3 → Fin S27x159744x32.rank)
  inb_S3000x32_S3000x32_0_0 : ∀ a, (![0, 0] : Fin 2 → Nat) a + S3000x32.size a ≤ S3000x32.size a
  h_S3000x32 : 0 < S3000x32.numel
  shapeCasts_S3000x32_S3000x32 : S3000x32.ShapeCasts S3000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S3000x32 : S1x32.Broadcasts S3000x32
  gather_S150000x32_S27x159744x1_S27x159744x32_2_0_n_n_0_2_132_wf : GatherDims.WF S150000x32 S27x159744x1 S27x159744x32 [2] [0] [] [0] [] 2 ![1, 32]
  dot_S12288x32_S32x32_S12288x32_1_0_0_1_n_n_wf : DotDims.WF S12288x32 S32x32 S12288x32 [1] [0] [0] [1] [] []
  scatter_S150000x32_S4313088x1_S4313088x32_1_0_0_1_wf : ScatterDims.WF S150000x32 S4313088x1 S4313088x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12288x32.size a ≤ S27x159744x32.size a
  hwx0_0 : ∀ i : grid0.Coords, EltTy.bits .bf16 = 32 ∨ (Rect.block (s := S27x159744x32) S1x12288x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S27x32x32.size a
  hwx0_1 : ∀ i : grid0.Coords, EltTy.bits .f32 = 32 ∨ (Rect.block (s := S27x32x32) S1x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12288x32.size a ≤ S27x159744x32.size a
  hwx0_2 : ∀ i : grid0.Coords, EltTy.bits .f32 = 32 ∨ (Rect.block (s := S27x159744x32) S1x12288x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x12288x32.size a ≤ S27x159744x32.size a
  hwx1_0 : ∀ i : grid1.Coords, EltTy.bits .bf16 = 32 ∨ (Rect.block (s := S27x159744x32) S1x12288x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x32.size a ≤ S27x32x32.size a
  hwx1_1 : ∀ i : grid1.Coords, EltTy.bits .f32 = 32 ∨ (Rect.block (s := S27x32x32) S1x32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x12288x32.size a ≤ S27x159744x32.size a
  hwx1_2 : ∀ i : grid1.Coords, EltTy.bits .f32 = 32 ∨ (Rect.block (s := S27x159744x32) S1x12288x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x32.size a ≤ S150000x32.size a
  hwx2_0 : ∀ i : grid2.Coords, EltTy.bits .f32 = 32 ∨ (Rect.block (s := S150000x32) S3000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x32.size a ≤ S150000x32.size a
  hwx2_1 : ∀ i : grid2.Coords, EltTy.bits .f32 = 32 ∨ (Rect.block (s := S150000x32) S3000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x32.size a ≤ S150000x32.size a
  hwx2_6 : ∀ i : grid2.Coords, EltTy.bits .f32 = 32 ∨ (Rect.block (s := S150000x32) S3000x32.size (cc2_transform_6 i) (hinb2_6 i)).WholeWords (EltTy.packing .f32)

variable [Facts₀]

def gather_S150000x32_S27x159744x1_S27x159744x32_2_0_n_n_0_2_132 : GatherDims S150000x32 S27x159744x1 S27x159744x32 where
  offsetDims := [2]
  collapsedSliceDims := [0]
  operandBatchingDims := []
  startIndicesBatchingDims := []
  startIndexMap := [0]
  indexVectorDim := 2
  sliceSizes := ![1, 32]
  wf := gather_S150000x32_S27x159744x1_S27x159744x32_2_0_n_n_0_2_132_wf
def dot_S12288x32_S32x32_S12288x32_1_0_0_1_n_n : DotDims S12288x32 S32x32 S12288x32 where
  lhsContracting := [1]
  rhsContracting := [0]
  lhsNonContracting := [0]
  rhsNonContracting := [1]
  lhsBatch := []
  rhsBatch := []
  wf := dot_S12288x32_S32x32_S12288x32_1_0_0_1_n_n_wf
def scatter_S150000x32_S4313088x1_S4313088x32_1_0_0_1 : ScatterDims S150000x32 S4313088x1 S4313088x32 where
  updateWindowDims := [1]
  insertedWindowDims := [0]
  scatterDimsToOperandDims := [0]
  indexVectorDim := 1
  wf := scatter_S150000x32_S4313088x1_S4313088x32_1_0_0_1_wf

abbrev win0_0 : Pipeline.Window sig grid0 :=
  Pipeline.Window.ofSpec (Memref.whole main_v6) S1x12288x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x12288x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S1x12288x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x12288x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S3000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S3000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S3000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S150000x32 : Shape := ⟨2, ![150000, 32]⟩
abbrev S27x32x32 : Shape := ⟨3, ![27, 32, 32]⟩
abbrev S32 : Shape := ⟨1, ![32]⟩
abbrev S27x150000 : Shape := ⟨2, ![27, 150000]⟩
abbrev S_ : Shape := ⟨0, ![]⟩
abbrev S27x150000x1 : Shape := ⟨3, ![27, 150000, 1]⟩
abbrev S27x150000x32 : Shape := ⟨3, ![27, 150000, 32]⟩
abbrev S4050000 : Shape := ⟨1, ![4050000]⟩
abbrev S4050000x32 : Shape := ⟨2, ![4050000, 32]⟩
abbrev S4050000x1 : Shape := ⟨2, ![4050000, 1]⟩
abbrev S1x32 : Shape := ⟨2, ![1, 32]⟩

abbrev nBuf : Space → Nat
  | .hbm => 159
  | .vmem => 0
  | .smem => 0
  | _ => 0

abbrev hbmTy0_0 (i : Nat) : BufTy := match i % 128 with
  | 0 => ⟨S150000x32, .f32⟩
  | 1 => ⟨S27x32x32, .f32⟩
  | 2 => ⟨S32, .f32⟩
  | 3 => ⟨S32, .f32⟩
  | 4 => ⟨S27x32x32, .f32⟩
  | 5 => ⟨S32, .f32⟩
  | 6 => ⟨S32, .f32⟩
  | 7 => ⟨S27x150000, .i32⟩
  | 8 => ⟨S27x150000, .i32⟩
  | 9 => ⟨S27x150000, .i1⟩
  | 10 => ⟨S_, .i32⟩
  | 11 => ⟨S27x150000, .i32⟩
  | 12 => ⟨S27x150000, .i1⟩
  | 13 => ⟨S_, .i32⟩
  | 14 => ⟨S27x150000, .i32⟩
  | 15 => ⟨S27x150000, .i32⟩
  | 16 => ⟨S27x150000, .i32⟩
  | 17 => ⟨S27x150000x1, .i32⟩
  | 18 => ⟨S27x150000x32, .f32⟩
  | 19 => ⟨S27x150000x1, .i1⟩
  | 20 => ⟨S27x150000x1, .f32⟩
  | 21 => ⟨S27x150000x32, .f32⟩
  | 22 => ⟨S27x150000x32, .f32⟩
  | 23 => ⟨S27x150000x32, .f32⟩
  | 24 => ⟨S_, .f32⟩
  | 25 => ⟨S150000x32, .f32⟩
  | 26 => ⟨S4050000, .i32⟩
  | 27 => ⟨S4050000x32, .f32⟩
  | 28 => ⟨S_, .i32⟩
  | 29 => ⟨S4050000, .i32⟩
  | 30 => ⟨S4050000, .i1⟩
  | 31 => ⟨S_, .i32⟩
  | 32 => ⟨S4050000, .i32⟩
  | 33 => ⟨S4050000, .i32⟩
  | 34 => ⟨S4050000, .i32⟩
  | 35 => ⟨S4050000x1, .i32⟩
  | 36 => ⟨S150000x32, .f32⟩
  | 37 => ⟨S_, .f32⟩
  | 38 => ⟨S32, .f32⟩
  | 39 => ⟨S_, .f32⟩
  | 40 => ⟨S32, .f32⟩
  | 41 => ⟨S32, .f32⟩
  | 42 => ⟨S_, .i32⟩
  | 43 => ⟨S_, .f32⟩
  | 44 => ⟨S32, .f32⟩
  | 45 => ⟨S1x32, .f32⟩
  | 46 => ⟨S_, .f32⟩
  | 47 => ⟨S1x32, .f32⟩
  | 48 => ⟨S1x32, .f32⟩
  | 49 => ⟨S150000x32, .f32⟩
  | 50 => ⟨S150000x32, .f32⟩
  | 51 => ⟨S150000x32, .f32⟩
  | 52 => ⟨S_, .f32⟩
  | 53 => ⟨S_, .f32⟩
  | 54 => ⟨S_, .f32⟩
  | 55 => ⟨S_, .f32⟩
  | 56 => ⟨S32, .f32⟩
  | 57 => ⟨S32, .f32⟩
  | 58 => ⟨S32, .f32⟩
  | 59 => ⟨S_, .f32⟩
  | 60 => ⟨S_, .i1⟩
  | 61 => ⟨S_, .f32⟩
  | 62 => ⟨S_, .f32⟩
  | 63 => ⟨S32, .f32⟩
  | 64 => ⟨S32, .f32⟩
  | 65 => ⟨S1x32, .f32⟩
  | 66 => ⟨S150000x32, .f32⟩
  | 67 => ⟨S150000x32, .f32⟩
  | 68 => ⟨S_, .f32⟩
  | 69 => ⟨S32, .f32⟩
  | 70 => ⟨S32, .f32⟩
  | 71 => ⟨S32, .f32⟩
  | 72 => ⟨S1x32, .f32⟩
  | 73 => ⟨S150000x32, .f32⟩
  | 74 => ⟨S150000x32, .f32⟩
  | 75 => ⟨S1x32, .f32⟩
  | 76 => ⟨S150000x32, .f32⟩
  | 77 => ⟨S150000x32, .f32⟩
  | 78 => ⟨S1x32, .f32⟩
  | 79 => ⟨S150000x32, .f32⟩
  | 80 => ⟨S150000x32, .f32⟩
  | 81 => ⟨S_, .f32⟩
  | 82 => ⟨S150000x32, .f32⟩
  | 83 => ⟨S150000x32, .f32⟩
  | 84 => ⟨S_, .i32⟩
  | 85 => ⟨S27x150000, .i32⟩
  | 86 => ⟨S27x150000, .i1⟩
  | 87 => ⟨S_, .i32⟩
  | 88 => ⟨S27x150000, .i32⟩
  | 89 => ⟨S27x150000, .i32⟩
  | 90 => ⟨S27x150000, .i32⟩
  | 91 => ⟨S27x150000x1, .i32⟩
  | 92 => ⟨S27x150000x32, .f32⟩
  | 93 => ⟨S27x150000x1, .i1⟩
  | 94 => ⟨S27x150000x1, .f32⟩
  | 95 => ⟨S27x150000x32, .f32⟩
  | 96 => ⟨S27x150000x32, .f32⟩
  | 97 => ⟨S27x150000x32, .f32⟩
  | 98 => ⟨S_, .f32⟩
  | 99 => ⟨S150000x32, .f32⟩
  | 100 => ⟨S4050000, .i32⟩
  | 101 => ⟨S4050000x32, .f32⟩
  | 102 => ⟨S_, .i32⟩
  | 103 => ⟨S4050000, .i32⟩
  | 104 => ⟨S4050000, .i1⟩
  | 105 => ⟨S_, .i32⟩
  | 106 => ⟨S4050000, .i32⟩
  | 107 => ⟨S4050000, .i32⟩
  | 108 => ⟨S4050000, .i32⟩
  | 109 => ⟨S4050000x1, .i32⟩
  | 110 => ⟨S150000x32, .f32⟩
  | 111 => ⟨S_, .f32⟩
  | 112 => ⟨S32, .f32⟩
  | 113 => ⟨S_, .f32⟩
  | 114 => ⟨S32, .f32⟩
  | 115 => ⟨S32, .f32⟩
  | 116 => ⟨S_, .i32⟩
  | 117 => ⟨S_, .f32⟩
  | 118 => ⟨S32, .f32⟩
  | 119 => ⟨S1x32, .f32⟩
  | 120 => ⟨S_, .f32⟩
  | 121 => ⟨S1x32, .f32⟩
  | 122 => ⟨S1x32, .f32⟩
  | 123 => ⟨S150000x32, .f32⟩
  | 124 => ⟨S150000x32, .f32⟩
  | 125 => ⟨S150000x32, .f32⟩
  | 126 => ⟨S_, .f32⟩
  | 127 => ⟨S_, .f32⟩
  | _ => ⟨S150000x32, .f32⟩

abbrev hbmTy0_1 (i : Nat) : BufTy := match i % 128 with
  | 0 => ⟨S_, .f32⟩
  | 1 => ⟨S_, .f32⟩
  | 2 => ⟨S32, .f32⟩
  | 3 => ⟨S32, .f32⟩
  | 4 => ⟨S32, .f32⟩
  | 5 => ⟨S_, .f32⟩
  | 6 => ⟨S_, .i1⟩
  | 7 => ⟨S_, .f32⟩
  | 8 => ⟨S_, .f32⟩
  | 9 => ⟨S32, .f32⟩
  | 10 => ⟨S32, .f32⟩
  | 11 => ⟨S1x32, .f32⟩
  | 12 => ⟨S150000x32, .f32⟩
  | 13 => ⟨S150000x32, .f32⟩
  | 14 => ⟨S_, .f32⟩
  | 15 => ⟨S32, .f32⟩
  | 16 => ⟨S32, .f32⟩
  | 17 => ⟨S32, .f32⟩
  | 18 => ⟨S1x32, .f32⟩
  | 19 => ⟨S150000x32, .f32⟩
  | 20 => ⟨S150000x32, .f32⟩
  | 21 => ⟨S1x32, .f32⟩
  | 22 => ⟨S150000x32, .f32⟩
  | 23 => ⟨S150000x32, .f32⟩
  | 24 => ⟨S1x32, .f32⟩
  | 25 => ⟨S150000x32, .f32⟩
  | 26 => ⟨S150000x32, .f32⟩
  | 27 => ⟨S150000x32, .f32⟩
  | 28 => ⟨S_, .f32⟩
  | 29 => ⟨S150000x32, .f32⟩
  | 30 => ⟨S150000x32, .f32⟩
  | _ => ⟨S150000x32, .f32⟩

abbrev hbmTy (i : Nat) : BufTy := match i / 128 with
  | 0 => hbmTy0_0 i
  | 1 => hbmTy0_1 i
  | _ => ⟨S150000x32, .f32⟩

abbrev bufTy : (tb : Table) → Fin (tcTables nBuf tb) → BufTy
  | .hbm, ⟨i, _⟩ => hbmTy i
  | _, _ => ⟨S150000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_6 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call1_cst : Ref sig .tc := ⟨.hbm, 81, rfl⟩
abbrev main_call1_v0 : Ref sig .tc := ⟨.hbm, 82, rfl⟩
abbrev main_v41 : Ref sig .tc := ⟨.hbm, 83, rfl⟩
abbrev main_c_7 : Ref sig .tc := ⟨.hbm, 84, rfl⟩
abbrev main_v42 : Ref sig .tc := ⟨.hbm, 85, rfl⟩
abbrev main_v43 : Ref sig .tc := ⟨.hbm, 86, rfl⟩
abbrev main_c_8 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_9 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_10 : Ref sig .tc := ⟨.hbm, 102, rfl⟩
abbrev main_v57 : Ref sig .tc := ⟨.hbm, 103, rfl⟩
abbrev main_v58 : Ref sig .tc := ⟨.hbm, 104, rfl⟩
abbrev main_c_11 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_12 : Ref sig .tc := ⟨.hbm, 111, rfl⟩
abbrev main_v64 : Ref sig .tc := ⟨.hbm, 112, rfl⟩
abbrev main_cst_13 : Ref sig .tc := ⟨.hbm, 113, rfl⟩
abbrev main_v65 : Ref sig .tc := ⟨.hbm, 114, rfl⟩
abbrev main_v66 : Ref sig .tc := ⟨.hbm, 115, rfl⟩
abbrev main_c_14 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_cst_3 : Ref sig .tc := ⟨.hbm, 133, rfl⟩
abbrev main_call2_v12 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_15 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_call3_cst : Ref sig .tc := ⟨.hbm, 156, rfl⟩
abbrev main_call3_v0 : Ref sig .tc := ⟨.hbm, 157, rfl⟩
abbrev main_v84 : Ref sig .tc := ⟨.hbm, 158, rfl⟩

abbrev nD : Nat := 1
abbrev τ : Topo := Topo.v7x

variable {F : FTy → Type} [FloatOps F]

class Facts₀ : Prop where
  bcast_S_S27x150000 : S_.BroadcastsInDim S27x150000 (![] : Fin 0 → Fin S27x150000.rank)
  bcast_S27x150000_S27x150000x1_0_1 : S27x150000.BroadcastsInDim S27x150000x1 (![0, 1] : Fin 2 → Fin S27x150000x1.rank)
  bcast_S27x150000x1_S27x150000x32_0_1_2 : S27x150000x1.BroadcastsInDim S27x150000x32 (![0, 1, 2] : Fin 3 → Fin S27x150000x32.rank)
  bcast_S_S150000x32 : S_.BroadcastsInDim S150000x32 (![] : Fin 0 → Fin S150000x32.rank)
  shapeCasts_S27x150000_S4050000 : S27x150000.ShapeCasts S4050000
  shapeCasts_S27x150000x32_S4050000x32 : S27x150000x32.ShapeCasts S4050000x32
  bcast_S_S4050000 : S_.BroadcastsInDim S4050000 (![] : Fin 0 → Fin S4050000.rank)
  bcast_S4050000_S4050000x1_0 : S4050000.BroadcastsInDim S4050000x1 (![0] : Fin 1 → Fin S4050000x1.rank)
  reducesTo_S150000x32_S32_d0 : S150000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S150000x32_0_1 : S1x32.BroadcastsInDim S150000x32 (![0, 1] : Fin 2 → Fin S150000x32.rank)
  gather_S150000x32_S27x150000x1_S27x150000x32_2_0_n_n_0_2_132_wf : GatherDims.WF S150000x32 S27x150000x1 S27x150000x32 [2] [0] [] [0] [] 2 ![1, 32]
  dot_S27x150000x32_S27x32x32_S27x150000x32_2_1_1_2_0_0_wf : DotDims.WF S27x150000x32 S27x32x32 S27x150000x32 [2] [1] [1] [2] [0] [0]
  scatter_S150000x32_S4050000x1_S4050000x32_1_0_0_1_wf : ScatterDims.WF S150000x32 S4050000x1 S4050000x32 [1] [0] [0] 1

variable [Facts₀]

def gather_S150000x32_S27x150000x1_S27x150000x32_2_0_n_n_0_2_132 : GatherDims S150000x32 S27x150000x1 S27x150000x32 where
  offsetDims := [2]
  collapsedSliceDims := [0]
  operandBatchingDims := []
  startIndicesBatchingDims := []
  startIndexMap := [0]
  indexVectorDim := 2
  sliceSizes := ![1, 32]
  wf := gather_S150000x32_S27x150000x1_S27x150000x32_2_0_n_n_0_2_132_wf
def dot_S27x150000x32_S27x32x32_S27x150000x32_2_1_1_2_0_0 : DotDims S27x150000x32 S27x32x32 S27x150000x32 where
  lhsContracting := [2]
  rhsContracting := [1]
  lhsNonContracting := [1]
  rhsNonContracting := [2]
  lhsBatch := [0]
  rhsBatch := [0]
  wf := dot_S27x150000x32_S27x32x32_S27x150000x32_2_1_1_2_0_0_wf
def scatter_S150000x32_S4050000x1_S4050000x32_1_0_0_1 : ScatterDims S150000x32 S4050000x1 S4050000x32 where
  updateWindowDims := [1]
  insertedWindowDims := [0]
  scatterDimsToOperandDims := [0]
  indexVectorDim := 1
  wf := scatter_S150000x32_S4050000x1_S4050000x32_1_0_0_1_wf

class Facts : Prop extends Facts₀ where

variable [Facts]
-- ==== Proof.KerDefs0.lean ====
/-
  The host arithmetic that precedes the first kernel launch, as pure functions of whole arrays.

  The index maps (27 offsets by 150000 pairs) are padded along the pair axis to 159744 pairs with the word 0, the
  validity bits with the bit 0. A take in fill mode reads a 150000-row table at the padded index words: each word
  is normalised (a negative word moved up by 150000), the rows are gathered with the word clamped into the table,
  and a word outside [0, 149999] after normalisation yields a not-a-number constant instead of a row. The taken
  rows are then kept where the padded validity bit is set and replaced by 0.0 elsewhere, and narrowed to bf16
  (the identity on extended reals).
-/
import proofs.«429804_j40699110096963_3_alg».proof.KernelIdeal
import Idealize.ShloMosaic.PureOps.Ideal

noncomputable section

namespace Cert.KernelIdeal.Hand

open Idealize.ShloMosaic
open Cert.KernelIdeal
open Facts₀ Facts

variable [Facts]

/-- An index map padded along the pair axis from 150000 to 159744 pairs with the word 0. -/
def kPadI (i : IVec S27x150000 32) : IVec S27x159744 32 :=
  pad S27x159744 ![0, 0] ![0, 9744] ![0, 0] i (id (constantI S_ 32 0#32))
    pads_S27x150000_S27x159744_000_097440 h_S_

/-- The validity bits padded along the pair axis from 150000 to 159744 pairs with the bit 0. -/
def kPadM (b : IVec S27x150000 1) : IVec S27x159744 1 :=
  pad S27x159744 ![0, 0] ![0, 9744] ![0, 0] b (constantI S_ 1 0#1)
    pads_S27x150000_S27x159744_000_097440 h_S_

/-- A take in fill mode of the rows of table `h` at the index words `ip`: normalise, gather clamped, and put
    the not-a-number constant where the normalised word names no row. -/
def kTake (h : FVec Ideal S150000x32 .f32) (ip : IVec S27x159744 32) : FVec Ideal S27x159744x32 .f32 :=
  let c : IVec S_ 32 := constantI S_ 32 0#32
  let v0 : IVec S27x159744 32 := broadcastInDim S27x159744 ![] bcast_S_S27x159744 c
  let v1 : IVec S27x159744 1 := cmpi .slt ip v0
  let c_0 : IVec S_ 32 := constantI S_ 32 150000#32
  let v2 : IVec S27x159744 32 := broadcastInDim S27x159744 ![] bcast_S_S27x159744 c_0
  let v3 : IVec S27x159744 32 := addi ip v2
  let v4 : IVec S27x159744 32 := select v1 v3 ip
  let v5 : IVec S27x159744x1 32 := broadcastInDim S27x159744x1 ![0, 1] bcast_S27x159744_S27x159744x1_0_1 v4
  let c_1 : IVec S1 32 := constantI S1 32 149999#32
  let c_2 : IVec S_ 32 := constantI S_ 32 0#32
  let v6 : IVec S27x159744x1 32 := broadcastInDim S27x159744x1 ![] bcast_S_S27x159744x1 c_2
  let v7 : IVec S27x159744x1 1 := cmpi .sge v5 v6
  let v8 : IVec S1x1x1 32 := broadcastInDim S1x1x1 ![2] bcast_S1_S1x1x1_2 c_1
  let v9 : IVec S27x159744x1 32 := broadcastInDim S27x159744x1 ![0, 1, 2] bcast_S1x1x1_S27x159744x1_0_1_2 v8
  let v10 : IVec S27x159744x1 1 := cmpi .sle v5 v9
  let v11 : IVec S27x159744x1 1 := andi v7 v10
  let c_3 : IVec S_ 1 := constantI S_ 1 1#1
  let v12 : IVec S27x159744 1 := Host.reduce IntOp.andi v11 c_3 reducesTo_S27x159744x1_S27x159744_d2 h_S_
  let v13 : FVec Ideal S27x159744x32 .f32 :=
    Host.gather gather_S150000x32_S27x159744x1_S27x159744x32_2_0_n_n_0_2_132 h v5
  let v14 : IVec S27x159744x32 1 := broadcastInDim S27x159744x32 ![0, 1] bcast_S27x159744_S27x159744x32_0_1 v12
  let cst : FVec Ideal S_ .f32 := constant S_ .f32 0x7FC00000#32
  let v15 : FVec Ideal S27x159744x32 .f32 := broadcastInDim S27x159744x32 ![] bcast_S_S27x159744x32 cst
  select v14 v13 v15

/-- The taken rows kept where the padded validity bit is set, 0.0 elsewhere. -/
def kWhere (mp : IVec S27x159744 1) (g : FVec Ideal S27x159744x32 .f32) : FVec Ideal S27x159744x32 .f32 :=
  let v4 : IVec S27x159744x1 1 := broadcastInDim S27x159744x1 ![0, 1] bcast_S27x159744_S27x159744x1_0_1 mp
  let cst : FVec Ideal S_ .f32 := constant S_ .f32 0x00000000#32
  let w0 : FVec Ideal S_ .f32 := id cst
  let w1 : IVec S27x159744x32 1 := broadcastInDim S27x159744x32 ![0, 1, 2] bcast_S27x159744x1_S27x159744x32_0_1_2 v4
  let w2 : FVec Ideal S27x159744x32 .f32 := broadcastInDim S27x159744x32 ![] bcast_S_S27x159744x32 w0
  select w1 g w2

/-- The first kernel's left operand: the rows of `x` taken at the padded index map, masked by the padded validity
    bits, narrowed to bf16. -/
def kG1 (x : FVec Ideal S150000x32 .f32) (imap : IVec S27x150000 32) (mask : IVec S27x150000 1) :
    FVec Ideal S27x159744x32 .bf16 :=
  truncf .bf16 (kWhere (kPadM mask) (kTake x (kPadI imap))) bitsLt_bf16_f32

end Cert.KernelIdeal.Hand

end
-- ==== Proof.KerTerms0.lean ====
/-
  The buffers the first kernel reads, as functions of the launched arrays.

  Before the first kernel the host pads the index map and the validity bits, takes the feature table's rows at the
  padded index words, masks the taken rows by the padded validity bits and narrows them to bf16. Each of these
  stretches of operations is read over arbitrary buffer contents before it: the buffer the stretch ends in holds the
  stage function of what was held at the buffers the stretch reads. A buffer that no operation of a stretch writes
  keeps its contents through the stretch. Composing the stretches from the launch to the kernel's entry gives the
  kernel's left operand as the stage functions composed at the launched feature table, index map and validity
  bits; the weight array is never written before the kernel, so it is as launched; and after the kernel its output
  array holds what the pipeline leaves in the kernel's third window.
-/
import proofs.«429804_j40699110096963_3_alg».proof.Proof.Gen.KernelIdeal.Frame
import proofs.«429804_j40699110096963_3_alg».proof.Proof.KerDefs0

set_option maxRecDepth 16384

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg) (c : Dev nD)

/-! ## A buffer no operation of a stretch writes -/

/-- A buffer that none of a stretch's operations writes holds after the stretch what it held before: each
    operation's written buffer is compared with the buffer read, and differs. -/
local macro "unwritten" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes,
               StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## The second argument when the first kernel is entered -/

/-- No host operation before the first kernel writes the first weight array: it is as launched. -/
theorem t_arg1_at10 : Gen.V10 m ρ c main_arg1 = m ((c.tc : Thread nD τ).loc main_arg1) :=
  calc Gen.W10 m ρ c (Proc.devRef .tc main_arg1)
    _ = Gen.W9 m ρ c (Proc.devRef .tc main_arg1) := by unwritten Gen.hostOps0_9
    _ = Gen.W8 m ρ c (Proc.devRef .tc main_arg1) := by unwritten Gen.hostOps0_8
    _ = Gen.W7 m ρ c (Proc.devRef .tc main_arg1) := by unwritten Gen.hostOps0_7
    _ = Gen.W6 m ρ c (Proc.devRef .tc main_arg1) := by unwritten Gen.hostOps0_6
    _ = Gen.W5 m ρ c (Proc.devRef .tc main_arg1) := by unwritten Gen.hostOps0_5
    _ = Gen.W4 m ρ c (Proc.devRef .tc main_arg1) := by unwritten Gen.hostOps0_4
    _ = Gen.W3 m ρ c (Proc.devRef .tc main_arg1) := by unwritten Gen.hostOps0_3
    _ = Gen.W2 m ρ c (Proc.devRef .tc main_arg1) := by unwritten Gen.hostOps0_2
    _ = Gen.W1 m ρ c (Proc.devRef .tc main_arg1) := by unwritten Gen.hostOps0_1
    _ = Gen.W0 m ρ c (Proc.devRef .tc main_arg1) := by unwritten Gen.hostOps0
    _ = m ((c.tc : Thread nD τ).loc main_arg1) := rfl

/-! ## The first kernel's output array when the kernel has run -/

/-- The first kernel's output array is its third window's: after the kernel it holds what the pipeline leaves
    there. -/
theorem t_v7 : Gen.W11 m ρ c (Proc.devRef .tc main_v7) = (Gen.dat0 (Gen.V10 m ρ) c).arrAt 2 cfg0.N :=
  Gen.W11_arr m ρ c 2

/-! ## The take, cut into four shorter stretches

The take's 23 operations are read in four consecutive pieces, each over arbitrary contents before it: the
normalised row numbers (8 operations), the unreduced in-bounds bits (8), their reduction over the unit axis (2),
and the gather with the select between gathered rows and the constant (5). -/

/-- The normalised index words as the [27, 159744, 1] array of row numbers. -/
private def tNrm (ip : IVec S27x159744 32) : IVec S27x159744x1 32 :=
  broadcastInDim S27x159744x1 ![0, 1] Facts₀.bcast_S27x159744_S27x159744x1_0_1
    (select (cmpi .slt ip (broadcastInDim S27x159744 ![] Facts₀.bcast_S_S27x159744 (constantI S_ 32 0#32)))
      (addi ip (broadcastInDim S27x159744 ![] Facts₀.bcast_S_S27x159744 (constantI S_ 32 150000#32))) ip)

/-- The in-bounds bits of an array of row numbers before their reduction: 0 ≤ number and number ≤ 149999. -/
private def tInb3 (r : IVec S27x159744x1 32) : IVec S27x159744x1 1 :=
  andi
    (cmpi .sge r (broadcastInDim S27x159744x1 ![] Facts₀.bcast_S_S27x159744x1 (constantI S_ 32 0#32)))
    (cmpi .sle r
      (broadcastInDim S27x159744x1 ![0, 1, 2] Facts₀.bcast_S1x1x1_S27x159744x1_0_1_2
        (broadcastInDim S1x1x1 ![2] Facts₀.bcast_S1_S1x1x1_2 (constantI S1 32 149999#32))))

/-- The first 8 operations of the take. -/
private abbrev lA : List (HloOp τ sig (Elt Ideal)) := List.take 8 Gen.hostOps0_6
/-- The next 8. -/
private abbrev lB : List (HloOp τ sig (Elt Ideal)) := List.take 8 (List.drop 8 Gen.hostOps0_6)
/-- The next 2. -/
private abbrev lC : List (HloOp τ sig (Elt Ideal)) := List.take 2 (List.drop 8 (List.drop 8 Gen.hostOps0_6))
/-- The last 5. -/
private abbrev lD : List (HloOp τ sig (Elt Ideal)) := List.drop 2 (List.drop 8 (List.drop 8 Gen.hostOps0_6))

/-- Running a list of operations is running its first n and then the rest. -/
private theorem after_split (n : Nat) (l : List (HloOp τ sig (Elt Ideal))) (V : Valuation τ sig (Elt Ideal)) :
    StableHlo.after l V = StableHlo.after (l.drop n) (StableHlo.after (l.take n) V) := by
  rw [← StableHlo.after_append, List.take_append_drop]

/-- The take is its four pieces in order. -/
private theorem take_split (V : Valuation τ sig (Elt Ideal)) :
    StableHlo.after Gen.hostOps0_6 V = StableHlo.after lD (StableHlo.after lC (StableHlo.after lB (StableHlo.after lA V))) := by
  rw [after_split 8 Gen.hostOps0_6, after_split 8 (List.drop 8 Gen.hostOps0_6),
    after_split 2 (List.drop 8 (List.drop 8 Gen.hostOps0_6))]

/-- Piece 1: the normalised row numbers, from the padded index map. -/
private theorem p1 (V : Valuation τ sig (Elt Ideal)) :
    Eq (α := IVec S27x159744x1 32)
      (StableHlo.after lA V (Proc.devRef .tc main_call3_v5))
      (tNrm (V (Proc.devRef .tc main_v0))) := by
  dsimp only [lA, Gen.hostOps0_6, List.take, List.drop]
  after_results_simp
  rfl

/-- Piece 2: the unreduced in-bounds bits, from the row numbers. -/
private theorem p2 (V : Valuation τ sig (Elt Ideal)) :
    Eq (α := IVec S27x159744x1 1)
      (StableHlo.after lB V (Proc.devRef .tc main_call3_v11))
      (tInb3 (V (Proc.devRef .tc main_call3_v5))) := by
  dsimp only [lB, Gen.hostOps0_6, List.take, List.drop]
  after_results_simp
  rfl

/-- Piece 3: the in-bounds bits reduced by "and" over the unit axis. -/
private theorem p3 (V : Valuation τ sig (Elt Ideal)) :
    Eq (α := IVec S27x159744 1)
      (StableHlo.after lC V (Proc.devRef .tc main_call3_v12))
      (Host.reduce IntOp.andi (V (Proc.devRef .tc main_call3_v11) : IVec S27x159744x1 1) (constantI S_ 1 1#1)
        Facts₀.reducesTo_S27x159744x1_S27x159744_d2 Facts₀.h_S_) := by
  dsimp only [lC, Gen.hostOps0_6, List.take, List.drop]
  after_results_simp
  simp only [StableHlo.TRef.ofBuf, StableHlo.TRef.toBuf, cast_eq]

/-- Piece 4: the gathered rows where the reduced bit is 1, the constant elsewhere. -/
private theorem p4 (V : Valuation τ sig (Elt Ideal)) :
    Eq (α := FVec Ideal S27x159744x32 .f32)
      (StableHlo.after lD V (Proc.devRef .tc main_v3))
      (select
        (broadcastInDim S27x159744x32 ![0, 1] Facts₀.bcast_S27x159744_S27x159744x32_0_1
          (V (Proc.devRef .tc main_call3_v12) : IVec S27x159744 1))
        (Host.gather gather_S150000x32_S27x159744x1_S27x159744x32_2_0_n_n_0_2_132
          (V (Proc.devRef .tc main_arg0) : FVec Ideal S150000x32 .f32)
          (V (Proc.devRef .tc main_call3_v5) : IVec S27x159744x1 32))
        (broadcastInDim S27x159744x32 ![] Facts₀.bcast_S_S27x159744x32
          (constant (F := Ideal) S_ .f32 0x7FC00000#32))) := by
  dsimp only [lD, Gen.hostOps0_6, List.take, List.drop]
  after_results_simp
  rfl

/-- Pieces 2 and 3 do not write the row numbers. -/
private theorem u_v5_B (V : Valuation τ sig (Elt Ideal)) :
    StableHlo.after lB V (Proc.devRef .tc main_call3_v5) = V (Proc.devRef .tc main_call3_v5) := by
  dsimp only [lB, Gen.hostOps0_6, List.take, List.drop]
  unwritten Gen.hostOps0_6
private theorem u_v5_C (V : Valuation τ sig (Elt Ideal)) :
    StableHlo.after lC V (Proc.devRef .tc main_call3_v5) = V (Proc.devRef .tc main_call3_v5) := by
  dsimp only [lC, Gen.hostOps0_6, List.take, List.drop]
  unwritten Gen.hostOps0_6

/-- Pieces 1 to 3 do not write the feature table. -/
private theorem u_arg0_A (V : Valuation τ sig (Elt Ideal)) :
    StableHlo.after lA V (Proc.devRef .tc main_arg0) = V (Proc.devRef .tc main_arg0) := by
  dsimp only [lA, Gen.hostOps0_6, List.take, List.drop]
  unwritten Gen.hostOps0_6
private theorem u_arg0_B (V : Valuation τ sig (Elt Ideal)) :
    StableHlo.after lB V (Proc.devRef .tc main_arg0) = V (Proc.devRef .tc main_arg0) := by
  dsimp only [lB, Gen.hostOps0_6, List.take, List.drop]
  unwritten Gen.hostOps0_6
private theorem u_arg0_C (V : Valuation τ sig (Elt Ideal)) :
    StableHlo.after lC V (Proc.devRef .tc main_arg0) = V (Proc.devRef .tc main_arg0) := by
  dsimp only [lC, Gen.hostOps0_6, List.take, List.drop]
  unwritten Gen.hostOps0_6

/-- The take in fill mode: the four pieces composed are the stage function. -/
private theorem s_v3 (V : Valuation τ sig (Elt Ideal)) :
    Eq (α := FVec Ideal S27x159744x32 .f32)
      (StableHlo.after Gen.hostOps0_6 V (Proc.devRef .tc main_v3))
      (kTake (V (Proc.devRef .tc main_arg0)) (V (Proc.devRef .tc main_v0))) := by
  rw [take_split, p4, p3, p2, u_arg0_C, u_arg0_B, u_arg0_A, u_v5_C, u_v5_B, p1]
  rfl

/-! ## The other stretches over any contents -/

/-- The index-map padding: the fill word and the padding. -/
private theorem s_v0 (V : Valuation τ sig (Elt Ideal)) :
    Eq (α := IVec S27x159744 32)
      (StableHlo.after Gen.hostOps0_1 (StableHlo.after Gen.hostOps0 V) (Proc.devRef .tc main_v0))
      (kPadI (V (Proc.devRef .tc main_arg7))) := by
  dsimp only [Gen.hostOps0, Gen.hostOps0_1]
  after_results_simp
  rfl

/-- The validity-bit padding: the fill bit and the padding. -/
private theorem s_v2 (V : Valuation τ sig (Elt Ideal)) :
    Eq (α := IVec S27x159744 1)
      (StableHlo.after Gen.hostOps0_5 (StableHlo.after Gen.hostOps0_4 V) (Proc.devRef .tc main_v2))
      (kPadM (V (Proc.devRef .tc main_arg9))) := by
  dsimp only [Gen.hostOps0_4, Gen.hostOps0_5]
  after_results_simp
  rfl

/-- The masking select with the broadcast and the constant before it. -/
private theorem s_v5 (V : Valuation τ sig (Elt Ideal)) :
    Eq (α := FVec Ideal S27x159744x32 .f32)
      (StableHlo.after Gen.hostOps0_8 (StableHlo.after Gen.hostOps0_7 V) (Proc.devRef .tc main_v5))
      (kWhere (V (Proc.devRef .tc main_v2)) (V (Proc.devRef .tc main_v3))) := by
  dsimp only [Gen.hostOps0_7, Gen.hostOps0_8]
  after_results_simp
  rfl

/-- The narrowing to bf16. -/
private theorem s_v6 (V : Valuation τ sig (Elt Ideal)) :
    Eq (α := FVec Ideal S27x159744x32 .bf16)
      (StableHlo.after Gen.hostOps0_9 V (Proc.devRef .tc main_v6))
      (truncf .bf16 (V (Proc.devRef .tc main_v5) : FVec Ideal S27x159744x32 .f32) Facts₀.bitsLt_bf16_f32) := by
  dsimp only [Gen.hostOps0_9]
  after_results_simp

/-! ## From the launch to the first kernel's entry -/

/-- The padded index map, from the launched map. -/
private theorem e_v0_2 : Eq (α := IVec S27x159744 32) (Gen.W2 m ρ c (Proc.devRef .tc main_v0))
    (kPadI (m ((c.tc : Thread nD τ).loc main_arg7))) :=
  s_v0 (Gen.W0 m ρ c)

/-- The padded index map is not written again before the take. -/
private theorem e_v0_6 : Gen.W6 m ρ c (Proc.devRef .tc main_v0) = Gen.W2 m ρ c (Proc.devRef .tc main_v0) :=
  calc Gen.W6 m ρ c (Proc.devRef .tc main_v0)
    _ = Gen.W5 m ρ c (Proc.devRef .tc main_v0) := by unwritten Gen.hostOps0_5
    _ = Gen.W4 m ρ c (Proc.devRef .tc main_v0) := by unwritten Gen.hostOps0_4
    _ = Gen.W3 m ρ c (Proc.devRef .tc main_v0) := by unwritten Gen.hostOps0_3
    _ = Gen.W2 m ρ c (Proc.devRef .tc main_v0) := by unwritten Gen.hostOps0_2

/-- The validity bits are as launched when they are padded. -/
private theorem e_arg9_4 : Gen.W4 m ρ c (Proc.devRef .tc main_arg9) = m ((c.tc : Thread nD τ).loc main_arg9) :=
  calc Gen.W4 m ρ c (Proc.devRef .tc main_arg9)
    _ = Gen.W3 m ρ c (Proc.devRef .tc main_arg9) := by unwritten Gen.hostOps0_3
    _ = Gen.W2 m ρ c (Proc.devRef .tc main_arg9) := by unwritten Gen.hostOps0_2
    _ = Gen.W1 m ρ c (Proc.devRef .tc main_arg9) := by unwritten Gen.hostOps0_1
    _ = Gen.W0 m ρ c (Proc.devRef .tc main_arg9) := by unwritten Gen.hostOps0
    _ = m ((c.tc : Thread nD τ).loc main_arg9) := rfl

/-- The padded validity bits, from the bits before the padding. -/
private theorem e_v2_6 : Eq (α := IVec S27x159744 1) (Gen.W6 m ρ c (Proc.devRef .tc main_v2))
    (kPadM (Gen.W4 m ρ c (Proc.devRef .tc main_arg9))) :=
  s_v2 (Gen.W4 m ρ c)

/-- The take does not write the padded validity bits. -/
private theorem e_v2_7 : Gen.W7 m ρ c (Proc.devRef .tc main_v2) = Gen.W6 m ρ c (Proc.devRef .tc main_v2) := by
  unwritten Gen.hostOps0_6

/-- The feature table is as launched when the take reads it. -/
private theorem e_arg0_6 : Gen.W6 m ρ c (Proc.devRef .tc main_arg0) = m ((c.tc : Thread nD τ).loc main_arg0) :=
  calc Gen.W6 m ρ c (Proc.devRef .tc main_arg0)
    _ = Gen.W5 m ρ c (Proc.devRef .tc main_arg0) := by unwritten Gen.hostOps0_5
    _ = Gen.W4 m ρ c (Proc.devRef .tc main_arg0) := by unwritten Gen.hostOps0_4
    _ = Gen.W3 m ρ c (Proc.devRef .tc main_arg0) := by unwritten Gen.hostOps0_3
    _ = Gen.W2 m ρ c (Proc.devRef .tc main_arg0) := by unwritten Gen.hostOps0_2
    _ = Gen.W1 m ρ c (Proc.devRef .tc main_arg0) := by unwritten Gen.hostOps0_1
    _ = Gen.W0 m ρ c (Proc.devRef .tc main_arg0) := by unwritten Gen.hostOps0
    _ = m ((c.tc : Thread nD τ).loc main_arg0) := rfl

/-- The taken rows, from the table and the padded index map the take reads. -/
private theorem e_v3_7 : Eq (α := FVec Ideal S27x159744x32 .f32) (Gen.W7 m ρ c (Proc.devRef .tc main_v3))
    (kTake (Gen.W6 m ρ c (Proc.devRef .tc main_arg0)) (Gen.W6 m ρ c (Proc.devRef .tc main_v0))) :=
  s_v3 (Gen.W6 m ρ c)

/-- The masked rows, from the padded validity bits and the taken rows. -/
private theorem e_v5_9 : Eq (α := FVec Ideal S27x159744x32 .f32) (Gen.W9 m ρ c (Proc.devRef .tc main_v5))
    (kWhere (Gen.W7 m ρ c (Proc.devRef .tc main_v2)) (Gen.W7 m ρ c (Proc.devRef .tc main_v3))) :=
  s_v5 (Gen.W7 m ρ c)

/-- The narrowed rows, from the masked rows. -/
private theorem e_v6_10 : Eq (α := FVec Ideal S27x159744x32 .bf16) (Gen.W10 m ρ c (Proc.devRef .tc main_v6))
    (truncf .bf16 (Gen.W9 m ρ c (Proc.devRef .tc main_v5) : FVec Ideal S27x159744x32 .f32)
      Facts₀.bitsLt_bf16_f32) :=
  s_v6 (Gen.W9 m ρ c)

/-- The first kernel's left operand when the kernel is entered: the stage functions composed, at the launched
    feature table, index map and validity bits. -/
theorem t_v6 : Gen.V10 m ρ c main_v6
    = kG1 (m ((c.tc : Thread nD τ).loc main_arg0) : FVec Ideal S150000x32 .f32)
        (m ((c.tc : Thread nD τ).loc main_arg7) : IVec S27x150000 32)
        (m ((c.tc : Thread nD τ).loc main_arg9) : IVec S27x150000 1) := by
  show Eq (α := FVec Ideal S27x159744x32 .bf16) (Gen.W10 m ρ c (Proc.devRef .tc main_v6)) _
  rw [e_v6_10, e_v5_9, e_v2_7, e_v2_6, e_arg9_4, e_v3_7, e_arg0_6, e_v0_6, e_v0_2]
  rfl

end Cert.KernelIdeal.Hand

end
-- ==== Proof.KerDefs1.lean ====
/-
  The host arithmetic between the kernel launches, as pure functions of whole arrays.

  The GEMM output (27 offsets by 159744 padded pairs by 32 channels) is scattered into a 150000-row table of zeros:
  offsets and pairs are flattened to 4313088 updates, each destination word is normalised (a negative word moved up
  by 150000), and every update is added into the row its word names. Batch normalisation then takes, for each of
  the 32 channels, the mean over the 150000 rows (their sum divided by the float 150000) and the variance (the mean
  of the squared deviations from that mean, the divisor being 150000 less zero degrees of freedom; the guard
  "divisor above zero" holds, so the not-a-number alternative is never taken). From them come a per-channel scale,
  gamma times the reciprocal square root of the stabilised variance, and a per-channel shift, beta less the mean
  times the scale. The next kernel's left operand is the normalised table taken at the source index words, scaled,
  shifted, rectified, masked by the validity bits and narrowed to bf16.
-/
import proofs.«429804_j40699110096963_3_alg».proof.KernelIdeal
import proofs.«429804_j40699110096963_3_alg».proof.Proof.KerDefs0
import Idealize.ShloMosaic.PureOps.Ideal

noncomputable section

namespace Cert.KernelIdeal.Hand

open Idealize.ShloMosaic
open Cert.KernelIdeal
open Facts₀ Facts

variable [Facts]

/-- A vector of 32 numbers laid out as a one-row table. -/
def kRow (v : FVec Ideal S32 .f32) : FVec Ideal S1x32 .f32 :=
  fun i => shapeCast S1x32 v shapeCasts_S32_S1x32 i

/-- The scatter-add of the flattened updates `contrib` into a 150000-row table of zeros, along the normalised
    flattened destination words `op`. -/
def kScat (contrib : FVec Ideal S27x159744x32 .f32) (op : IVec S27x159744 32) : FVec Ideal S150000x32 .f32 :=
  let cst_2 : FVec Ideal S_ .f32 := constant S_ .f32 0x00000000#32
  let v8 : FVec Ideal S150000x32 .f32 := broadcastInDim S150000x32 ![] bcast_S_S150000x32 cst_2
  let v9 : IVec S4313088 32 := fun i => shapeCast S4313088 op shapeCasts_S27x159744_S4313088 i
  let v10 : FVec Ideal S4313088x32 .f32 := fun i => shapeCast S4313088x32 contrib shapeCasts_S27x159744x32_S4313088x32 i
  let c_3 : IVec S_ 32 := constantI S_ 32 0#32
  let v11 : IVec S4313088 32 := broadcastInDim S4313088 ![] bcast_S_S4313088 c_3
  let v12 : IVec S4313088 1 := cmpi .slt v9 v11
  let c_4 : IVec S_ 32 := constantI S_ 32 150000#32
  let v13 : IVec S4313088 32 := broadcastInDim S4313088 ![] bcast_S_S4313088 c_4
  let v14 : IVec S4313088 32 := addi v9 v13
  let v15 : IVec S4313088 32 := select v12 v14 v9
  let v16 : IVec S4313088x1 32 := broadcastInDim S4313088x1 ![0] bcast_S4313088_S4313088x1_0 v15
  Host.scatterAdd scatter_S150000x32_S4313088x1_S4313088x32_1_0_0_1 v8 v16 v10

/-- Each channel's mean over the 150000 rows, as a one-row table. -/
def kMean (y : FVec Ideal S150000x32 .f32) : FVec Ideal S1x32 .f32 :=
  let cst_5 : FVec Ideal S_ .f32 := constant S_ .f32 0x00000000#32
  let v18 : FVec Ideal S32 .f32 := Host.reduceAdd y cst_5 reducesTo_S150000x32_S32_d0 h_S_
  let v19 : FVec Ideal S1x32 .f32 := broadcastInDim S1x32 ![1] bcast_S32_S1x32_1 v18
  let cst_6 : FVec Ideal S_ .f32 := constant S_ .f32 0x48127C00#32
  let v20 : FVec Ideal S1x32 .f32 := broadcastInDim S1x32 ![] bcast_S_S1x32 cst_6
  Host.divf v19 v20

/-- Each channel's variance over the 150000 rows, as a one-row table. -/
def kVar (y : FVec Ideal S150000x32 .f32) : FVec Ideal S1x32 .f32 :=
  let c_7 : IVec S_ 32 := constantI S_ 32 0#32
  let cst : FVec Ideal S_ .f32 := constant S_ .f32 0x00000000#32
  let v0 : FVec Ideal S32 .f32 := Host.reduceAdd y cst reducesTo_S150000x32_S32_d0 h_S_
  let v1 : FVec Ideal S1x32 .f32 := broadcastInDim S1x32 ![1] bcast_S32_S1x32_1 v0
  let cst_0 : FVec Ideal S_ .f32 := constant S_ .f32 0x48127C00#32
  let v2 : FVec Ideal S1x32 .f32 := broadcastInDim S1x32 ![] bcast_S_S1x32 cst_0
  let v3 : FVec Ideal S1x32 .f32 := Host.divf v1 v2
  let v4 : FVec Ideal S150000x32 .f32 := broadcastInDim S150000x32 ![0, 1] bcast_S1x32_S150000x32_0_1 v3
  let v5 : FVec Ideal S150000x32 .f32 := subf y v4
  let v6 : FVec Ideal S150000x32 .f32 := mulf v5 v5
  let v7 : FVec Ideal S_ .f32 := sitofp .f32 c_7
  let cst_1 : FVec Ideal S_ .f32 := constant S_ .f32 0x48127C00#32
  let v8 : FVec Ideal S_ .f32 := subf cst_1 v7
  let cst_2 : FVec Ideal S_ .f32 := constant S_ .f32 0x00000000#32
  let v9 : FVec Ideal S32 .f32 := Host.reduceAdd v6 cst_2 reducesTo_S150000x32_S32_d0 h_S_
  let v10 : FVec Ideal S1x32 .f32 := broadcastInDim S1x32 ![1] bcast_S32_S1x32_1 v9
  let v11 : FVec Ideal S1x32 .f32 := broadcastInDim S1x32 ![] bcast_S_S1x32 v8
  let v12 : FVec Ideal S1x32 .f32 := Host.divf v10 v11
  let cst_3 : FVec Ideal S_ .f32 := constant S_ .f32 0x00000000#32
  let v13 : IVec S_ 1 := cmpf .ogt v8 cst_3
  let cst_4 : FVec Ideal S_ .f32 := constant S_ .f32 0x7FC00000#32
  let w0 : FVec Ideal S_ .f32 := id cst_4
  let w1 : FVec Ideal S1x32 .f32 := broadcastInDim S1x32 ![] bcast_S_S1x32 w0
  select (broadcastInDim S1x32 ![] bcast_S_S1x32 v13) v12 w1

/-- The per-channel scale: gamma times the reciprocal square root of the stabilised variance. -/
def kScale (g : FVec Ideal S32 .f32) (var : FVec Ideal S1x32 .f32) : FVec Ideal S1x32 .f32 :=
  let v23 : FVec Ideal S1x32 .f32 := kRow g
  let cst_8 : FVec Ideal S_ .f32 := constant S_ .f32 0x3727C5AC#32
  let v24 : FVec Ideal S1x32 .f32 := broadcastInDim S1x32 ![] bcast_S_S1x32 cst_8
  let v25 : FVec Ideal S1x32 .f32 := addf var v24
  let v26 : FVec Ideal S1x32 .f32 := Host.rsqrt v25
  mulf v23 v26

/-- The per-channel shift: beta less the mean times the scale. -/
def kShift (b : FVec Ideal S32 .f32) (mean scale : FVec Ideal S1x32 .f32) : FVec Ideal S1x32 .f32 :=
  let v28 : FVec Ideal S1x32 .f32 := kRow b
  let v29 : FVec Ideal S1x32 .f32 := mulf mean scale
  subf v28 v29

/-- The taken rows scaled and shifted channel by channel, then rectified. -/
def kAffRelu (t : FVec Ideal S27x159744x32 .f32) (scale shift : FVec Ideal S1x32 .f32) :
    FVec Ideal S27x159744x32 .f32 :=
  let v32 : FVec Ideal S1x1x32 .f32 := broadcastInDim S1x1x32 ![1, 2] bcast_S1x32_S1x1x32_1_2 scale
  let v33 : FVec Ideal S27x159744x32 .f32 := broadcastInDim S27x159744x32 ![0, 1, 2] bcast_S1x1x32_S27x159744x32_0_1_2 v32
  let v34 : FVec Ideal S27x159744x32 .f32 := mulf t v33
  let v35 : FVec Ideal S1x1x32 .f32 := broadcastInDim S1x1x32 ![1, 2] bcast_S1x32_S1x1x32_1_2 shift
  let v36 : FVec Ideal S27x159744x32 .f32 := broadcastInDim S27x159744x32 ![0, 1, 2] bcast_S1x1x32_S27x159744x32_0_1_2 v35
  let v37 : FVec Ideal S27x159744x32 .f32 := addf v34 v36
  let cst_9 : FVec Ideal S_ .f32 := constant S_ .f32 0x00000000#32
  let v38 : FVec Ideal S27x159744x32 .f32 := broadcastInDim S27x159744x32 ![] bcast_S_S27x159744x32 cst_9
  maximumf v37 v38

/-- The second kernel's left operand: the rows of the first normalised table taken at the padded source words,
    scaled, shifted and rectified, masked by the padded validity bits, narrowed to bf16. -/
def kG2 (y1 : FVec Ideal S150000x32 .f32) (scale shift : FVec Ideal S1x32 .f32) (ip : IVec S27x159744 32)
    (mp : IVec S27x159744 1) : FVec Ideal S27x159744x32 .bf16 :=
  truncf .bf16 (kWhere mp (kAffRelu (kTake y1 ip) scale shift)) bitsLt_bf16_f32

end Cert.KernelIdeal.Hand

end
-- ==== Proof.KerTerms.lean ====
/-
  The TensorCore's buffers between the first and the second kernel launch, as pure terms of the launch memory.

  The fold through @main gives the buffers at every boundary: a stretch of host operations rewrites the buffer each of
  its operations writes and leaves the others, a kernel launch rewrites its output arrays. Read back from the second
  launch's left operand: the first launch's output is scattered into a 150000-row table; the table's channel means
  and variances give a scale and a shift per channel; the table is taken at the padded source words, scaled, shifted,
  rectified, masked by the padded validity bits and narrowed. The padded index maps and the padded validity bits were
  written before the first launch, from the launch memory's arguments, and nothing writes them afterwards; no
  operation writes an argument at all.
-/
import proofs.«429804_j40699110096963_3_alg».proof.Proof.Gen.KernelIdeal.Frame
import proofs.«429804_j40699110096963_3_alg».proof.Proof.KerDefs0
import proofs.«429804_j40699110096963_3_alg».proof.Proof.KerDefs1
import Idealize.ShloMosaic.PureOps.Ideal

set_option maxRecDepth 16384

noncomputable section

namespace Cert.KernelIdeal.Hand

open Idealize.ShloMosaic Idealize.ShloMosaic.TcCoe Idealize.ShloMosaic.Tactic
open Cert.KernelIdeal

/-! ## Three steps along the fold -/

/-- No operation of a stretch writes the buffer: every operation writes one reference, and it is another one. -/
macro "not_written" : tactic =>
  `(tactic| (refine List.forall_iff_forall_mem.mp ?_
             simp only [Gen.hostOps0, Gen.hostOps0_1, Gen.hostOps0_2, Gen.hostOps0_3, Gen.hostOps0_4, Gen.hostOps0_5,
               Gen.hostOps0_6, Gen.hostOps0_7, Gen.hostOps0_8, Gen.hostOps0_9, Gen.hostOps1, Gen.hostOps1_1,
               Gen.hostOps1_2, Gen.hostOps1_3, Gen.hostOps1_4, Gen.hostOps1_5, Gen.hostOps1_6,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- One stretch back along the fold, at a buffer the stretch does not write. -/
macro "carry_step" : tactic =>
  `(tactic| ((with_reducible refine Eq.trans (StableHlo.after_of_forall_not_mem _ _ ?_) ?_); (focus not_written)))

/-- Back along the fold through every stretch that does not write the buffer: it stops at the stretch that wrote
    the buffer, at a kernel launch, or at the launch memory. -/
macro "carry_down" : tactic => `(tactic| repeat carry_step)

/-- The typed references of a callee's operations carry their buffer types by equations that hold by computation:
    unfold them to the plain operations and strip the transports along those equations. -/
macro "untype_ops" : tactic =>
  `(tactic| (dsimp only [Gen.hostOps0, Gen.hostOps0_1, Gen.hostOps0_2, Gen.hostOps0_3, Gen.hostOps0_4, Gen.hostOps0_5,
               Gen.hostOps1, Gen.hostOps1_1, Gen.hostOps1_2, Gen.hostOps1_3, Gen.hostOps1_4, Gen.hostOps1_5,
               Gen.hostOps1_6, StableHlo.TRef.nullary, StableHlo.TRef.unary, StableHlo.TRef.binary,
               StableHlo.TRef.ternary, StableHlo.TRef.toBuf, StableHlo.TRef.ofBuf]
             try simp only [cast_eq]))

/-! ## Each stretch's results as terms of the contents it starts from -/

section Stretches

variable (V : Valuation τ sig (Elt Ideal))

/-- The source index map padded: the pad constant, its copy into the callee, the pad. -/
theorem t1_pad7 :
    (StableHlo.after Gen.hostOps0_1 (StableHlo.after Gen.hostOps0 V) (Proc.devRef .tc main_v0) : IVec S27x159744 32)
      = kPadI (V (Proc.devRef .tc main_arg7)) := by
  untype_ops; after_results; rfl

/-- The destination index map padded. -/
theorem t1_pad8 :
    (StableHlo.after Gen.hostOps0_3 (StableHlo.after Gen.hostOps0_2 V) (Proc.devRef .tc main_v1) : IVec S27x159744 32)
      = kPadI (V (Proc.devRef .tc main_arg8)) := by
  untype_ops; after_results; rfl

/-- The validity bits padded. -/
theorem t1_pad9 :
    (StableHlo.after Gen.hostOps0_5 (StableHlo.after Gen.hostOps0_4 V) (Proc.devRef .tc main_v2) : IVec S27x159744 1)
      = kPadM (V (Proc.devRef .tc main_arg9)) := by
  untype_ops; after_results; rfl

/-- The first launch's output scattered along the padded destination words. -/
theorem t1_scat :
    (StableHlo.after Gen.hostOps1 V (Proc.devRef .tc main_v17) : FVec Ideal S150000x32 .f32)
      = kScat (V (Proc.devRef .tc main_v7)) (V (Proc.devRef .tc main_v1)) := by
  untype_ops; after_results; rfl

set_option maxHeartbeats 1000000 in
/-- The scattered table's channel means. -/
theorem t1_mean :
    (StableHlo.after Gen.hostOps1 V (Proc.devRef .tc main_v21) : FVec Ideal S1x32 .f32)
      = kMean (kScat (V (Proc.devRef .tc main_v7)) (V (Proc.devRef .tc main_v1))) := by
  untype_ops; after_results; rfl

/-- The degrees of freedom the variance takes off: the word 0. -/
theorem t1_c7 :
    (StableHlo.after Gen.hostOps1 V (Proc.devRef .tc main_c_7) : IVec S_ 32) = constantI S_ 32 0#32 := by
  untype_ops; after_results <;> rfl

/-- The scattered table's channel variances. -/
theorem t1_var (hc : (V (Proc.devRef .tc main_c_7) : IVec S_ 32) = constantI S_ 32 0#32) :
    (StableHlo.after Gen.hostOps1_1 V (Proc.devRef .tc main_v22) : FVec Ideal S1x32 .f32)
      = kVar (V (Proc.devRef .tc main_v17)) := by
  untype_ops; after_results; rw [hc]; rfl

/-- The scale per channel. -/
theorem t1_scale :
    (StableHlo.after Gen.hostOps1_2 V (Proc.devRef .tc main_v27) : FVec Ideal S1x32 .f32)
      = kScale (V (Proc.devRef .tc main_arg2)) (V (Proc.devRef .tc main_v22)) := by
  untype_ops; after_results; rfl

/-- The shift per channel. -/
theorem t1_shift :
    (StableHlo.after Gen.hostOps1_2 V (Proc.devRef .tc main_v30) : FVec Ideal S1x32 .f32)
      = kShift (V (Proc.devRef .tc main_arg3)) (V (Proc.devRef .tc main_v21))
          (kScale (V (Proc.devRef .tc main_arg2)) (V (Proc.devRef .tc main_v22))) := by
  untype_ops; after_results; rfl

set_option maxHeartbeats 1000000 in
/-- The scattered table taken at the padded source words. -/
theorem t1_take :
    (StableHlo.after Gen.hostOps1_3 V (Proc.devRef .tc main_v31) : FVec Ideal S27x159744x32 .f32)
      = kTake (V (Proc.devRef .tc main_v17)) (V (Proc.devRef .tc main_v0)) := by
  untype_ops; after_results; rfl

/-- The taken rows scaled, shifted, rectified and masked. -/
theorem t1_relu :
    (StableHlo.after Gen.hostOps1_5 (StableHlo.after Gen.hostOps1_4 V) (Proc.devRef .tc main_v41)
        : FVec Ideal S27x159744x32 .f32)
      = kWhere (V (Proc.devRef .tc main_v2))
          (kAffRelu (V (Proc.devRef .tc main_v31)) (V (Proc.devRef .tc main_v27)) (V (Proc.devRef .tc main_v30))) := by
  untype_ops; after_results; rfl

/-- The masked rows narrowed. -/
theorem t1_narrow :
    (StableHlo.after Gen.hostOps1_6 V (Proc.devRef .tc main_v42) : FVec Ideal S27x159744x32 .bf16)
      = (truncf .bf16 (V (Proc.devRef .tc main_v41) : FVec Ideal S27x159744x32 .f32) Gen.bitsLt_bf16_f32
          : FVec Ideal S27x159744x32 .bf16) := by
  untype_ops; after_results <;> rfl

end Stretches

/-! ## The boundaries' contents -/

variable (m : (ℓ : Loc nD τ sig) → Buf (Elt Ideal) ℓ) (ρ : Dev nD → PrngReg) (c : Dev nD)

set_option quotPrecheck false

local notation "m₂" => (m ((c.tc : Thread nD τ).loc main_arg2) : FVec Ideal S32 .f32)
local notation "m₃" => (m ((c.tc : Thread nD τ).loc main_arg3) : FVec Ideal S32 .f32)
local notation "m₄" => (m ((c.tc : Thread nD τ).loc main_arg4) : FVec Ideal S27x32x32 .f32)
local notation "m₇" => (m ((c.tc : Thread nD τ).loc main_arg7) : IVec S27x150000 32)
local notation "m₈" => (m ((c.tc : Thread nD τ).loc main_arg8) : IVec S27x150000 32)
local notation "m₉" => (m ((c.tc : Thread nD τ).loc main_arg9) : IVec S27x150000 1)
/-- The first launch's output scattered: the table both normalisations read. -/
local notation "Y₁" => (Gen.W12 m ρ c (Proc.devRef .tc main_v17) : FVec Ideal S150000x32 .f32)

/-- The padded source index map, where it is written. -/
theorem t1_v0_at2 : Gen.W2 m ρ c (Proc.devRef .tc main_v0) = kPadI m₇ :=
  t1_pad7 (Gen.W0 m ρ c)

/-- The padded destination index map, where it is written. -/
theorem t1_v1_at4 : Gen.W4 m ρ c (Proc.devRef .tc main_v1) = kPadI m₈ :=
  (t1_pad8 (Gen.W2 m ρ c)).trans (congrArg kPadI (by carry_down; rfl))

/-- The padded validity bits, where they are written. -/
theorem t1_v2_at6 : Gen.W6 m ρ c (Proc.devRef .tc main_v2) = kPadM m₉ :=
  (t1_pad9 (Gen.W4 m ρ c)).trans (congrArg kPadM (by carry_down; rfl))

/-- The padded destination index map after the first launch. -/
theorem t1_v1_at11 : Gen.W11 m ρ c (Proc.devRef .tc main_v1) = kPadI m₈ := by
  refine (Gen.W11_of_ne m ρ c main_v1 (by decide)).trans ?_
  carry_down
  exact t1_v1_at4 m ρ c

/-- The padded source index map before the second take. -/
theorem t1_v0_at14 : Gen.W14 m ρ c (Proc.devRef .tc main_v0) = kPadI m₇ := by
  carry_down
  refine (Gen.W11_of_ne m ρ c main_v0 (by decide)).trans ?_
  carry_down
  exact t1_v0_at2 m ρ c

/-- The padded validity bits before the second masking. -/
theorem t1_v2_at15 : Gen.W15 m ρ c (Proc.devRef .tc main_v2) = kPadM m₉ := by
  carry_down
  refine (Gen.W11_of_ne m ρ c main_v2 (by decide)).trans ?_
  carry_down
  exact t1_v2_at6 m ρ c

/-- The first normalisation's gamma, as launched. -/
theorem t1_arg2_at13 : Gen.W13 m ρ c (Proc.devRef .tc main_arg2) = m₂ := by
  carry_down
  refine (Gen.W11_of_ne m ρ c main_arg2 (by decide)).trans ?_
  carry_down
  rfl

/-- The first normalisation's beta, as launched. -/
theorem t1_arg3_at13 : Gen.W13 m ρ c (Proc.devRef .tc main_arg3) = m₃ := by
  carry_down
  refine (Gen.W11_of_ne m ρ c main_arg3 (by decide)).trans ?_
  carry_down
  rfl

/-- The scattered table: the first launch's output along the padded destination words. -/
theorem t_v17 : Gen.W12 m ρ c (Proc.devRef .tc main_v17)
    = kScat (Gen.W11 m ρ c (Proc.devRef .tc main_v7)) (kPadI m₈) :=
  (t1_scat (Gen.W11 m ρ c)).trans (congrArg (kScat _) (t1_v1_at11 m ρ c))

theorem t1_v17_at14 : Gen.W14 m ρ c (Proc.devRef .tc main_v17) = Y₁ := by
  carry_down; rfl

theorem t1_v21_at13 : Gen.W13 m ρ c (Proc.devRef .tc main_v21) = kMean Y₁ := by
  carry_down
  exact (t1_mean (Gen.W11 m ρ c)).trans (congrArg kMean (t1_scat (Gen.W11 m ρ c)).symm)

theorem t1_v22 : Gen.W13 m ρ c (Proc.devRef .tc main_v22) = kVar Y₁ :=
  t1_var (Gen.W12 m ρ c) (t1_c7 (Gen.W11 m ρ c))

theorem t1_v27 : Gen.W14 m ρ c (Proc.devRef .tc main_v27) = kScale m₂ (kVar Y₁) :=
  (t1_scale (Gen.W13 m ρ c)).trans (by rw [t1_arg2_at13, t1_v22])

theorem t1_v30 : Gen.W14 m ρ c (Proc.devRef .tc main_v30)
    = kShift m₃ (kMean Y₁) (kScale m₂ (kVar Y₁)) :=
  (t1_shift (Gen.W13 m ρ c)).trans (by rw [t1_arg3_at13, t1_v21_at13, t1_arg2_at13, t1_v22])

theorem t1_v27_at15 : Gen.W15 m ρ c (Proc.devRef .tc main_v27) = kScale m₂ (kVar Y₁) := by
  carry_down; exact t1_v27 m ρ c

theorem t1_v30_at15 : Gen.W15 m ρ c (Proc.devRef .tc main_v30)
    = kShift m₃ (kMean Y₁) (kScale m₂ (kVar Y₁)) := by
  carry_down; exact t1_v30 m ρ c

theorem t1_v31 : Gen.W15 m ρ c (Proc.devRef .tc main_v31) = kTake Y₁ (kPadI m₇) :=
  (t1_take (Gen.W14 m ρ c)).trans (by rw [t1_v17_at14, t1_v0_at14])

theorem t1_v41 : Gen.W17 m ρ c (Proc.devRef .tc main_v41)
    = kWhere (kPadM m₉) (kAffRelu (kTake Y₁ (kPadI m₇)) (kScale m₂ (kVar Y₁))
        (kShift m₃ (kMean Y₁) (kScale m₂ (kVar Y₁)))) :=
  (t1_relu (Gen.W15 m ρ c)).trans (by rw [t1_v2_at15, t1_v31, t1_v27_at15, t1_v30_at15])

/-- The second launch's left operand. -/
theorem t_v42 : Gen.V18 m ρ c main_v42
    = kG2 Y₁ (kScale m₂ (kVar Y₁)) (kShift m₃ (kMean Y₁) (kScale m₂ (kVar Y₁))) (kPadI m₇) (kPadM m₉) :=
  (t1_narrow (Gen.W17 m ρ c)).trans (by rw [t1_v41]; rfl)

/-- The second launch's weights, as launched. -/
theorem t_arg4_at18 : Gen.V18 m ρ c main_arg4 = m₄ := by
  show Gen.W18 m ρ c (Proc.devRef .tc main_arg4) = _
  carry_down
  refine (Gen.W11_of_ne m ρ c main_arg4 (by decide)).trans ?_
  carry_down
  rfl

/-- The second launch's output array after the launch: what its write-backs leave. -/
theorem t_v43 : Gen.W19 m ρ c (Proc.devRef .tc main_v43) = (Gen.dat1 (Gen.V18 m ρ) c).arrAt 2 cfg1.N :=
  Gen.W19_arr m ρ c 2

end Cert.KernelIdeal.Hand

end
-- ==== Proof.KerTerms2.lean ====
/-
  The second half of the kernel program's host arithmetic, named: the buffers that the last kernel launch reads
  hold the second scatter of the second GEMM output along the padded destination words, its per-channel mean and
  variance, gamma and beta laid out as one-row tables, and the input table as launched.
-/
import proofs.«429804_j40699110096963_3_alg».proof.Proof.Gen.KernelIdeal.Frame
import proofs.«429804_j40699110096963_3_alg».proof.Proof.KerDefs1
import Idealize.ShloMosaic.PureOps.Ideal

set_option maxRecDepth 16384

noncomputable section

namespace Cert.KernelIdeal.Hand

open Idealize.ShloMosaic Idealize.ShloMosaic.TcCoe Idealize.ShloMosaic.Tactic
open Cert.KernelIdeal Cert.KernelIdeal.Gen
open Facts₀ Facts

/-- A buffer that no operation of a stretch writes keeps its contents through the stretch: every operation's
    written buffer is another reference. -/
local macro "t2_carry " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The second scatter stretch leaves, in its result table, the scatter of the second GEMM output along the padded
    destination words. -/
private theorem t2_s2_v53 (V : Valuation τ sig (Elt Ideal)) :
    (StableHlo.after hostOps2 V (Proc.devRef .tc main_v53) : FVec Ideal S150000x32 .f32)
      = kScat (V (Proc.devRef .tc main_v43)) (V (Proc.devRef .tc main_v1)) := by
  dsimp only [hostOps2]; after_results_simp; rfl

/-- The same stretch leaves the mean of that scatter. -/
private theorem t2_s2_v57 (V : Valuation τ sig (Elt Ideal)) :
    (StableHlo.after hostOps2 V (Proc.devRef .tc main_v57) : FVec Ideal S1x32 .f32)
      = kMean (kScat (V (Proc.devRef .tc main_v43)) (V (Proc.devRef .tc main_v1))) := by
  dsimp only [hostOps2]; after_results_simp; rfl

/-- The same stretch leaves the integer zero that the variance's divisor takes off. -/
private theorem t2_s2_c16 (V : Valuation τ sig (Elt Ideal)) :
    (StableHlo.after hostOps2 V (Proc.devRef .tc main_c_16) : IVec S_ 32) = constantI S_ 32 0#32 := by
  dsimp only [hostOps2]; after_results

/-- The variance stretch leaves the variance of the scattered table. -/
private theorem t2_s2_1_v58 (V : Valuation τ sig (Elt Ideal))
    (hc : (V (Proc.devRef .tc main_c_16) : IVec S_ 32) = constantI S_ 32 0#32) :
    (StableHlo.after hostOps2_1 V (Proc.devRef .tc main_v58) : FVec Ideal S1x32 .f32)
      = kVar (V (Proc.devRef .tc main_v53)) := by
  dsimp only [hostOps2_1]; after_results
  simp only [StableHlo.TRef.ofBuf, StableHlo.TRef.toBuf, cast_eq]
  rw [hc]; rfl

/-- The last stretch lays gamma and beta out as one-row tables. -/
private theorem t2_s2_2_v59 (V : Valuation τ sig (Elt Ideal)) :
    (StableHlo.after hostOps2_2 V (Proc.devRef .tc main_v59) : FVec Ideal S1x32 .f32)
      = kRow (V (Proc.devRef .tc main_arg5)) := by
  dsimp only [hostOps2_2]; after_results; rfl

private theorem t2_s2_2_v60 (V : Valuation τ sig (Elt Ideal)) :
    (StableHlo.after hostOps2_2 V (Proc.devRef .tc main_v60) : FVec Ideal S1x32 .f32)
      = kRow (V (Proc.devRef .tc main_arg6)) := by
  dsimp only [hostOps2_2]; after_results; rfl

/-- The second padding stretch leaves the destination words padded with the word 0. -/
private theorem t2_s0_3_v1 (V : Valuation τ sig (Elt Ideal))
    (hc : (V (Proc.devRef .tc main_c_0) : IVec S_ 32) = constantI S_ 32 0#32) :
    (StableHlo.after hostOps0_3 V (Proc.devRef .tc main_v1) : IVec S27x159744 32)
      = kPadI (V (Proc.devRef .tc main_arg8)) := by
  dsimp only [hostOps0_3]; after_results
  simp only [StableHlo.TRef.ofBuf, StableHlo.TRef.toBuf, cast_eq]
  rw [hc]; rfl

variable (m : (ℓ : Loc nD τ sig) → Buf (Elt Ideal) ℓ) (ρ : Dev nD → PrngReg) (c : Dev nD)

/-- The destination words as launched reach the second padding stretch untouched. -/
private theorem t2_arg8_at3 :
    W3 m ρ c (Proc.devRef .tc main_arg8) = m ((c : Thread nD τ).loc main_arg8) :=
  calc W3 m ρ c (Proc.devRef .tc main_arg8)
    _ = W2 m ρ c (Proc.devRef .tc main_arg8) := by t2_carry hostOps0_2
    _ = W1 m ρ c (Proc.devRef .tc main_arg8) := by t2_carry hostOps0_1
    _ = W0 m ρ c (Proc.devRef .tc main_arg8) := by t2_carry hostOps0
    _ = m ((c : Thread nD τ).loc main_arg8) := rfl

/-- The padding word written just before the second padding stretch is 0. -/
private theorem t2_c0_at3 : (W3 m ρ c (Proc.devRef .tc main_c_0) : IVec S_ 32) = constantI S_ 32 0#32 := by
  show StableHlo.after hostOps0_2 (W2 m ρ c) (Proc.devRef .tc main_c_0) = _
  dsimp only [hostOps0_2]; after_results

/-- After the second padding stretch the padded destination words are the launched ones padded with 0. -/
private theorem t2_v1_at4 :
    (W4 m ρ c (Proc.devRef .tc main_v1) : IVec S27x159744 32) = kPadI (m ((c : Thread nD τ).loc main_arg8)) :=
  (t2_s0_3_v1 (W3 m ρ c) (t2_c0_at3 m ρ c)).trans (congrArg kPadI (t2_arg8_at3 m ρ c))

/-- Nothing between the second padding stretch and the second kernel's exit writes the padded destination words. -/
private theorem t2_v1_at19 :
    (W19 m ρ c (Proc.devRef .tc main_v1) : IVec S27x159744 32) = kPadI (m ((c : Thread nD τ).loc main_arg8)) :=
  calc W19 m ρ c (Proc.devRef .tc main_v1)
    _ = W18 m ρ c (Proc.devRef .tc main_v1) := W19_of_ne m ρ c main_v1 (by decide)
    _ = W17 m ρ c (Proc.devRef .tc main_v1) := by t2_carry hostOps1_6
    _ = W16 m ρ c (Proc.devRef .tc main_v1) := by t2_carry hostOps1_5
    _ = W15 m ρ c (Proc.devRef .tc main_v1) := by t2_carry hostOps1_4
    _ = W14 m ρ c (Proc.devRef .tc main_v1) := by t2_carry hostOps1_3
    _ = W13 m ρ c (Proc.devRef .tc main_v1) := by t2_carry hostOps1_2
    _ = W12 m ρ c (Proc.devRef .tc main_v1) := by t2_carry hostOps1_1
    _ = W11 m ρ c (Proc.devRef .tc main_v1) := by t2_carry hostOps1
    _ = W10 m ρ c (Proc.devRef .tc main_v1) := W11_of_ne m ρ c main_v1 (by decide)
    _ = W9 m ρ c (Proc.devRef .tc main_v1) := by t2_carry hostOps0_9
    _ = W8 m ρ c (Proc.devRef .tc main_v1) := by t2_carry hostOps0_8
    _ = W7 m ρ c (Proc.devRef .tc main_v1) := by t2_carry hostOps0_7
    _ = W6 m ρ c (Proc.devRef .tc main_v1) := by t2_carry hostOps0_6
    _ = W5 m ρ c (Proc.devRef .tc main_v1) := by t2_carry hostOps0_5
    _ = W4 m ρ c (Proc.devRef .tc main_v1) := by t2_carry hostOps0_4
    _ = kPadI (m ((c : Thread nD τ).loc main_arg8)) := t2_v1_at4 m ρ c

/-- The second scattered table is not written again before the last kernel's entry. -/
private theorem t2_v53_at22 : V22 m ρ c main_v53 = W20 m ρ c (Proc.devRef .tc main_v53) :=
  calc V22 m ρ c main_v53
    _ = W21 m ρ c (Proc.devRef .tc main_v53) := by t2_carry hostOps2_2
    _ = W20 m ρ c (Proc.devRef .tc main_v53) := by t2_carry hostOps2_1

/-- At the last kernel's entry the second scattered table is the scatter of the second GEMM output along the padded
    destination words. -/
theorem t_v53 :
    V22 m ρ c main_v53
      = kScat (W19 m ρ c (Proc.devRef .tc main_v43)) (kPadI (m ((c : Thread nD τ).loc main_arg8))) :=
  calc V22 m ρ c main_v53
    _ = W20 m ρ c (Proc.devRef .tc main_v53) := t2_v53_at22 m ρ c
    _ = kScat (W19 m ρ c (Proc.devRef .tc main_v43)) (W19 m ρ c (Proc.devRef .tc main_v1)) :=
        t2_s2_v53 (W19 m ρ c)
    _ = kScat (W19 m ρ c (Proc.devRef .tc main_v43)) (kPadI (m ((c : Thread nD τ).loc main_arg8))) :=
        congrArg (kScat _) (t2_v1_at19 m ρ c)

/-- At the last kernel's entry the mean table is the mean of the second scattered table. -/
theorem t_v57 : V22 m ρ c main_v57 = kMean (V22 m ρ c main_v53) :=
  calc V22 m ρ c main_v57
    _ = W21 m ρ c (Proc.devRef .tc main_v57) := by t2_carry hostOps2_2
    _ = W20 m ρ c (Proc.devRef .tc main_v57) := by t2_carry hostOps2_1
    _ = kMean (kScat (W19 m ρ c (Proc.devRef .tc main_v43)) (W19 m ρ c (Proc.devRef .tc main_v1))) :=
        t2_s2_v57 (W19 m ρ c)
    _ = kMean (W20 m ρ c (Proc.devRef .tc main_v53)) := congrArg kMean (t2_s2_v53 (W19 m ρ c)).symm
    _ = kMean (V22 m ρ c main_v53) := congrArg kMean (t2_v53_at22 m ρ c).symm

/-- At the last kernel's entry the variance table is the variance of the second scattered table. -/
theorem t_v58 : V22 m ρ c main_v58 = kVar (V22 m ρ c main_v53) :=
  calc V22 m ρ c main_v58
    _ = W21 m ρ c (Proc.devRef .tc main_v58) := by t2_carry hostOps2_2
    _ = kVar (W20 m ρ c (Proc.devRef .tc main_v53)) := t2_s2_1_v58 (W20 m ρ c) (t2_s2_c16 (W19 m ρ c))
    _ = kVar (V22 m ρ c main_v53) := congrArg kVar (t2_v53_at22 m ρ c).symm

/-- The second gamma as launched reaches the last stretch untouched. -/
private theorem t2_arg5_at21 :
    W21 m ρ c (Proc.devRef .tc main_arg5) = m ((c : Thread nD τ).loc main_arg5) :=
  calc W21 m ρ c (Proc.devRef .tc main_arg5)
    _ = W22 m ρ c (Proc.devRef .tc main_arg5) := Eq.symm (by t2_carry hostOps2_2)
    _ = W23 m ρ c (Proc.devRef .tc main_arg5) := (W23_of_ne m ρ c main_arg5 (by decide)).symm
    _ = m ((c : Thread nD τ).loc main_arg5) := W23_main_arg5 m ρ c

/-- The second beta as launched reaches the last stretch untouched. -/
private theorem t2_arg6_at21 :
    W21 m ρ c (Proc.devRef .tc main_arg6) = m ((c : Thread nD τ).loc main_arg6) :=
  calc W21 m ρ c (Proc.devRef .tc main_arg6)
    _ = W22 m ρ c (Proc.devRef .tc main_arg6) := Eq.symm (by t2_carry hostOps2_2)
    _ = W23 m ρ c (Proc.devRef .tc main_arg6) := (W23_of_ne m ρ c main_arg6 (by decide)).symm
    _ = m ((c : Thread nD τ).loc main_arg6) := W23_main_arg6 m ρ c

/-- At the last kernel's entry the second gamma is laid out as a one-row table. -/
theorem t_v59 : V22 m ρ c main_v59 = kRow (m ((c : Thread nD τ).loc main_arg5)) :=
  (t2_s2_2_v59 (W21 m ρ c)).trans (congrArg kRow (t2_arg5_at21 m ρ c))

/-- At the last kernel's entry the second beta is laid out as a one-row table. -/
theorem t_v60 : V22 m ρ c main_v60 = kRow (m ((c : Thread nD τ).loc main_arg6)) :=
  (t2_s2_2_v60 (W21 m ρ c)).trans (congrArg kRow (t2_arg6_at21 m ρ c))

/-- At the last kernel's entry the input table is as launched: the last kernel only reads it. -/
theorem t_arg0_at22 : V22 m ρ c main_arg0 = m ((c : Thread nD τ).loc main_arg0) :=
  calc V22 m ρ c main_arg0
    _ = W23 m ρ c (Proc.devRef .tc main_arg0) :=
        ((W23_arr m ρ c 1).trans (((dat2 (V22 m ρ) c).arrAt_in 1 rfl _).trans (A_eq2 (V22 m ρ) c 1))).symm
    _ = m ((c : Thread nD τ).loc main_arg0) := W23_main_arg0 m ρ c

/-- At the last kernel's exit the result buffer holds what the kernel's write-backs leave. -/
theorem t_v61 : W23 m ρ c (Proc.devRef .tc main_v61) = (dat2 (V22 m ρ) c).arrAt 6 cfg2.N :=
  W23_arr m ρ c 6

end Cert.KernelIdeal.Hand

end
-- ==== Proof.KerGemm0.lean ====
/- The value region 0 leaves in its output array: each [12288, 32] row block of offset k is the block of gathered
   features times the offset's 32 x 32 weight matrix, so entry (k, m, d) of the output is the sum over the 32 input
   channels c of g[k, m, c] * W[k, c, d]. First the body's one stored value read at an index (a matrix product into a
   zero accumulator between two changes of layout), then each grid point's write-back as its block of that one
   whole-array function, the blocks' cover of the array, and the array after the last point. -/
import proofs.«429804_j40699110096963_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Hand

open Cert.KernelIdeal Cert.KernelIdeal.Gen

/-! ## The matrix product's operand indices, axis by axis -/

/-- The left operand's row is the output's row. -/
theorem lhs_gemm0_0 (i : S12288x32.Idx) (q : dot_S12288x32_S32x32_S12288x32_1_0_0_1_n_n.contr.Idx) :
    (dot_S12288x32_S32x32_S12288x32_1_0_0_1_n_n.lhsIdx i q 0).val = (i 0).val := by
  unfold DotDims.lhsIdx
  rw [dif_neg (show ¬(0 : Fin S12288x32.rank) ∈ dot_S12288x32_S32x32_S12288x32_1_0_0_1_n_n.lhsBatch by decide),
    dif_pos (show (0 : Fin S12288x32.rank) ∈ dot_S12288x32_S32x32_S12288x32_1_0_0_1_n_n.lhsNonContracting by decide)]
  rfl

/-- The left operand's column is the contracted channel. -/
theorem lhs_gemm0_1 (i : S12288x32.Idx) (q : dot_S12288x32_S32x32_S12288x32_1_0_0_1_n_n.contr.Idx) :
    (dot_S12288x32_S32x32_S12288x32_1_0_0_1_n_n.lhsIdx i q 1).val = (q ⟨0, by decide⟩).val :=
  dot_S12288x32_S32x32_S12288x32_1_0_0_1_n_n.lhsIdx_val_of_single rfl i q

/-- The right operand's row is the contracted channel. -/
theorem rhs_gemm0_0 (i : S12288x32.Idx) (q : dot_S12288x32_S32x32_S12288x32_1_0_0_1_n_n.contr.Idx) :
    (dot_S12288x32_S32x32_S12288x32_1_0_0_1_n_n.rhsIdx i q 0).val = (q ⟨0, by decide⟩).val :=
  dot_S12288x32_S32x32_S12288x32_1_0_0_1_n_n.rhsIdx_val_of_single rfl i q

/-- The right operand's column is the output's column. -/
theorem rhs_gemm0_1 (i : S12288x32.Idx) (q : dot_S12288x32_S32x32_S12288x32_1_0_0_1_n_n.contr.Idx) :
    (dot_S12288x32_S32x32_S12288x32_1_0_0_1_n_n.rhsIdx i q 1).val = (i 1).val := by
  unfold DotDims.rhsIdx
  rw [dif_neg (show ¬(1 : Fin S32x32.rank) ∈ dot_S12288x32_S32x32_S12288x32_1_0_0_1_n_n.rhsBatch by decide),
    dif_pos (show (1 : Fin S32x32.rank) ∈ dot_S12288x32_S32x32_S12288x32_1_0_0_1_n_n.rhsNonContracting by decide)]
  rfl

/-! ## The body's stored value at an index -/

/-- Entry (r, d) of the stored block is the sum over the channels c of the feature block's (r, c) times the weight
    block's (c, d): the leading unit axes come and go by shape casts, the weights' narrowing is the identity on
    extended reals, and a product into the zero accumulator is the plain sum. -/
theorem gemm0_payload_apply (x0 : FVec Ideal S1x12288x32 .bf16) (x1 : FVec Ideal S1x32x32 .f32)
    (u : Fin 1) (r : Fin 12288) (d : Fin 32) :
    k0_pay1 (F := Ideal) x0 x1 (ix3 u r d) = ∑ cc : Fin 32, x0 (ix3 (0 : Fin 1) r cc) * x1 (ix3 (0 : Fin 1) cc d) := by
  unfold k0_pay1
  refine (shapeCast_ab_1ab_apply _ _ u r d).trans ?_
  refine (Ideal.matmul_constant_zero_apply dot_S12288x32_S32x32_S12288x32_1_0_0_1_n_n none _ _ (ix2 r d)).trans ?_
  rw [← Equiv.sum_comp (contrEquiv1 dot_S12288x32_S32x32_S12288x32_1_0_0_1_n_n 32 rfl rfl).symm]
  refine Finset.sum_congr rfl fun cc _ => ?_
  have hk := contrEquiv1_symm_val dot_S12288x32_S32x32_S12288x32_1_0_0_1_n_n 32 rfl rfl cc
  have el : dot_S12288x32_S32x32_S12288x32_1_0_0_1_n_n.lhsIdx (ix2 r d)
      ((contrEquiv1 dot_S12288x32_S32x32_S12288x32_1_0_0_1_n_n 32 rfl rfl).symm cc) = ix2 r cc :=
    funext fun a => Fin.ext (by
      match a with
      | ⟨0, _⟩ => exact lhs_gemm0_0 _ _
      | ⟨1, _⟩ => exact (lhs_gemm0_1 _ _).trans hk)
  have er : dot_S12288x32_S32x32_S12288x32_1_0_0_1_n_n.rhsIdx (ix2 r d)
      ((contrEquiv1 dot_S12288x32_S32x32_S12288x32_1_0_0_1_n_n 32 rfl rfl).symm cc) = ix2 cc d :=
    funext fun a => Fin.ext (by
      match a with
      | ⟨0, _⟩ => exact (rhs_gemm0_0 _ _).trans hk
      | ⟨1, _⟩ => exact rhs_gemm0_1 _ _)
  rw [el, er]
  refine congrArg₂ (· * ·) (shapeCast_1ab_ab_apply x0 _ r cc) ?_
  exact (truncf_apply (φ := .f32) (ψ := .bf16) _ bitsLt_bf16_f32 (ix2 cc d)).trans (shapeCast_1ab_ab_apply x1 _ cc d)

/-! ## The output array as one function of the two arrays the region reads -/

/-- Entry (k, m, d): the sum over the input channels c of the features' (k, m, c) times the weights' (k, c, d). -/
def gemmArr (a : S27x159744x32.Idx → EReal) (w : S27x32x32.Idx → EReal) : S27x159744x32.Idx → EReal :=
  fun i => ∑ cc : Fin 32, a (ix3 (i 0) (i 1) cc) * w (ix3 (i 0) cc (i 2))

theorem gemmArr_ix3 (a : S27x159744x32.Idx → EReal) (w : S27x32x32.Idx → EReal) (k : Fin 27) (mm : Fin 159744) (d : Fin 32) :
    gemmArr a w (ix3 k mm d) = ∑ cc : Fin 32, a (ix3 k mm cc) * w (ix3 k cc d) := rfl

/-- ONE POINT: when the feature block is rows `bb * 12288 …` of offset `kk` of the feature array and the weight block is
    matrix `kk` of the weight array, the stored block's entry `j` is the whole-array function at the array index `i` that
    `j` sits at. -/
theorem gemm0_point (a : S27x159744x32.Idx → EReal) (w : S27x32x32.Idx → EReal)
    (x0 : FVec Ideal S1x12288x32 .bf16) (x1 : FVec Ideal S1x32x32 .f32) (j : S1x12288x32.Idx) (i : S27x159744x32.Idx)
    (kk bb : Nat)
    (hi0 : (i 0).val = kk) (hi1 : (i 1).val = bb * 12288 + (j 1).val) (hi2 : (i 2).val = (j 2).val)
    (h0 : ∀ (y : S1x12288x32.Idx) (z : S27x159744x32.Idx), (z 0).val = kk → (z 1).val = bb * 12288 + (y 1).val →
      (z 2).val = (y 2).val → x0 y = a z)
    (h1 : ∀ (y : S1x32x32.Idx) (z : S27x32x32.Idx), (z 0).val = kk → (z 1).val = (y 1).val → (z 2).val = (y 2).val →
      x1 y = w z) :
    k0_pay1 (F := Ideal) x0 x1 j = gemmArr a w i := by
  obtain ⟨u, r, d, rfl⟩ : ∃ (u : Fin 1) (r : Fin 12288) (d : Fin 32), j = ix3 u r d := ⟨j 0, j 1, j 2, eq_ix3 j⟩
  obtain ⟨k, mm, d', rfl⟩ : ∃ (k : Fin 27) (mm : Fin 159744) (d' : Fin 32), i = ix3 k mm d' := ⟨i 0, i 1, i 2, eq_ix3 i⟩
  rw [gemm0_payload_apply, gemmArr_ix3]
  refine Finset.sum_congr rfl fun cc _ => ?_
  rw [h0 (ix3 (0 : Fin 1) r cc) (ix3 k mm cc) hi0 hi1 rfl, h1 (ix3 (0 : Fin 1) cc d) (ix3 k cc d') hi0 rfl hi2]

/-! ## From the blocks to the array -/

theorem hz3 : (![0, 0, 0] : Fin 3 → Nat) = fun _ => 0 := funext fun a => by fin_cases a <;> rfl

/-- The printed index maps, decided over the 27 x 13 grid: point t is offset t / 13 and row block t % 13 for the feature
    and the output windows, and offset t / 13 for the weight window. -/
theorem gemm0_idx_facts : ∀ t : Fin cfg0.N,
    win0_2.index t (0 : Fin 3) = t.val / 13 ∧ win0_2.index t (1 : Fin 3) = t.val % 13 ∧ win0_2.index t (2 : Fin 3) = 0
    ∧ win0_0.index t (0 : Fin 3) = t.val / 13 ∧ win0_0.index t (1 : Fin 3) = t.val % 13 ∧ win0_0.index t (2 : Fin 3) = 0
    ∧ win0_1.index t (0 : Fin 3) = t.val / 13 ∧ win0_1.index t (1 : Fin 3) = 0 ∧ win0_1.index t (2 : Fin 3) = 0 :=
  (by decide +kernel : ∀ t : Fin grid0.N, _)

variable (V : (c : Dev nD) → (b : Ref sig .tc) → Buf (Elt Ideal) ((c : Thread nD τ).loc b))

/-- WHAT POINT `t` WRITES BACK is block `t` of `gemmArr` of the two arrays as the region finds them. -/
theorem gemm0_flushed_eq (c : Dev nD) (t : Fin cfg0.N) :
    (dat0 (F := Ideal) V c).flushed 2 t
      = ((cfg0.win 2).blk t).view.read (Elt Ideal) (gemmArr (V c main_v6) (V c main_arg1)) := by
  show (cfg0.win 2).cut (grid0.coords t) ((dat0 V c).after 2 t) = _
  rw [after0_2]
  unfold out0_2
  rw [View.canon_unit_zero hz3]
  simp only [View.ld_unit_zero (S := S1x12288x32) hz3, View.ld_unit_zero (S := S1x32x32) hz3]
  obtain ⟨e0, e1, e2, f0, f1, f2, g0, g1, g2⟩ := gemm0_idx_facts t
  funext j
  show k0_pay1 (F := Ideal) (iblk0 V c 0 t) (iblk0 V c 1 t) j
    = gemmArr (V c main_v6) (V c main_arg1) (((cfg0.win 2).blk t).view.emb j)
  refine gemm0_point (V c main_v6) (V c main_arg1) (iblk0 V c 0 t) (iblk0 V c 1 t) j (((cfg0.win 2).blk t).view.emb j)
    (t.val / 13) (t.val % 13) ?_ ?_ ?_ ?_ ?_
  · show win0_2.index t (0 : Fin 3) * 1 + 1 * (j 0).val = t.val / 13
    have hj : (j 0).val < 1 := (j 0).isLt
    omega
  · show win0_2.index t (1 : Fin 3) * 12288 + 1 * (j 1).val = t.val % 13 * 12288 + (j 1).val
    omega
  · show win0_2.index t (2 : Fin 3) * 32 + 1 * (j 2).val = (j 2).val
    omega
  · intro y z hz0 hz1 hz2
    show V c main_v6 (((cfg0.win 0).blk t).view.emb y) = V c main_v6 z
    refine congrArg (V c main_v6) (funext fun a => Fin.ext ?_)
    match a with
    | ⟨0, _⟩ =>
      show win0_0.index t (0 : Fin 3) * 1 + 1 * (y 0).val = (z 0).val
      have hy : (y 0).val < 1 := (y 0).isLt
      omega
    | ⟨1, _⟩ =>
      show win0_0.index t (1 : Fin 3) * 12288 + 1 * (y 1).val = (z 1).val
      omega
    | ⟨2, _⟩ =>
      show win0_0.index t (2 : Fin 3) * 32 + 1 * (y 2).val = (z 2).val
      omega
  · intro y z hz0 hz1 hz2
    show V c main_arg1 (((cfg0.win 1).blk t).view.emb y) = V c main_arg1 z
    refine congrArg (V c main_arg1) (funext fun a => Fin.ext ?_)
    match a with
    | ⟨0, _⟩ =>
      show win0_1.index t (0 : Fin 3) * 1 + 1 * (y 0).val = (z 0).val
      have hy : (y 0).val < 1 := (y 0).isLt
      omega
    | ⟨1, _⟩ =>
      show win0_1.index t (1 : Fin 3) * 32 + 1 * (y 1).val = (z 1).val
      omega
    | ⟨2, _⟩ =>
      show win0_1.index t (2 : Fin 3) * 32 + 1 * (y 2).val = (z 2).val
      omega

/-- An index of the array is in point `t`'s block iff each coordinate is in the block's range on its axis. -/
theorem gemm0_mem_blk (t : Fin cfg0.N) (i : S27x159744x32.Idx) :
    i ∈ ((cfg0.win 2).blk t).view.set ↔ ∀ a : Fin 3, win0_2.index t a * S1x12288x32.size a ≤ (i a).val
      ∧ (i a).val < win0_2.index t a * S1x12288x32.size a + S1x12288x32.size a := by
  show i ∈ ((View.whole main_v7).slice (win0_2.rect t)).set ↔ _
  rw [View.set_slice_whole, Rect.mem_set_unit]
  exact Iff.rfl

/-- Every index of the array is in some point's block: row m of offset k in that of point k * 13 + m / 12288. -/
theorem gemm0_cover (i : S27x159744x32.Idx) :
    ∃ t : Fin cfg0.N, (cfg0.win 2).flush t = true ∧ i ∈ ((cfg0.win 2).blk t).view.set := by
  have hi0 : (i 0).val < 27 := (i 0).isLt
  have hi1 : (i 1).val < 159744 := (i 1).isLt
  have hi2 : (i 2).val < 32 := (i 2).isLt
  have hN : cfg0.N = 351 := N_0
  have ht : (i 0).val * 13 + (i 1).val / 12288 < cfg0.N := by rw [hN]; omega
  obtain ⟨e0, e1, e2, -⟩ := gemm0_idx_facts ⟨(i 0).val * 13 + (i 1).val / 12288, ht⟩
  refine ⟨⟨(i 0).val * 13 + (i 1).val / 12288, ht⟩, flush0_2 _, ?_⟩
  rw [gemm0_mem_blk]
  intro a
  match a with
  | ⟨0, _⟩ =>
    show win0_2.index ⟨(i 0).val * 13 + (i 1).val / 12288, ht⟩ (0 : Fin 3) * 1 ≤ (i 0).val
      ∧ (i 0).val < win0_2.index ⟨(i 0).val * 13 + (i 1).val / 12288, ht⟩ (0 : Fin 3) * 1 + 1
    rw [e0]
    show ((i 0).val * 13 + (i 1).val / 12288) / 13 * 1 ≤ (i 0).val ∧ (i 0).val < ((i 0).val * 13 + (i 1).val / 12288) / 13 * 1 + 1
    omega
  | ⟨1, _⟩ =>
    show win0_2.index ⟨(i 0).val * 13 + (i 1).val / 12288, ht⟩ (1 : Fin 3) * 12288 ≤ (i 1).val
      ∧ (i 1).val < win0_2.index ⟨(i 0).val * 13 + (i 1).val / 12288, ht⟩ (1 : Fin 3) * 12288 + 12288
    rw [e1]
    show ((i 0).val * 13 + (i 1).val / 12288) % 13 * 12288 ≤ (i 1).val ∧ (i 1).val < ((i 0).val * 13 + (i 1).val / 12288) % 13 * 12288 + 12288
    omega
  | ⟨2, _⟩ =>
    show win0_2.index ⟨(i 0).val * 13 + (i 1).val / 12288, ht⟩ (2 : Fin 3) * 32 ≤ (i 2).val
      ∧ (i 2).val < win0_2.index ⟨(i 0).val * 13 + (i 1).val / 12288, ht⟩ (2 : Fin 3) * 32 + 32
    rw [e2]
    omega

/-- THE ARRAY after the region's last point: `gemmArr` of the two arrays the region reads, as it finds them. -/
theorem gemm0_final (c : Dev nD) :
    (dat0 (F := Ideal) V c).arrAt 2 cfg0.N = gemmArr (V c main_v6) (V c main_arg1) :=
  (dat0 (F := Ideal) V c).arrAt_eq_of_cover 2 (gemmArr (V c main_v6) (V c main_arg1))
    (fun t _ => gemm0_flushed_eq V c t) gemm0_cover

/-- The region's three arrays at their literal types: the features and the weights as the region finds them, and the
    output after the region's last point. -/
abbrev gemm0_feat (c : Dev nD) : S27x159744x32.Idx → EReal := V c main_v6
abbrev gemm0_wts (c : Dev nD) : S27x32x32.Idx → EReal := V c main_arg1
abbrev gemm0_out (c : Dev nD) : S27x159744x32.Idx → EReal := (dat0 (F := Ideal) V c).arrAt 2 cfg0.N

/-- Entry (k, m, d) of what region 0 leaves in its output array: the features' row (k, m) times the weights' column
    (k, ·, d), summed over the 32 input channels. -/
theorem gemm0_value (c : Dev nD) (k : Fin 27) (mm : Fin 159744) (d : Fin 32) :
    gemm0_out V c (ix3 k mm d) = ∑ cc : Fin 32, gemm0_feat V c (ix3 k mm cc) * gemm0_wts V c (ix3 k cc d) := by
  show (dat0 (F := Ideal) V c).arrAt 2 cfg0.N (ix3 k mm d) = _
  rw [gemm0_final]
  rfl

end Cert.KernelIdeal.Hand

end
-- ==== Proof.KerGemm1.lean ====
/- The value region 1 leaves in its output array: the second sparse convolution's matrix products. Each [12288, 32] row
   block of offset k is the block of gathered features times the offset's 32 x 32 weight matrix, so entry (k, m, d) of
   the output is the sum over the 32 input channels c of g[k, m, c] * W[k, c, d]. First the body's one stored value read
   at an index (a matrix product into a zero accumulator between two changes of layout), then each grid point's
   write-back as its block of that one whole-array function, the blocks' cover of the array, and the array after the
   last point. -/
import proofs.«429804_j40699110096963_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Hand

open Cert.KernelIdeal Cert.KernelIdeal.Gen

/-! ## The matrix product's operand indices, axis by axis -/

/-- The left operand's row is the output's row. -/
theorem lhs_gemm1_0 (i : S12288x32.Idx) (q : dot_S12288x32_S32x32_S12288x32_1_0_0_1_n_n.contr.Idx) :
    (dot_S12288x32_S32x32_S12288x32_1_0_0_1_n_n.lhsIdx i q 0).val = (i 0).val := by
  unfold DotDims.lhsIdx
  rw [dif_neg (show ¬(0 : Fin S12288x32.rank) ∈ dot_S12288x32_S32x32_S12288x32_1_0_0_1_n_n.lhsBatch by decide),
    dif_pos (show (0 : Fin S12288x32.rank) ∈ dot_S12288x32_S32x32_S12288x32_1_0_0_1_n_n.lhsNonContracting by decide)]
  rfl

/-- The left operand's column is the contracted channel. -/
theorem lhs_gemm1_1 (i : S12288x32.Idx) (q : dot_S12288x32_S32x32_S12288x32_1_0_0_1_n_n.contr.Idx) :
    (dot_S12288x32_S32x32_S12288x32_1_0_0_1_n_n.lhsIdx i q 1).val = (q ⟨0, by decide⟩).val :=
  dot_S12288x32_S32x32_S12288x32_1_0_0_1_n_n.lhsIdx_val_of_single rfl i q

/-- The right operand's row is the contracted channel. -/
theorem rhs_gemm1_0 (i : S12288x32.Idx) (q : dot_S12288x32_S32x32_S12288x32_1_0_0_1_n_n.contr.Idx) :
    (dot_S12288x32_S32x32_S12288x32_1_0_0_1_n_n.rhsIdx i q 0).val = (q ⟨0, by decide⟩).val :=
  dot_S12288x32_S32x32_S12288x32_1_0_0_1_n_n.rhsIdx_val_of_single rfl i q

/-- The right operand's column is the output's column. -/
theorem rhs_gemm1_1 (i : S12288x32.Idx) (q : dot_S12288x32_S32x32_S12288x32_1_0_0_1_n_n.contr.Idx) :
    (dot_S12288x32_S32x32_S12288x32_1_0_0_1_n_n.rhsIdx i q 1).val = (i 1).val := by
  unfold DotDims.rhsIdx
  rw [dif_neg (show ¬(1 : Fin S32x32.rank) ∈ dot_S12288x32_S32x32_S12288x32_1_0_0_1_n_n.rhsBatch by decide),
    dif_pos (show (1 : Fin S32x32.rank) ∈ dot_S12288x32_S32x32_S12288x32_1_0_0_1_n_n.rhsNonContracting by decide)]
  rfl

/-! ## The body's stored value at an index -/

/-- Entry (r, d) of the stored block is the sum over the channels c of the feature block's (r, c) times the weight
    block's (c, d): the leading unit axes come and go by shape casts, the weights' narrowing is the identity on
    extended reals, and a product into the zero accumulator is the plain sum. -/
theorem gemm1_payload_apply (x0 : FVec Ideal S1x12288x32 .bf16) (x1 : FVec Ideal S1x32x32 .f32)
    (u : Fin 1) (r : Fin 12288) (d : Fin 32) :
    k1_pay1 (F := Ideal) x0 x1 (ix3 u r d) = ∑ cc : Fin 32, x0 (ix3 (0 : Fin 1) r cc) * x1 (ix3 (0 : Fin 1) cc d) := by
  unfold k1_pay1
  refine (shapeCast_ab_1ab_apply _ _ u r d).trans ?_
  refine (Ideal.matmul_constant_zero_apply dot_S12288x32_S32x32_S12288x32_1_0_0_1_n_n none _ _ (ix2 r d)).trans ?_
  rw [← Equiv.sum_comp (contrEquiv1 dot_S12288x32_S32x32_S12288x32_1_0_0_1_n_n 32 rfl rfl).symm]
  refine Finset.sum_congr rfl fun cc _ => ?_
  have hk := contrEquiv1_symm_val dot_S12288x32_S32x32_S12288x32_1_0_0_1_n_n 32 rfl rfl cc
  have el : dot_S12288x32_S32x32_S12288x32_1_0_0_1_n_n.lhsIdx (ix2 r d)
      ((contrEquiv1 dot_S12288x32_S32x32_S12288x32_1_0_0_1_n_n 32 rfl rfl).symm cc) = ix2 r cc :=
    funext fun a => Fin.ext (by
      match a with
      | ⟨0, _⟩ => exact lhs_gemm1_0 _ _
      | ⟨1, _⟩ => exact (lhs_gemm1_1 _ _).trans hk)
  have er : dot_S12288x32_S32x32_S12288x32_1_0_0_1_n_n.rhsIdx (ix2 r d)
      ((contrEquiv1 dot_S12288x32_S32x32_S12288x32_1_0_0_1_n_n 32 rfl rfl).symm cc) = ix2 cc d :=
    funext fun a => Fin.ext (by
      match a with
      | ⟨0, _⟩ => exact (rhs_gemm1_0 _ _).trans hk
      | ⟨1, _⟩ => exact rhs_gemm1_1 _ _)
  rw [el, er]
  refine congrArg₂ (· * ·) (shapeCast_1ab_ab_apply x0 _ r cc) ?_
  exact (truncf_apply (φ := .f32) (ψ := .bf16) _ bitsLt_bf16_f32 (ix2 cc d)).trans (shapeCast_1ab_ab_apply x1 _ cc d)

/-! ## The output array as one function of the two arrays the region reads -/

/-- Entry (k, m, d): the sum over the input channels c of the features' (k, m, c) times the weights' (k, c, d). -/
def gemmArr1 (a : S27x159744x32.Idx → EReal) (w : S27x32x32.Idx → EReal) : S27x159744x32.Idx → EReal :=
  fun i => ∑ cc : Fin 32, a (ix3 (i 0) (i 1) cc) * w (ix3 (i 0) cc (i 2))

theorem gemmArr1_ix3 (a : S27x159744x32.Idx → EReal) (w : S27x32x32.Idx → EReal) (k : Fin 27) (mm : Fin 159744) (d : Fin 32) :
    gemmArr1 a w (ix3 k mm d) = ∑ cc : Fin 32, a (ix3 k mm cc) * w (ix3 k cc d) := rfl

/-- ONE POINT: when the feature block is rows `bb * 12288 …` of offset `kk` of the feature array and the weight block is
    matrix `kk` of the weight array, the stored block's entry `j` is the whole-array function at the array index `i` that
    `j` sits at. -/
theorem gemm1_point (a : S27x159744x32.Idx → EReal) (w : S27x32x32.Idx → EReal)
    (x0 : FVec Ideal S1x12288x32 .bf16) (x1 : FVec Ideal S1x32x32 .f32) (j : S1x12288x32.Idx) (i : S27x159744x32.Idx)
    (kk bb : Nat)
    (hi0 : (i 0).val = kk) (hi1 : (i 1).val = bb * 12288 + (j 1).val) (hi2 : (i 2).val = (j 2).val)
    (h0 : ∀ (y : S1x12288x32.Idx) (z : S27x159744x32.Idx), (z 0).val = kk → (z 1).val = bb * 12288 + (y 1).val →
      (z 2).val = (y 2).val → x0 y = a z)
    (h1 : ∀ (y : S1x32x32.Idx) (z : S27x32x32.Idx), (z 0).val = kk → (z 1).val = (y 1).val → (z 2).val = (y 2).val →
      x1 y = w z) :
    k1_pay1 (F := Ideal) x0 x1 j = gemmArr1 a w i := by
  obtain ⟨u, r, d, rfl⟩ : ∃ (u : Fin 1) (r : Fin 12288) (d : Fin 32), j = ix3 u r d := ⟨j 0, j 1, j 2, eq_ix3 j⟩
  obtain ⟨k, mm, d', rfl⟩ : ∃ (k : Fin 27) (mm : Fin 159744) (d' : Fin 32), i = ix3 k mm d' := ⟨i 0, i 1, i 2, eq_ix3 i⟩
  rw [gemm1_payload_apply, gemmArr1_ix3]
  refine Finset.sum_congr rfl fun cc _ => ?_
  rw [h0 (ix3 (0 : Fin 1) r cc) (ix3 k mm cc) hi0 hi1 rfl, h1 (ix3 (0 : Fin 1) cc d) (ix3 k cc d') hi0 rfl hi2]

/-! ## From the blocks to the array -/

theorem hz3_1 : (![0, 0, 0] : Fin 3 → Nat) = fun _ => 0 := funext fun a => by fin_cases a <;> rfl

/-- The printed index maps, decided over the 27 x 13 grid: point t is offset t / 13 and row block t % 13 for the feature
    and the output windows, and offset t / 13 for the weight window. -/
theorem gemm1_idx_facts : ∀ t : Fin cfg1.N,
    win1_2.index t (0 : Fin 3) = t.val / 13 ∧ win1_2.index t (1 : Fin 3) = t.val % 13 ∧ win1_2.index t (2 : Fin 3) = 0
    ∧ win1_0.index t (0 : Fin 3) = t.val / 13 ∧ win1_0.index t (1 : Fin 3) = t.val % 13 ∧ win1_0.index t (2 : Fin 3) = 0
    ∧ win1_1.index t (0 : Fin 3) = t.val / 13 ∧ win1_1.index t (1 : Fin 3) = 0 ∧ win1_1.index t (2 : Fin 3) = 0 :=
  (by decide +kernel : ∀ t : Fin grid1.N, _)

variable (V : (c : Dev nD) → (b : Ref sig .tc) → Buf (Elt Ideal) ((c : Thread nD τ).loc b))

/-- WHAT POINT `t` WRITES BACK is block `t` of `gemmArr1` of the two arrays as the region finds them. -/
theorem gemm1_flushed_eq (c : Dev nD) (t : Fin cfg1.N) :
    (dat1 (F := Ideal) V c).flushed 2 t
      = ((cfg1.win 2).blk t).view.read (Elt Ideal) (gemmArr1 (V c main_v42) (V c main_arg4)) := by
  show (cfg1.win 2).cut (grid1.coords t) ((dat1 V c).after 2 t) = _
  rw [after1_2]
  unfold out1_2
  rw [View.canon_unit_zero hz3_1]
  simp only [View.ld_unit_zero (S := S1x12288x32) hz3_1, View.ld_unit_zero (S := S1x32x32) hz3_1]
  obtain ⟨e0, e1, e2, f0, f1, f2, g0, g1, g2⟩ := gemm1_idx_facts t
  funext j
  show k1_pay1 (F := Ideal) (iblk1 V c 0 t) (iblk1 V c 1 t) j
    = gemmArr1 (V c main_v42) (V c main_arg4) (((cfg1.win 2).blk t).view.emb j)
  refine gemm1_point (V c main_v42) (V c main_arg4) (iblk1 V c 0 t) (iblk1 V c 1 t) j (((cfg1.win 2).blk t).view.emb j)
    (t.val / 13) (t.val % 13) ?_ ?_ ?_ ?_ ?_
  · show win1_2.index t (0 : Fin 3) * 1 + 1 * (j 0).val = t.val / 13
    have hj : (j 0).val < 1 := (j 0).isLt
    omega
  · show win1_2.index t (1 : Fin 3) * 12288 + 1 * (j 1).val = t.val % 13 * 12288 + (j 1).val
    omega
  · show win1_2.index t (2 : Fin 3) * 32 + 1 * (j 2).val = (j 2).val
    omega
  · intro y z hz0 hz1 hz2
    show V c main_v42 (((cfg1.win 0).blk t).view.emb y) = V c main_v42 z
    refine congrArg (V c main_v42) (funext fun a => Fin.ext ?_)
    match a with
    | ⟨0, _⟩ =>
      show win1_0.index t (0 : Fin 3) * 1 + 1 * (y 0).val = (z 0).val
      have hy : (y 0).val < 1 := (y 0).isLt
      omega
    | ⟨1, _⟩ =>
      show win1_0.index t (1 : Fin 3) * 12288 + 1 * (y 1).val = (z 1).val
      omega
    | ⟨2, _⟩ =>
      show win1_0.index t (2 : Fin 3) * 32 + 1 * (y 2).val = (z 2).val
      omega
  · intro y z hz0 hz1 hz2
    show V c main_arg4 (((cfg1.win 1).blk t).view.emb y) = V c main_arg4 z
    refine congrArg (V c main_arg4) (funext fun a => Fin.ext ?_)
    match a with
    | ⟨0, _⟩ =>
      show win1_1.index t (0 : Fin 3) * 1 + 1 * (y 0).val = (z 0).val
      have hy : (y 0).val < 1 := (y 0).isLt
      omega
    | ⟨1, _⟩ =>
      show win1_1.index t (1 : Fin 3) * 32 + 1 * (y 1).val = (z 1).val
      omega
    | ⟨2, _⟩ =>
      show win1_1.index t (2 : Fin 3) * 32 + 1 * (y 2).val = (z 2).val
      omega

/-- An index of the array is in point `t`'s block iff each coordinate is in the block's range on its axis. -/
theorem gemm1_mem_blk (t : Fin cfg1.N) (i : S27x159744x32.Idx) :
    i ∈ ((cfg1.win 2).blk t).view.set ↔ ∀ a : Fin 3, win1_2.index t a * S1x12288x32.size a ≤ (i a).val
      ∧ (i a).val < win1_2.index t a * S1x12288x32.size a + S1x12288x32.size a := by
  show i ∈ ((View.whole main_v43).slice (win1_2.rect t)).set ↔ _
  rw [View.set_slice_whole, Rect.mem_set_unit]
  exact Iff.rfl

/-- Every index of the array is in some point's block: row m of offset k in that of point k * 13 + m / 12288. -/
theorem gemm1_cover (i : S27x159744x32.Idx) :
    ∃ t : Fin cfg1.N, (cfg1.win 2).flush t = true ∧ i ∈ ((cfg1.win 2).blk t).view.set := by
  have hi0 : (i 0).val < 27 := (i 0).isLt
  have hi1 : (i 1).val < 159744 := (i 1).isLt
  have hi2 : (i 2).val < 32 := (i 2).isLt
  have hN : cfg1.N = 351 := N_1
  have ht : (i 0).val * 13 + (i 1).val / 12288 < cfg1.N := by rw [hN]; omega
  obtain ⟨e0, e1, e2, -⟩ := gemm1_idx_facts ⟨(i 0).val * 13 + (i 1).val / 12288, ht⟩
  refine ⟨⟨(i 0).val * 13 + (i 1).val / 12288, ht⟩, flush1_2 _, ?_⟩
  rw [gemm1_mem_blk]
  intro a
  match a with
  | ⟨0, _⟩ =>
    show win1_2.index ⟨(i 0).val * 13 + (i 1).val / 12288, ht⟩ (0 : Fin 3) * 1 ≤ (i 0).val
      ∧ (i 0).val < win1_2.index ⟨(i 0).val * 13 + (i 1).val / 12288, ht⟩ (0 : Fin 3) * 1 + 1
    rw [e0]
    show ((i 0).val * 13 + (i 1).val / 12288) / 13 * 1 ≤ (i 0).val ∧ (i 0).val < ((i 0).val * 13 + (i 1).val / 12288) / 13 * 1 + 1
    omega
  | ⟨1, _⟩ =>
    show win1_2.index ⟨(i 0).val * 13 + (i 1).val / 12288, ht⟩ (1 : Fin 3) * 12288 ≤ (i 1).val
      ∧ (i 1).val < win1_2.index ⟨(i 0).val * 13 + (i 1).val / 12288, ht⟩ (1 : Fin 3) * 12288 + 12288
    rw [e1]
    show ((i 0).val * 13 + (i 1).val / 12288) % 13 * 12288 ≤ (i 1).val ∧ (i 1).val < ((i 0).val * 13 + (i 1).val / 12288) % 13 * 12288 + 12288
    omega
  | ⟨2, _⟩ =>
    show win1_2.index ⟨(i 0).val * 13 + (i 1).val / 12288, ht⟩ (2 : Fin 3) * 32 ≤ (i 2).val
      ∧ (i 2).val < win1_2.index ⟨(i 0).val * 13 + (i 1).val / 12288, ht⟩ (2 : Fin 3) * 32 + 32
    rw [e2]
    omega

/-- THE ARRAY after the region's last point: `gemmArr1` of the two arrays the region reads, as it finds them. -/
theorem gemm1_final (c : Dev nD) :
    (dat1 (F := Ideal) V c).arrAt 2 cfg1.N = gemmArr1 (V c main_v42) (V c main_arg4) :=
  (dat1 (F := Ideal) V c).arrAt_eq_of_cover 2 (gemmArr1 (V c main_v42) (V c main_arg4))
    (fun t _ => gemm1_flushed_eq V c t) gemm1_cover

/-- The region's three arrays at their literal types: the features and the weights as the region finds them, and the
    output after the region's last point. -/
abbrev gemm1_feat (c : Dev nD) : S27x159744x32.Idx → EReal := V c main_v42
abbrev gemm1_wts (c : Dev nD) : S27x32x32.Idx → EReal := V c main_arg4
abbrev gemm1_out (c : Dev nD) : S27x159744x32.Idx → EReal := (dat1 (F := Ideal) V c).arrAt 2 cfg1.N

/-- Entry (k, m, d) of what region 1 leaves in its output array: the features' row (k, m) times the weights' column
    (k, ·, d), summed over the 32 input channels. -/
theorem gemm1_value (c : Dev nD) (k : Fin 27) (mm : Fin 159744) (d : Fin 32) :
    gemm1_out V c (ix3 k mm d) = ∑ cc : Fin 32, gemm1_feat V c (ix3 k mm cc) * gemm1_wts V c (ix3 k cc d) := by
  show (dat1 (F := Ideal) V c).arrAt 2 cfg1.N (ix3 k mm d) = _
  rw [gemm1_final]
  rfl

end Cert.KernelIdeal.Hand

end
-- ==== Proof.KerBn.lean ====
import proofs.«429804_j40699110096963_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  The third region's output array, element by element.

  The region walks 50 points; point t reads rows 3000 t … 3000 t + 2999 of the convolution's output y and of the block's
  input x (the skip), and the four one-row tables (mean, variance, scale, shift), and writes to the same rows of its
  output max (((y - mean) * rsqrt (variance + eps)) * scale + shift + x) 0. Every point's block is therefore the
  restriction of ONE function of the six arrays, the blocks tile the 150000 rows (row r lies in block r / 3000), and
  the array ends holding that function.
-/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The normalised, scaled, shifted, skipped and rectified table: at row r and channel ch it is
    max (((y - mean) * rsqrt (variance + eps)) * scale + shift + skip) 0, the per-channel numbers read off the one-row
    tables at channel ch. -/
def bnOut (y sk : S150000x32.Idx → EReal) (mn vr ga be : S1x32.Idx → EReal) : S150000x32.Idx → EReal := fun i =>
  max (((((y i - mn (ix2 (0 : Fin 1) (⟨(i 1).val, idx2_lt1 i⟩ : Fin 32)))
            * Ideal.rsqrt (vr (ix2 (0 : Fin 1) (⟨(i 1).val, idx2_lt1 i⟩ : Fin 32)) + Ideal.ofBits .f32 0x3727C5AC#32))
          * ga (ix2 (0 : Fin 1) (⟨(i 1).val, idx2_lt1 i⟩ : Fin 32))
        + be (ix2 (0 : Fin 1) (⟨(i 1).val, idx2_lt1 i⟩ : Fin 32)))
      + sk i)) 0

/-- The body's stored value at one element of a row block: the pointwise operations read at the element, each one-row
    table broadcast down the rows read at its own row 0. -/
theorem pay_apply (y : Vec Ideal S3000x32 .f32) (vr mn ga be : Vec Ideal S1x32 .f32) (sk : Vec Ideal S3000x32 .f32)
    (p : Fin 3000) (q : Fin 32) :
    (k2_pay1 (F := Ideal) y vr mn ga be sk : S3000x32.Idx → EReal) (ix2 p q)
      = max (((((y (ix2 p q) - mn (ix2 (0 : Fin 1) q)) * Ideal.rsqrt (vr (ix2 (0 : Fin 1) q) + Ideal.ofBits .f32 0x3727C5AC#32))
              * ga (ix2 (0 : Fin 1) q) + be (ix2 (0 : Fin 1) q)) + sk (ix2 p q))) 0 := by
  unfold k2_pay1
  simp only [shapeCast_self]
  rw [maximumf_apply, addf_apply, addf_apply, mulf_apply, mulf_apply, subf_apply,
    broadcastTo_1b_ab_apply, broadcastTo_1b_ab_apply, broadcastTo_1b_ab_apply, broadcastTo_1b_ab_apply, broadcast_apply,
    Ideal.ofBits_def, Ideal.ofBits_def, Ideal.ofBits_zero_f32]
  rfl

theorem hz : (![0, 0] : Fin 2 → Nat) = fun _ => 0 := funext fun a => by fin_cases a <;> rfl

/-- The printed index maps over the 50 points: the output's block row is the point's number and so are the two
    row-blocked inputs'; the four one-row tables stay at block (0, 0). -/
theorem idx_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Where an element of the output's block at point t sits in the array: row 3000 t + p, the same channel. -/
theorem out_emb (t : Fin cfg2.N) (p : Fin 3000) (q : Fin 32) (r : Fin 150000) (hr : r.val = 3000 * t.val + p.val) :
    (((cfg2.win 6).blk t).view.emb (ix2 p q) : S150000x32.Idx) = ix2 r q := by
  obtain ⟨e0, e1, -⟩ := idx_facts t
  funext a
  apply Fin.ext
  match a with
  | ⟨0, _⟩ => show win2_6.index t (0 : Fin 2) * 3000 + 1 * p.val = r.val; rw [e0, hr]; omega
  | ⟨1, _⟩ => show win2_6.index t (1 : Fin 2) * 32 + 1 * q.val = q.val; rw [e1]; omega

/-- The block of y at point t is rows 3000 t … 3000 t + 2999 of y. -/
theorem yblk_apply (c : Dev nD) (t : Fin cfg2.N) (p : Fin 3000) (q : Fin 32) (r : Fin 150000) (hr : r.val = 3000 * t.val + p.val) :
    (iblk2 V c 0 t : Vec Ideal S3000x32 .f32) (ix2 p q) = (V c main_v53 : S150000x32.Idx → EReal) (ix2 r q) := by
  obtain ⟨-, -, e0, e1, -⟩ := idx_facts t
  unfold iblk2
  rw [View.read_apply]
  show V c main_v53 _ = V c main_v53 _
  congr 1
  funext a
  apply Fin.ext
  match a with
  | ⟨0, _⟩ => show win2_0.index t (0 : Fin 2) * 3000 + 1 * p.val = r.val; rw [e0, hr]; omega
  | ⟨1, _⟩ => show win2_0.index t (1 : Fin 2) * 32 + 1 * q.val = q.val; rw [e1]; omega

/-- The block of the skip at point t is the same rows of the skip. -/
theorem skblk_apply (c : Dev nD) (t : Fin cfg2.N) (p : Fin 3000) (q : Fin 32) (r : Fin 150000) (hr : r.val = 3000 * t.val + p.val) :
    (iblk2 V c 1 t : Vec Ideal S3000x32 .f32) (ix2 p q) = (V c main_arg0 : S150000x32.Idx → EReal) (ix2 r q) := by
  obtain ⟨-, -, -, -, e0, e1, -⟩ := idx_facts t
  unfold iblk2
  rw [View.read_apply]
  show V c main_arg0 _ = V c main_arg0 _
  congr 1
  funext a
  apply Fin.ext
  match a with
  | ⟨0, _⟩ => show win2_1.index t (0 : Fin 2) * 3000 + 1 * p.val = r.val; rw [e0, hr]; omega
  | ⟨1, _⟩ => show win2_1.index t (1 : Fin 2) * 32 + 1 * q.val = q.val; rw [e1]; omega

/-- Each one-row table's block, at every point, is the table. -/
theorem mnblk_apply (c : Dev nD) (t : Fin cfg2.N) (q : Fin 32) :
    (iblk2 V c 2 t : Vec Ideal S1x32 .f32) (ix2 (0 : Fin 1) q) = (V c main_v57 : S1x32.Idx → EReal) (ix2 (0 : Fin 1) q) := by
  obtain ⟨-, -, -, -, -, -, e0, e1, -⟩ := idx_facts t
  unfold iblk2
  rw [View.read_apply]
  show V c main_v57 _ = V c main_v57 _
  congr 1
  funext a
  apply Fin.ext
  match a with
  | ⟨0, _⟩ => show win2_2.index t (0 : Fin 2) * 1 + 1 * 0 = 0; rw [e0]
  | ⟨1, _⟩ => show win2_2.index t (1 : Fin 2) * 32 + 1 * q.val = q.val; rw [e1]; omega

theorem vrblk_apply (c : Dev nD) (t : Fin cfg2.N) (q : Fin 32) :
    (iblk2 V c 3 t : Vec Ideal S1x32 .f32) (ix2 (0 : Fin 1) q) = (V c main_v58 : S1x32.Idx → EReal) (ix2 (0 : Fin 1) q) := by
  obtain ⟨-, -, -, -, -, -, -, -, e0, e1, -⟩ := idx_facts t
  unfold iblk2
  rw [View.read_apply]
  show V c main_v58 _ = V c main_v58 _
  congr 1
  funext a
  apply Fin.ext
  match a with
  | ⟨0, _⟩ => show win2_3.index t (0 : Fin 2) * 1 + 1 * 0 = 0; rw [e0]
  | ⟨1, _⟩ => show win2_3.index t (1 : Fin 2) * 32 + 1 * q.val = q.val; rw [e1]; omega

theorem gablk_apply (c : Dev nD) (t : Fin cfg2.N) (q : Fin 32) :
    (iblk2 V c 4 t : Vec Ideal S1x32 .f32) (ix2 (0 : Fin 1) q) = (V c main_v59 : S1x32.Idx → EReal) (ix2 (0 : Fin 1) q) := by
  obtain ⟨-, -, -, -, -, -, -, -, -, -, e0, e1, -⟩ := idx_facts t
  unfold iblk2
  rw [View.read_apply]
  show V c main_v59 _ = V c main_v59 _
  congr 1
  funext a
  apply Fin.ext
  match a with
  | ⟨0, _⟩ => show win2_4.index t (0 : Fin 2) * 1 + 1 * 0 = 0; rw [e0]
  | ⟨1, _⟩ => show win2_4.index t (1 : Fin 2) * 32 + 1 * q.val = q.val; rw [e1]; omega

theorem beblk_apply (c : Dev nD) (t : Fin cfg2.N) (q : Fin 32) :
    (iblk2 V c 5 t : Vec Ideal S1x32 .f32) (ix2 (0 : Fin 1) q) = (V c main_v60 : S1x32.Idx → EReal) (ix2 (0 : Fin 1) q) := by
  obtain ⟨-, -, -, -, -, -, -, -, -, -, -, -, e0, e1⟩ := idx_facts t
  unfold iblk2
  rw [View.read_apply]
  show V c main_v60 _ = V c main_v60 _
  congr 1
  funext a
  apply Fin.ext
  match a with
  | ⟨0, _⟩ => show win2_5.index t (0 : Fin 2) * 1 + 1 * 0 = 0; rw [e0]
  | ⟨1, _⟩ => show win2_5.index t (1 : Fin 2) * 32 + 1 * q.val = q.val; rw [e1]; omega

/-- What point t writes back is block t of the one function of the six arrays. -/
theorem flushed_eq (c : Dev nD) (t : Fin cfg2.N) :
    (dat2 (F := Ideal) V c).flushed 6 t = ((cfg2.win 6).blk t).view.read (Elt Ideal)
      (bnOut (V c main_v53) (V c main_arg0) (V c main_v57) (V c main_v58) (V c main_v59) (V c main_v60)) := by
  show (cfg2.win 6).cut (grid2.coords t) ((dat2 V c).after 6 t) = _
  rw [after2_6]
  unfold out2_6
  rw [View.canon_unit_zero hz]
  simp only [View.ld_unit_zero (S := S3000x32) hz, View.ld_unit_zero (S := S1x32) hz]
  funext j
  obtain ⟨p, q, rfl⟩ : ∃ (p : Fin 3000) (q : Fin 32), j = ix2 p q := ⟨j 0, j 1, eq_ix2 j⟩
  have hN : cfg2.N = 50 := N_2
  have hr : 3000 * t.val + p.val < 150000 := by have := t.isLt; have := p.isLt; omega
  show (k2_pay1 (F := Ideal) (iblk2 V c 0 t) (iblk2 V c 3 t) (iblk2 V c 2 t) (iblk2 V c 4 t) (iblk2 V c 5 t) (iblk2 V c 1 t) : S3000x32.Idx → EReal) (ix2 p q)
    = bnOut (V c main_v53) (V c main_arg0) (V c main_v57) (V c main_v58) (V c main_v59) (V c main_v60) (((cfg2.win 6).blk t).view.emb (ix2 p q))
  refine (pay_apply (iblk2 V c 0 t) (iblk2 V c 3 t) (iblk2 V c 2 t) (iblk2 V c 4 t) (iblk2 V c 5 t) (iblk2 V c 1 t) p q).trans ?_
  refine Eq.trans ?_ (congrArg (bnOut (V c main_v53) (V c main_arg0) (V c main_v57) (V c main_v58) (V c main_v59) (V c main_v60))
    (out_emb t p q ⟨3000 * t.val + p.val, hr⟩ rfl).symm)
  rw [yblk_apply V c t p q ⟨3000 * t.val + p.val, hr⟩ rfl, skblk_apply V c t p q ⟨3000 * t.val + p.val, hr⟩ rfl,
    mnblk_apply V c t q, vrblk_apply V c t q, gablk_apply V c t q, beblk_apply V c t q]
  rfl

/-- An index of the array is in point t's block iff each coordinate is in the block's range on its axis. -/
theorem mem_blk (t : Fin cfg2.N) (i : S150000x32.Idx) :
    i ∈ ((cfg2.win 6).blk t).view.set ↔ ∀ a : Fin 2, win2_6.index t a * S3000x32.size a ≤ (i a).val ∧ (i a).val < win2_6.index t a * S3000x32.size a + S3000x32.size a := by
  show i ∈ ((View.whole main_v61).slice (win2_6.rect t)).set ↔ _
  rw [View.set_slice_whole, Rect.mem_set_unit]
  exact Iff.rfl

/-- The blocks tile the rows: row r lies in the block of point r / 3000. -/
theorem cover (i : S150000x32.Idx) :
    ∃ t : Fin cfg2.N, (cfg2.win 6).flush t = true ∧ i ∈ ((cfg2.win 6).blk t).view.set := by
  have hi0 : (i 0).val < 150000 := idx2_lt0 i
  have hi1 : (i 1).val < 32 := idx2_lt1 i
  have hN : cfg2.N = 50 := N_2
  obtain ⟨t, ht⟩ : ∃ t : Fin cfg2.N, t.val = (i 0).val / 3000 := ⟨⟨(i 0).val / 3000, by omega⟩, rfl⟩
  obtain ⟨e0, e1, -⟩ := idx_facts t
  refine ⟨t, flush2_6 t, ?_⟩
  rw [mem_blk]
  intro a
  match a with
  | ⟨0, _⟩ => show win2_6.index t (0 : Fin 2) * 3000 ≤ (i 0).val ∧ (i 0).val < win2_6.index t (0 : Fin 2) * 3000 + 3000; rw [e0, ht]; omega
  | ⟨1, _⟩ => show win2_6.index t (1 : Fin 2) * 32 ≤ (i 1).val ∧ (i 1).val < win2_6.index t (1 : Fin 2) * 32 + 32; rw [e1]; omega

/-- The array after the region: the one function of the six arrays the region entered with. -/
theorem bn_array (c : Dev nD) :
    (dat2 (F := Ideal) V c).arrAt 6 cfg2.N
      = bnOut (V c main_v53) (V c main_arg0) (V c main_v57) (V c main_v58) (V c main_v59) (V c main_v60) :=
  (dat2 (F := Ideal) V c).arrAt_eq_of_cover 6
    (bnOut (V c main_v53) (V c main_arg0) (V c main_v57) (V c main_v58) (V c main_v59) (V c main_v60))
    (fun t _ => flushed_eq V c t) cover

/-- The output at row r and channel ch, over whatever the six arrays the region entered with are known to be. -/
theorem bn_value_of (c : Dev nD) (r : Fin 150000) (ch : Fin 32)
    (y sk : S150000x32.Idx → EReal) (mn vr ga be : S1x32.Idx → EReal)
    (hy : V c main_v53 = y) (hsk : V c main_arg0 = sk) (hmn : V c main_v57 = mn) (hvr : V c main_v58 = vr)
    (hga : V c main_v59 = ga) (hbe : V c main_v60 = be) :
    ((dat2 (F := Ideal) V c).arrAt 6 cfg2.N : S150000x32.Idx → EReal) (ix2 r ch)
      = max (((((y (ix2 r ch) - mn (ix2 (0 : Fin 1) ch))
                  * Ideal.rsqrt (vr (ix2 (0 : Fin 1) ch) + Ideal.ofBits .f32 0x3727C5AC#32))
                 * ga (ix2 (0 : Fin 1) ch)
                + be (ix2 (0 : Fin 1) ch))
               + sk (ix2 r ch))) 0 := by
  subst hy hsk hmn hvr hga hbe
  rw [bn_array V c]
  rfl

/-- The six arrays the region enters with, at their literal types. -/
abbrev yArr (c : Dev nD) : S150000x32.Idx → EReal := V c main_v53
abbrev skipArr (c : Dev nD) : S150000x32.Idx → EReal := V c main_arg0
abbrev meanArr (c : Dev nD) : S1x32.Idx → EReal := V c main_v57
abbrev varArr (c : Dev nD) : S1x32.Idx → EReal := V c main_v58
abbrev gammaArr (c : Dev nD) : S1x32.Idx → EReal := V c main_v59
abbrev betaArr (c : Dev nD) : S1x32.Idx → EReal := V c main_v60

/-- The output at row r and channel ch. -/
theorem bn_value (c : Dev nD) (r : Fin 150000) (ch : Fin 32) :
    ((dat2 (F := Ideal) V c).arrAt 6 cfg2.N : S150000x32.Idx → EReal) (ix2 r ch)
      = max (((((yArr V c (ix2 r ch) - meanArr V c (ix2 (0 : Fin 1) ch))
                  * Ideal.rsqrt (varArr V c (ix2 (0 : Fin 1) ch) + Ideal.ofBits .f32 0x3727C5AC#32))
                 * gammaArr V c (ix2 (0 : Fin 1) ch)
                + betaArr V c (ix2 (0 : Fin 1) ch))
               + skipArr V c (ix2 r ch))) 0 :=
  bn_value_of V c r ch (yArr V c) (skipArr V c) (meanArr V c) (varArr V c) (gammaArr V c) (betaArr V c) rfl rfl rfl rfl rfl rfl

end Cert.KernelIdeal.Hand

end
-- ==== Proof.Spec.lean ====
/-
  The arithmetic of the residual sparse-convolution block, over the extended reals, as plain functions of row and
  channel numbers.

  A sparse convolution sends a feature table `h` (150000 rows of 32 channels) through 27 weight matrices: offset `k`
  and pair `m` name a source row (an index word of `imap`, normalised and clamped into the table), a destination row
  (an index word of `omap`, normalised; a word that names no row contributes nowhere) and a validity bit; the
  destination row gathers, over all pairs that name it, the source row times the bit times the offset's matrix.
  Batch normalisation takes each channel's mean and variance over the 150000 rows. The block is
  relu (bn₂ (conv₂ (relu (bn₁ (conv₁ x)))) + x).
-/
import Idealize.ShloMosaic.PureOps.Ideal
import Idealize.ShloMosaic.PureOps.Ideal.Laws
import Idealize.ShloMosaic.Lib.ValueIdx

noncomputable section

open scoped BigOperators

namespace Cert.SparseConv

open Idealize.ShloMosaic

/-- A feature table: 150000 rows of 32 channels. -/
abbrev Mat := Fin 150000 → Fin 32 → EReal
/-- 27 weight matrices, channel in × channel out. -/
abbrev Ker := Fin 27 → Fin 32 → Fin 32 → EReal
/-- One number per channel. -/
abbrev Chan := Fin 32 → EReal
/-- One index word per offset and pair. -/
abbrev IdxT := Fin 27 → Fin 150000 → BitVec 32
/-- One validity bit per offset and pair. -/
abbrev MaskT := Fin 27 → Fin 150000 → BitVec 1

/-- An index word as both programs normalise it: a negative word is moved up by the table's length. -/
def nrm (b : BitVec 32) : BitVec 32 := Scalar.select (IntOp.cmpi .slt b 0#32) (IntOp.addi b 150000#32) b

/-- The table row a word selects for reading: normalised, read signed, clamped into the table. -/
def rowOf (b : BitVec 32) : Fin 150000 := ⟨min (nrm b).toInt.toNat 149999, by omega⟩

/-- A validity bit as a number. -/
def mf (b : BitVec 1) : EReal := ((b.toNat : ℝ) : EReal)

/-- The number of rows, as the float both programs divide by. -/
def nF : EReal := Ideal.ofBits .f32 0x48127C00#32
/-- The variance's stabiliser. -/
def eps : EReal := Ideal.ofBits .f32 0x3727C5AC#32
/-- The variance's divisor: the row count less the zero degrees of freedom taken off. -/
def dof : EReal := nF - (((0#32 : BitVec 32).toInt : ℝ) : EReal)

/-- The sparse convolution of `h` by `W` along the maps. -/
def conv (h : Mat) (W : Ker) (imap omap : IdxT) (mask : MaskT) : Mat := fun r d =>
  0 + ∑ k : Fin 27, ∑ m : Fin 150000,
    if (nrm (omap k m)).toInt = (r.val : Int) then
      ∑ c : Fin 32, (h (rowOf (imap k m)) c * mf (mask k m)) * W k c d
    else 0

/-- A channel's mean over the rows. -/
def mean (y : Mat) : Chan := fun c => Ideal.div (0 + ∑ r : Fin 150000, y r c) nF

/-- A channel's variance over the rows. -/
def var (y : Mat) : Chan := fun c =>
  Ideal.div (0 + ∑ r : Fin 150000, (y r c - mean y c) * (y r c - mean y c)) dof

/-- Batch normalisation with scale `g` and shift `b`. -/
def bn (y : Mat) (g b : Chan) : Mat := fun r c =>
  ((y r c - mean y c) * Ideal.rsqrt (var y c + eps)) * g c + b c

/-- The positive part. -/
def relu (y : Mat) : Mat := fun r c => max (y r c) 0

/-- The whole block. -/
def block (x : Mat) (W1 : Ker) (g1 b1 : Chan) (W2 : Ker) (g2 b2 : Chan) (imap omap : IdxT) (mask : MaskT) : Mat :=
  fun r c =>
    max (bn (conv (relu (bn (conv x W1 imap omap mask) g1 b1)) W2 imap omap mask) g2 b2 r c + x r c) 0

end Cert.SparseConv

end
-- ==== Proof.LibGather3.lean ====
/-
  A gather of whole rows read at an index, for a rank-3 array of row numbers.

  x[idx] over the rows of an [N, K] table, with the row numbers kept as an [A, M, 1] array (the last axis is the
  one-component index vector): result entry (a, e, k) is the table's entry k of the row whose number is start index
  (a, e), read as a signed integer and clamped into the table, that is into [0, N - 1].
-/
import Idealize.ShloMosaic.PureOps.Ideal
import Idealize.ShloMosaic.Lib.ValueIdx

noncomputable section

namespace Cert.LibGather3

open Idealize.ShloMosaic Idealize.ShloMosaic.ValueIdx

/-- Entry i of a list known to be l' is entry i of l'. -/
theorem getElem_of_eq {α : Type} {l l' : List α} (h : l = l') (i i' : Nat) (hi : i < l.length) (hii : i = i')
    (hi' : i' < l'.length) : l[i] = l'[i'] := by
  subst h; subst hii; rfl

section Rows3
variable {N A M K w : Nat} (d : GatherDims ⟨2, ![N, K]⟩ ⟨3, ![A, M, 1]⟩ ⟨3, ![A, M, K]⟩)

/-- Result entry (a, e, k) reads its one start-index component at entry (a, e, 0) of the array of row numbers:
    the two batch coordinates are carried over and the index-vector axis holds the component's number, 0. -/
theorem rows3_siIdx (hoff : d.offsetDims = [2]) (hivd : d.indexVectorDim = 2)
    (a : Fin A) (e : Fin M) (k : Fin K) (c : Fin d.startIndexMap.length) (hc : c.val = 0) :
    d.siIdx (ix3 a e k) c = ix3 a e (0 : Fin 1) := by
  have hbd : d.batchDims = [0, 1] := by
    show Shape.kept _ d.offsetDims = _
    rw [hoff]; rfl
  have hsik : d.siKept = [0, 1] := by
    show (List.finRange 3).filter (fun b => decide (b.val ≠ d.indexVectorDim)) = _
    rw [hivd]; rfl
  funext b
  match b with
  | ⟨0, _⟩ =>
    unfold GatherDims.siIdx
    rw [dif_neg (by rw [hivd]; simp)]
    unfold GatherDims.siCoord
    apply Fin.ext
    simp only [Fin.val_cast]
    rw [getElem_of_eq hbd _ 0 _ (by rw [hsik]; rfl) (by simp)]
    rfl
  | ⟨1, _⟩ =>
    unfold GatherDims.siIdx
    rw [dif_neg (by rw [hivd]; simp)]
    unfold GatherDims.siCoord
    apply Fin.ext
    simp only [Fin.val_cast]
    rw [getElem_of_eq hbd _ 1 _ (by rw [hsik]; rfl) (by simp)]
    rfl
  | ⟨2, _⟩ =>
    unfold GatherDims.siIdx
    rw [dif_pos (by rw [hivd])]
    apply Fin.ext
    exact hc

end Rows3

/-- A gather of whole rows of an [N, K] operand at an [A, M, 1] array of row numbers (offset axis 2, collapsed
    axis 0, the one start-index component naming operand axis 0, slices 1 × K), read at entry (a, e, k): the
    operand's entry k of the row at the start index read signed and clamped into [0, N - 1]. -/
theorem gather_rows3_apply {α : Type} {N A M K w : Nat}
    (d : GatherDims ⟨2, ![N, K]⟩ ⟨3, ![A, M, 1]⟩ ⟨3, ![A, M, K]⟩)
    (hoff : d.offsetDims = [2]) (hcoll : d.collapsedSliceDims = [0]) (hob : d.operandBatchingDims = [])
    (hsim : d.startIndexMap = [0]) (hivd : d.indexVectorDim = 2) (hss : d.sliceSizes = ![1, K])
    (x : (⟨2, ![N, K]⟩ : Shape).Idx → α) (idx : IVec ⟨3, ![A, M, 1]⟩ w) (a : Fin A) (e : Fin M) (k : Fin K)
    (hN : 0 < N) :
    Host.gather d x idx (ix3 a e k)
      = x (ix2 ⟨min (idx (ix3 a e (0 : Fin 1))).toInt.toNat (N - 1), by omega⟩ k) := by
  unfold Host.gather
  congr 1
  funext c
  apply Fin.ext
  have hsk : d.sKept = [1] := by
    show Shape.kept _ (d.collapsedSliceDims ++ d.operandBatchingDims) = _
    rw [hcoll, hob]; rfl
  match c with
  | ⟨0, _⟩ =>
    -- axis 0 is collapsed and carries the start index: clamped start, no batching or offset coordinate
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    show d.start (ix3 a e k) idx 0 + d.batchCoord (ix3 a e k) 0 + d.offCoord (ix3 a e k) 0 = _
    rw [GatherDims.batchCoord_eq_zero _ _ _ hb, GatherDims.offCoord_eq_zero _ _ _ hk]
    simp only [Nat.add_zero]
    unfold GatherDims.start
    rw [dif_pos hm, hsl, rows3_siIdx d hoff hivd a e k _ (by show List.idxOf (0 : Fin 2) d.startIndexMap = 0; rw [hsim]; simp)]
    rfl
  | ⟨1, _⟩ =>
    -- axis 1 is the offset axis: start 0, no batching coordinate, the result's coordinate 2
    have hb : (1 : Fin 2) ∉ d.operandBatchingDims := by rw [hob]; exact List.not_mem_nil
    have hk : (1 : Fin 2) ∈ d.sKept := by rw [hsk]; exact List.mem_singleton.mpr rfl
    have hm : (1 : Fin 2) ∉ d.startIndexMap := by rw [hsim]; simp
    show d.start (ix3 a e k) idx 1 + d.batchCoord (ix3 a e k) 1 + d.offCoord (ix3 a e k) 1 = k.val
    rw [GatherDims.batchCoord_eq_zero _ _ _ hb]
    unfold GatherDims.start GatherDims.offCoord
    rw [dif_neg hm, dif_pos hk, getElem_of_eq hoff _ 0 _ (by rw [hsk]; rfl) (by simp)]
    simp only [Nat.add_zero, Nat.zero_add]
    rfl

end Cert.LibGather3

end
-- ==== Proof.LibFlat.lean ====
/-
  Flattening the two leading axes of an array, and padding the second axis of a matrix.

  An [A, M, K] array reshaped to [A * M, K] keeps its entries in row-major order: entry (a, e, k) is read at row
  a * M + e, column k; the same for an [A, M] matrix reshaped to a vector of length A * M. A sum over the A * M
  flat positions is the double sum over the pairs (a, m), the flat position of (a, m) being a * M + m. A matrix
  padded on the right of its second axis with a fill value reads the matrix at a column inside it and the fill
  value at a column past it.
-/
import Idealize.ShloMosaic.PureOps.Ideal
import Idealize.ShloMosaic.Lib.ValueIdx
import Idealize.ShloMosaic.Lib.Pipeline.Value

noncomputable section

open scoped BigOperators

namespace Cert.LibFlat

open Idealize.ShloMosaic Idealize.ShloMosaic.ValueIdx

/-- The flat position a * M + e of a pair (a, e) with a < A and e < M is below A * M. -/
theorem flat_lt {A M T : Nat} (hT : A * M = T) (a : Fin A) (e : Fin M) : a.val * M + e.val < T := by
  have ha := a.isLt
  have he := e.isLt
  calc a.val * M + e.val < a.val * M + M := by omega
    _ = (a.val + 1) * M := (Nat.succ_mul _ _).symm
    _ ≤ A * M := Nat.mul_le_mul_right M ha
    _ = T := hT

/-! ## Reshapes that merge the two leading axes -/

/-- An [A, M, K] array reshaped to [T, K] with T = A * M, read at row a * M + e and column k, is the array's
    entry (a, e, k): both have row-major position (a * M + e) * K + k. -/
theorem shapeCast_flat3_apply_of_eq {α : Type} {A M K T : Nat} (hT : A * M = T)
    (x : (⟨3, ![A, M, K]⟩ : Shape).Idx → α) (h : (⟨3, ![A, M, K]⟩ : Shape).ShapeCasts ⟨2, ![T, K]⟩)
    (a : Fin A) (e : Fin M) (k : Fin K) :
    shapeCast ⟨2, ![T, K]⟩ x h (ix2 ⟨a.val * M + e.val, flat_lt hT a e⟩ k) = x (ix3 a e k) := by
  refine shapeCast_apply x h _ _ ?_
  rw [Shape.rowMajor_val_three, Shape.rowMajor_val_two]
  rfl

/-- The same with the row count written as the product A * M. -/
theorem shapeCast_flat3_apply {α : Type} {A M K : Nat}
    (x : (⟨3, ![A, M, K]⟩ : Shape).Idx → α) (h : (⟨3, ![A, M, K]⟩ : Shape).ShapeCasts ⟨2, ![A * M, K]⟩)
    (a : Fin A) (e : Fin M) (k : Fin K) :
    shapeCast ⟨2, ![A * M, K]⟩ x h (ix2 ⟨a.val * M + e.val, flat_lt rfl a e⟩ k) = x (ix3 a e k) :=
  shapeCast_flat3_apply_of_eq rfl x h a e k

/-- An [A, M] matrix reshaped to a vector of length T = A * M, read at position a * M + e, is the matrix's
    entry (a, e). -/
theorem shapeCast_flat2_apply_of_eq {α : Type} {A M T : Nat} (hT : A * M = T)
    (x : (⟨2, ![A, M]⟩ : Shape).Idx → α) (h : (⟨2, ![A, M]⟩ : Shape).ShapeCasts ⟨1, ![T]⟩)
    (a : Fin A) (e : Fin M) :
    shapeCast ⟨1, ![T]⟩ x h (ix1 ⟨a.val * M + e.val, flat_lt hT a e⟩) = x (ix2 a e) := by
  refine shapeCast_apply x h _ _ ?_
  rw [Shape.rowMajor_val_two, Shape.rowMajor_val_one]
  rfl

/-- The same with the length written as the product A * M. -/
theorem shapeCast_flat2_apply {α : Type} {A M : Nat}
    (x : (⟨2, ![A, M]⟩ : Shape).Idx → α) (h : (⟨2, ![A, M]⟩ : Shape).ShapeCasts ⟨1, ![A * M]⟩)
    (a : Fin A) (e : Fin M) :
    shapeCast ⟨1, ![A * M]⟩ x h (ix1 ⟨a.val * M + e.val, flat_lt rfl a e⟩) = x (ix2 a e) :=
  shapeCast_flat2_apply_of_eq rfl x h a e

/-! ## A sum over the flat positions -/

/-- A sum over the T = A * M flat positions is the double sum over the pairs (a, m), the pair (a, m) sitting at flat
    position a * M + m: the pairs and the flat positions are in bijection. -/
theorem sum_flat {β : Type*} [AddCommMonoid β] {A M T : Nat} (hT : A * M = T) (f : Fin T → β) :
    ∑ e : Fin T, f e = ∑ a : Fin A, ∑ m : Fin M, f ⟨a.val * M + m.val, flat_lt hT a m⟩ := by
  subst hT
  rw [← (finProdFinEquiv : Fin A × Fin M ≃ Fin (A * M)).sum_comp, Fintype.sum_prod_type]
  refine Finset.sum_congr rfl fun a _ => Finset.sum_congr rfl fun m _ => ?_
  congr 1
  apply Fin.ext
  show m.val + M * a.val = a.val * M + m.val
  rw [Nat.mul_comm, Nat.add_comm]

/-! ## Padding the second axis on the right -/

/-- An [A, M] matrix padded to [A, M'] by M' - M = P columns of a fill value on the right of its second axis (no
    padding before, none between, none on the first axis), read at (a, e'): the matrix's entry (a, e') when the
    column e' is inside the matrix, the fill value past it. -/
theorem pad_axis1_apply {α : Type} {A M P M' : Nat} (x : (⟨2, ![A, M]⟩ : Shape).Idx → α)
    (v : (⟨0, ![]⟩ : Shape).Idx → α)
    (h : (⟨2, ![A, M]⟩ : Shape).Pads (![0, 0] : Fin 2 → Nat) ![0, P] ![0, 0] ⟨2, ![A, M']⟩)
    (hu : 0 < (⟨0, ![]⟩ : Shape).numel) (a : Fin A) (e' : Fin M') :
    pad ⟨2, ![A, M']⟩ ![0, 0] ![0, P] ![0, 0] x v h hu (ix2 a e')
      = if hlt : e'.val < M then x (ix2 a ⟨e'.val, hlt⟩) else v ix0 := by
  unfold pad
  by_cases hlt : e'.val < M
  · rw [dif_pos hlt]
    have hin : ∀ c : Fin 2, (![0, 0] : Fin 2 → Nat) c ≤ (ix2 a e' (c.cast h.1)).val
        ∧ ((ix2 a e' (c.cast h.1)).val - (![0, 0] : Fin 2 → Nat) c) % ((![0, 0] : Fin 2 → Nat) c + 1) = 0
        ∧ ((ix2 a e' (c.cast h.1)).val - (![0, 0] : Fin 2 → Nat) c) / ((![0, 0] : Fin 2 → Nat) c + 1)
            < (⟨2, ![A, M]⟩ : Shape).size c := by
      intro c
      match c with
      | ⟨0, _⟩ =>
        refine ⟨Nat.zero_le _, Nat.mod_one _, ?_⟩
        show (a.val - 0) / (0 + 1) < A
        simp only [Nat.sub_zero, Nat.zero_add, Nat.div_one]; exact a.isLt
      | ⟨1, _⟩ =>
        refine ⟨Nat.zero_le _, Nat.mod_one _, ?_⟩
        show (e'.val - 0) / (0 + 1) < M
        simp only [Nat.sub_zero, Nat.zero_add, Nat.div_one]; exact hlt
    rw [dif_pos hin]
    congr 1
    funext c
    apply Fin.ext
    match c with
    | ⟨0, _⟩ =>
      show (a.val - 0) / (0 + 1) = a.val
      simp only [Nat.sub_zero, Nat.zero_add, Nat.div_one]
    | ⟨1, _⟩ =>
      show (e'.val - 0) / (0 + 1) = e'.val
      simp only [Nat.sub_zero, Nat.zero_add, Nat.div_one]
  · rw [dif_neg hlt]
    rw [dif_neg]
    · congr 1
      funext c
      exact c.elim0
    · intro hin
      apply hlt
      have h1 := (hin 1).2.2
      have h1' : (e'.val - 0) / (0 + 1) < M := h1
      simpa only [Nat.sub_zero, Nat.zero_add, Nat.div_one] using h1'

end Cert.LibFlat

end
-- ==== Proof.KerRead0.lean ====
/-
  The host arithmetic that precedes the first kernel launch, read entry by entry.

  A padded map reads the map at a pair inside it and the fill word past it. The take in fill mode, at offset k,
  pair m and channel c, reads the table at the row the normalised index word names (clamped into the table) when
  that word lies in [0, 149999], and the not-a-number constant otherwise: the in-bounds test is a conjunction of two
  signed comparisons reduced by "and" over an axis of length one, which is the conjunction itself. The masking
  select keeps the taken entry where the padded validity bit is 1 and gives 0 elsewhere; as a number this is the
  entry times the bit, since x * 1 = x and x * 0 = 0 for every extended real. A padded pair has index word 0
  (in bounds) and validity bit 0, so its entry is 0. An index word b with 0 ≤ b < 150000 is already normalised.
-/
import proofs.«429804_j40699110096963_3_alg».proof.Proof.KerDefs0
import proofs.«429804_j40699110096963_3_alg».proof.Proof.Spec
import proofs.«429804_j40699110096963_3_alg».proof.Proof.LibGather3
import proofs.«429804_j40699110096963_3_alg».proof.Proof.LibFlat
import Idealize.ShloMosaic.PureOps.Ideal
import Idealize.ShloMosaic.PureOps.Ideal.Laws
import Idealize.ShloMosaic.PureOps.Reduce
import Idealize.ShloMosaic.Lib.Affine
import Idealize.ShloMosaic.Lib.ValueIdx
import Idealize.ShloMosaic.Lib.Pipeline.Value

noncomputable section

namespace Cert.KernelIdeal.Hand

open Idealize.ShloMosaic Idealize.ShloMosaic.ValueIdx
open Cert.KernelIdeal
open Facts₀ Facts

variable [Facts]

/-! ## The padded maps -/

/-- The padded index map at pair mm of offset k: the map's word inside the 150000 pairs, the word 0 past them. -/
theorem kPadI_apply (i : IVec S27x150000 32) (k : Fin 27) (mm : Fin 159744) :
    kPadI i (ix2 k mm) = if h : mm.val < 150000 then i (ix2 k ⟨mm.val, h⟩) else 0#32 :=
  Cert.LibFlat.pad_axis1_apply (A := 27) (M := 150000) (P := 9744) (M' := 159744) i
    (id (constantI S_ 32 0#32)) pads_S27x150000_S27x159744_000_097440 h_S_ k mm

/-- The padded validity bits at pair mm of offset k: the bit inside the 150000 pairs, the bit 0 past them. -/
theorem kPadM_apply (b : IVec S27x150000 1) (k : Fin 27) (mm : Fin 159744) :
    kPadM b (ix2 k mm) = if h : mm.val < 150000 then b (ix2 k ⟨mm.val, h⟩) else 0#1 :=
  Cert.LibFlat.pad_axis1_apply (A := 27) (M := 150000) (P := 9744) (M' := 159744) b
    (constantI S_ 1 0#1) pads_S27x150000_S27x159744_000_097440 h_S_ k mm

/-! ## The take in fill mode -/

/-- The normalised index words, as the [27, 159744, 1] array of row numbers the gather reads. -/
def kNrm (ip : IVec S27x159744 32) : IVec S27x159744x1 32 :=
  broadcastInDim S27x159744x1 ![0, 1] bcast_S27x159744_S27x159744x1_0_1
    (select (cmpi .slt ip (broadcastInDim S27x159744 ![] bcast_S_S27x159744 (constantI S_ 32 0#32)))
      (addi ip (broadcastInDim S27x159744 ![] bcast_S_S27x159744 (constantI S_ 32 150000#32))) ip)

/-- The in-bounds test before its reduction: 0 ≤ word and word ≤ 149999, entry by entry. -/
def kInb3 (ip : IVec S27x159744 32) : IVec S27x159744x1 1 :=
  andi
    (cmpi .sge (kNrm ip) (broadcastInDim S27x159744x1 ![] bcast_S_S27x159744x1 (constantI S_ 32 0#32)))
    (cmpi .sle (kNrm ip)
      (broadcastInDim S27x159744x1 ![0, 1, 2] bcast_S1x1x1_S27x159744x1_0_1_2
        (broadcastInDim S1x1x1 ![2] bcast_S1_S1x1x1_2 (constantI S1 32 149999#32))))

/-- The in-bounds test reduced by "and" over the unit axis. -/
def kInb (ip : IVec S27x159744 32) : IVec S27x159744 1 :=
  Host.reduce IntOp.andi (kInb3 ip) (constantI S_ 1 1#1) reducesTo_S27x159744x1_S27x159744_d2 h_S_

/-- The take is the select, by the broadcast in-bounds bit, between the gathered rows and the constant. -/
theorem kTake_eq (h : FVec Ideal S150000x32 .f32) (ip : IVec S27x159744 32) :
    kTake h ip = select
      (broadcastInDim S27x159744x32 ![0, 1] bcast_S27x159744_S27x159744x32_0_1 (kInb ip))
      (Host.gather gather_S150000x32_S27x159744x1_S27x159744x32_2_0_n_n_0_2_132 h (kNrm ip))
      (broadcastInDim S27x159744x32 ![] bcast_S_S27x159744x32 (constant S_ .f32 0x7FC00000#32)) := rfl

/-- The row number at (k, mm) is the normalised word. -/
theorem kNrm_apply (ip : IVec S27x159744 32) (k : Fin 27) (mm : Fin 159744) :
    kNrm ip (ix3 k mm (0 : Fin 1)) = SparseConv.nrm (ip (ix2 k mm)) := by
  unfold kNrm
  rw [broadcastInDim_apply _ _ _ _ (ix2 k mm)
    (fun a => match a with | ⟨0, _⟩ => rfl | ⟨1, _⟩ => rfl)]
  rfl

/-- The unreduced in-bounds bit at (k, mm). -/
theorem kInb3_apply (ip : IVec S27x159744 32) (k : Fin 27) (mm : Fin 159744) :
    kInb3 ip (ix3 k mm (0 : Fin 1))
      = IntOp.andi (IntOp.cmpi .sge (SparseConv.nrm (ip (ix2 k mm))) 0#32)
          (IntOp.cmpi .sle (SparseConv.nrm (ip (ix2 k mm))) 149999#32) := by
  show IntOp.andi (IntOp.cmpi .sge (kNrm ip (ix3 k mm (0 : Fin 1))) 0#32)
      (IntOp.cmpi .sle (kNrm ip (ix3 k mm (0 : Fin 1))) 149999#32) = _
  rw [kNrm_apply]

/-- A fold over the one index of an axis of length one is the operation applied once. -/
theorem fold_fin_one {α : Type} (op : α → α → α) [Std.Commutative op] [Std.Associative op] (b : α) (n : Nat)
    (hn : n = 1) (g : Fin n → α) :
    (Finset.univ : Finset (Fin n)).fold op b g = op (g ⟨0, by omega⟩) b := by
  subst hn
  rw [Finset.univ_unique, Finset.fold_singleton]
  rfl

/-- A reduction by "and" over an axis of length one: the initial bit and the one entry. -/
theorem reduce_unit_apply (x : IVec S27x159744x1 1) (init : IVec S_ 1)
    (h' : S27x159744x1.ReducesTo [2] S27x159744) (hu : 0 < S_.numel) (k : Fin 27) (mm : Fin 159744) :
    Host.reduce IntOp.andi x init h' hu (ix2 k mm)
      = IntOp.andi (x (ix3 k mm (0 : Fin 1))) (init (Shape.Idx.first hu)) := by
  have h : S27x159744x1.Reduces [2] S27x159744 := by decide
  rw [Host.reduce_eq_fold_single IntOp.andi x init h' h hu]
  refine (fold_fin_one IntOp.andi _ (S27x159744x1.size 2) rfl _).trans ?_
  show IntOp.andi (x (h.lift (ix2 k mm) (0 : Fin 1))) _ = _
  have hl : h.lift (ix2 k mm) (0 : Fin 1) = ix3 k mm (0 : Fin 1) := by
    funext c
    apply Fin.ext
    match c with
    | ⟨0, _⟩ => rfl
    | ⟨1, _⟩ => rfl
    | ⟨2, _⟩ => rfl
  rw [hl]

/-- The in-bounds bit is 1 exactly when the normalised word, read signed, lies in [0, 149999]. -/
theorem kInb_eq_one (ip : IVec S27x159744 32) (k : Fin 27) (mm : Fin 159744) :
    kInb ip (ix2 k mm) = 1#1
      ↔ 0 ≤ (SparseConv.nrm (ip (ix2 k mm))).toInt ∧ (SparseConv.nrm (ip (ix2 k mm))).toInt ≤ 149999 := by
  unfold kInb
  rw [reduce_unit_apply, kInb3_apply]
  show IntOp.andi _ 1#1 = 1#1 ↔ _
  rw [IntOp.andi_eq_one, IntOp.andi_eq_one, IntOp.cmpi_sge, IntOp.cmpi_sle]
  have h0 : (0#32 : BitVec 32).toInt = 0 := by decide
  have h1 : (149999#32 : BitVec 32).toInt = 149999 := by decide
  rw [h0, h1]
  exact ⟨fun h => h.1, fun h => ⟨h, rfl⟩⟩

/-- The take at offset k, pair mm, channel c. -/
theorem kTake_apply (h : FVec Ideal S150000x32 .f32) (ip : IVec S27x159744 32) (k : Fin 27) (mm : Fin 159744)
    (c : Fin 32) :
    kTake h ip (ix3 k mm c)
      = if 0 ≤ (SparseConv.nrm (ip (ix2 k mm))).toInt ∧ (SparseConv.nrm (ip (ix2 k mm))).toInt ≤ 149999 then
          h (ix2 (SparseConv.rowOf (ip (ix2 k mm))) c)
        else Ideal.ofBits .f32 0x7FC00000#32 := by
  rw [kTake_eq]
  show (if broadcastInDim S27x159744x32 ![0, 1] bcast_S27x159744_S27x159744x32_0_1 (kInb ip) (ix3 k mm c) = 1#1 then
      Host.gather gather_S150000x32_S27x159744x1_S27x159744x32_2_0_n_n_0_2_132 h (kNrm ip) (ix3 k mm c)
    else Ideal.ofBits .f32 0x7FC00000#32) = _
  rw [broadcastInDim_apply _ _ _ _ (ix2 k mm)
    (fun a => match a with | ⟨0, _⟩ => rfl | ⟨1, _⟩ => rfl)]
  rw [Cert.LibGather3.gather_rows3_apply (N := 150000) (A := 27) (M := 159744) (K := 32)
    gather_S150000x32_S27x159744x1_S27x159744x32_2_0_n_n_0_2_132 rfl rfl rfl rfl rfl rfl h (kNrm ip) k mm c
    (by decide)]
  by_cases hb : kInb ip (ix2 k mm) = 1#1
  · rw [if_pos hb, if_pos ((kInb_eq_one ip k mm).1 hb)]
    refine congrArg (fun r => h (ix2 r c)) (Fin.ext ?_)
    show min (kNrm ip (ix3 k mm (0 : Fin 1))).toInt.toNat (150000 - 1)
      = min (SparseConv.nrm (ip (ix2 k mm))).toInt.toNat 149999
    rw [kNrm_apply]
  · rw [if_neg hb, if_neg (fun hh => hb ((kInb_eq_one ip k mm).2 hh))]

/-! ## The masking select -/

/-- The masked entry: the taken entry where the padded validity bit is 1, and 0 elsewhere. -/
theorem kWhere_apply (mp : IVec S27x159744 1) (g : FVec Ideal S27x159744x32 .f32) (k : Fin 27) (mm : Fin 159744)
    (c : Fin 32) :
    kWhere mp g (ix3 k mm c) = if mp (ix2 k mm) = 1#1 then g (ix3 k mm c) else 0 := by
  show (if broadcastInDim S27x159744x32 ![0, 1, 2] bcast_S27x159744x1_S27x159744x32_0_1_2
        (broadcastInDim S27x159744x1 ![0, 1] bcast_S27x159744_S27x159744x1_0_1 mp) (ix3 k mm c) = 1#1 then
      g (ix3 k mm c)
    else Ideal.ofBits .f32 0x00000000#32) = _
  rw [broadcastInDim_apply _ _ _ _ (ix3 k mm (0 : Fin 1))
    (fun a => match a with | ⟨0, _⟩ => rfl | ⟨1, _⟩ => rfl | ⟨2, _⟩ => rfl)]
  rw [broadcastInDim_apply _ _ _ _ (ix2 k mm)
    (fun a => match a with | ⟨0, _⟩ => rfl | ⟨1, _⟩ => rfl)]
  rw [Ideal.ofBits_zero_f32]

/-! ## The first kernel's left operand -/

/-- A validity bit that is not 1 is 0. -/
theorem bit_eq_zero_of_ne_one (b : BitVec 1) (hb : ¬ b = 1#1) : b = 0#1 := by
  revert b; decide

/-- An index word in [0, 150000) is its own normal form. -/
theorem nrm_of_nonneg (b : BitVec 32) (h0 : 0 ≤ b.toInt) : SparseConv.nrm b = b := by
  unfold SparseConv.nrm
  have hc : ¬ IntOp.cmpi .slt b 0#32 = 1#1 := by
    rw [IntOp.cmpi_slt]
    have h0' : (0#32 : BitVec 32).toInt = 0 := by decide
    rw [h0']; omega
  exact if_neg hc

/-- The first kernel's left operand at offset k, pair mm, channel c: inside the 150000 pairs the entry c of the row
    of x the pair's index word names, times the pair's validity bit; 0 at a padded pair. -/
theorem kG1_apply (x : FVec Ideal S150000x32 .f32) (imap : IVec S27x150000 32) (mask : IVec S27x150000 1)
    (hin : ∀ (k : Fin 27) (m : Fin 150000), 0 ≤ (imap (ix2 k m)).toInt ∧ (imap (ix2 k m)).toInt < 150000)
    (k : Fin 27) (mm : Fin 159744) (c : Fin 32) :
    kG1 x imap mask (ix3 k mm c)
      = if h : mm.val < 150000 then
          x (ix2 (SparseConv.rowOf (imap (ix2 k ⟨mm.val, h⟩))) c) * SparseConv.mf (mask (ix2 k ⟨mm.val, h⟩))
        else 0 := by
  show kWhere (kPadM mask) (kTake x (kPadI imap)) (ix3 k mm c) = _
  rw [kWhere_apply, kPadM_apply]
  by_cases hm : mm.val < 150000
  · rw [dif_pos hm, dif_pos hm]
    obtain ⟨h0, h1⟩ := hin k ⟨mm.val, hm⟩
    by_cases hb : mask (ix2 k ⟨mm.val, hm⟩) = 1#1
    · rw [if_pos hb, hb, kTake_apply, kPadI_apply, dif_pos hm, nrm_of_nonneg _ h0]
      rw [if_pos (show 0 ≤ (imap (ix2 k ⟨mm.val, hm⟩)).toInt ∧ (imap (ix2 k ⟨mm.val, hm⟩)).toInt ≤ 149999 from
        ⟨h0, by omega⟩)]
      have h1' : SparseConv.mf 1#1 = 1 := by
        unfold SparseConv.mf; simp
      rw [h1', mul_one]
    · rw [if_neg hb, bit_eq_zero_of_ne_one _ hb]
      have h0' : SparseConv.mf 0#1 = 0 := by
        unfold SparseConv.mf; simp
      rw [h0', mul_zero]
  · rw [dif_neg hm, dif_neg hm, if_neg (by decide)]

end Cert.KernelIdeal.Hand

end
-- ==== Proof.Consts.lean ====
/-
  The float literals of both programs, as the extended reals their bit patterns denote: the row count 150000
  (0x48127C00) and the variance's stabiliser (0x3727C5AC = 10995116 · 2⁻⁴⁰, the float nearest 10⁻⁵), which is positive.
-/
import Idealize.ShloMosaic.PureOps.Ideal
import Idealize.ShloMosaic.PureOps.Ideal.Laws
import proofs.«429804_j40699110096963_3_alg».proof.Proof.Spec

noncomputable section

namespace Cert.SparseConv

open Idealize.ShloMosaic

/-- The row count's pattern denotes the real 150000. -/
theorem ofBits_rows : Ideal.ofBits .f32 0x48127C00#32 = ((150000 : ℝ) : EReal) := by
  simp [Ideal.ofBits, Ideal.ieee, -EReal.coe_mul]; norm_num

/-- The stabiliser's pattern denotes a dyadic rational. -/
theorem ofBits_eps : Ideal.ofBits .f32 0x3727C5AC#32 = ((10995116 / 1099511627776 : ℝ) : EReal) := by
  simp [Ideal.ofBits, Ideal.ieee, -EReal.coe_mul]; norm_num

theorem nF_eq : nF = ((150000 : ℝ) : EReal) := ofBits_rows

theorem eps_eq : eps = ((10995116 / 1099511627776 : ℝ) : EReal) := ofBits_eps

/-- The variance's divisor is the row count: no degree of freedom is taken off. -/
theorem dof_eq : dof = ((150000 : ℝ) : EReal) := by
  unfold dof
  rw [nF_eq]
  have : ((0#32 : BitVec 32).toInt : ℝ) = 0 := by simp
  rw [this, EReal.coe_zero, sub_zero]

end Cert.SparseConv

end
-- ==== Proof.LibScatterRows.lean ====
/-
  Row scatters and row gathers read at an index, on the extended reals.

  `x.at[idx].add(u)` over the rows of a rank-2 array (and over the entries of a rank-1 array), with one
  start index per update row kept as an [M, 1] column: the entry at row `n` is the operand's entry plus the sum of
  the update rows whose start index, read as a signed integer, is exactly `n`; a start index that is no row number
  adds nowhere. `x[idx]` over rows: result row `e` is the operand's row at the start index read signed and
  clamped into the array.
-/
import Idealize.ShloMosaic.PureOps.Ideal
import Idealize.ShloMosaic.Lib.ValueIdx

noncomputable section

open scoped BigOperators

namespace Cert.LibScatterRows

open Idealize.ShloMosaic Idealize.ShloMosaic.ValueIdx

variable {φ : FTy}

/-- An entry of a one-element list is that element. -/
theorem getElem_of_eq_singleton {α : Type} {l : List α} {a : α} (h : l = [a]) (i : Nat) (hi : i < l.length) :
    l[i] = a := by
  subst h
  have : i = 0 := by simpa using hi
  subst this; rfl

/-! ## Rows of a rank-2 operand: the start index, the window coordinate and the landing index of an update entry -/

section Rows
variable {N M K w : Nat} (d : ScatterDims ⟨2, ![N, K]⟩ ⟨2, ![M, 1]⟩ ⟨2, ![M, K]⟩)

/-- Update entry `(e, k')` reads its start index at entry `(e, 0)` of the column of row numbers. -/
theorem rows_siIdx (huw : d.updateWindowDims = [1]) (hivd : d.indexVectorDim = 1)
    (e : Fin M) (k' : Fin K) (c : Fin d.scatterDimsToOperandDims.length) (hc : c.val = 0) :
    d.siIdx (ix2 e k') c = ix2 e (0 : Fin 1) := by
  have hus : d.uScatter = [0] := by
    show Shape.kept _ d.updateWindowDims = _
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton hus]
    rfl
  | ⟨1, _⟩ =>
    unfold ScatterDims.siIdx
    rw [dif_pos (by rw [hivd])]
    apply Fin.ext
    exact hc

/-- On the row axis the window of update entry `(e, k')` starts at the signed value of start index `e`. -/
theorem rows_start0 (huw : d.updateWindowDims = [1]) (hsd : d.scatterDimsToOperandDims = [0])
    (hivd : d.indexVectorDim = 1) (idx : IVec ⟨2, ![M, 1]⟩ w) (e : Fin M) (k' : Fin K) :
    d.start (ix2 e k') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hivd]
  show List.idxOf (0 : Fin 2) d.scatterDimsToOperandDims = 0
  rw [hsd]; simp

/-- On the column axis every window starts at `0`. -/
theorem rows_start1 (hsd : d.scatterDimsToOperandDims = [0])
    (idx : IVec ⟨2, ![M, 1]⟩ w) (j : (⟨2, ![M, K]⟩ : Shape).Idx) :
    d.start j idx 1 = 0 := by
  have hm : (1 : Fin 2) ∉ d.scatterDimsToOperandDims := by rw [hsd]; simp
  unfold ScatterDims.start
  rw [dif_neg hm]

/-- The row axis is inserted: the window coordinate there is `0`. -/
theorem rows_window0 (hiw : d.insertedWindowDims = [0]) (j : (⟨2, ![M, K]⟩ : Shape).Idx) :
    d.window j 0 = 0 := by
  have hsk : d.sKept = [1] := by
    show Shape.kept _ d.insertedWindowDims = _
    rw [hiw]; rfl
  have hk : (0 : Fin 2) ∉ d.sKept := by rw [hsk]; simp
  unfold ScatterDims.window
  rw [dif_neg hk]

/-- On the column axis the window coordinate of update entry `(e, k')` is `k'`. -/
theorem rows_window1 (huw : d.updateWindowDims = [1]) (hiw : d.insertedWindowDims = [0])
    (e : Fin M) (k' : Fin K) :
    d.window (ix2 e k') 1 = k'.val := by
  have hsk : d.sKept = [1] := by
    show Shape.kept _ d.insertedWindowDims = _
    rw [hiw]; rfl
  have hk : (1 : Fin 2) ∈ d.sKept := by rw [hsk]; exact List.mem_singleton.mpr rfl
  unfold ScatterDims.window
  rw [dif_pos hk, getElem_of_eq_singleton huw]
  rfl

/-- Update entry `(e, k')` lands at operand entry `(n, k)` exactly when start index `e`, read signed, is `n` and
    `k' = k`. -/
theorem rows_resultIdx?_iff (huw : d.updateWindowDims = [1]) (hiw : d.insertedWindowDims = [0])
    (hsd : d.scatterDimsToOperandDims = [0]) (hivd : d.indexVectorDim = 1)
    (idx : IVec ⟨2, ![M, 1]⟩ w) (e : Fin M) (k' : Fin K) (n : Fin N) (k : Fin K) :
    d.resultIdx? (ix2 e k') idx = some (ix2 n k)
      ↔ (idx (ix2 e (0 : Fin 1))).toInt = (n.val : Int) ∧ k' = k := by
  have h0 := rows_start0 d huw hsd hivd idx e k'
  have h1 := rows_start1 d hsd idx (ix2 e k')
  have w0 := rows_window0 d hiw (ix2 e k')
  have w1 := rows_window1 d huw hiw e k'
  have hn := n.isLt
  have hk := k.isLt
  have hk' := k'.isLt
  unfold ScatterDims.resultIdx?
  split
  · next h =>
    rw [Option.some.injEq]
    constructor
    · intro hf
      have f0 : (d.start (ix2 e k') idx 0 + (d.window (ix2 e k') 0 : Int)).toNat = n.val :=
        congrArg (fun f => (f 0).val) hf
      have f1 : (d.start (ix2 e k') idx 1 + (d.window (ix2 e k') 1 : Int)).toNat = k.val :=
        congrArg (fun f => (f 1).val) hf
      have g0 : 0 ≤ d.start (ix2 e k') idx 0 + (d.window (ix2 e k') 0 : Int) := (h 0).1
      rw [h0, w0] at f0 g0
      rw [h1, w1] at f1
      exact ⟨by omega, Fin.ext (by omega)⟩
    · rintro ⟨ht, rfl⟩
      funext a
      apply Fin.ext
      match a with
      | ⟨0, _⟩ =>
        show (d.start (ix2 e k') idx 0 + (d.window (ix2 e k') 0 : Int)).toNat = n.val
        rw [h0, w0]; omega
      | ⟨1, _⟩ =>
        show (d.start (ix2 e k') idx 1 + (d.window (ix2 e k') 1 : Int)).toNat = k'.val
        rw [h1, w1]; omega
  · next h =>
    constructor
    · intro hf; exact absurd hf (by simp)
    · rintro ⟨ht, rfl⟩
      exfalso; apply h
      intro a
      match a with
      | ⟨0, _⟩ =>
        show 0 ≤ d.start (ix2 e k') idx 0 + (d.window (ix2 e k') 0 : Int)
          ∧ d.start (ix2 e k') idx 0 + (d.window (ix2 e k') 0 : Int) < (N : Int)
        rw [h0, w0]; omega
      | ⟨1, _⟩ =>
        show 0 ≤ d.start (ix2 e k') idx 1 + (d.window (ix2 e k') 1 : Int)
          ∧ d.start (ix2 e k') idx 1 + (d.window (ix2 e k') 1 : Int) < (K : Int)
        rw [h1, w1]; omega

end Rows

/-- A float scatter-add of update rows `[M, K]` into an operand `[N, K]` at an `[M, 1]` column of row numbers
    (update window axis 1, inserted window axis 0, the one start-index component naming operand axis 0), read at
    entry `(n, k)`. -/
theorem scatterAdd_rows_apply {N M K w : Nat}
    (d : ScatterDims ⟨2, ![N, K]⟩ ⟨2, ![M, 1]⟩ ⟨2, ![M, K]⟩)
    (huw : d.updateWindowDims = [1]) (hiw : d.insertedWindowDims = [0])
    (hsd : d.scatterDimsToOperandDims = [0]) (hivd : d.indexVectorDim = 1)
    (x : FVec Ideal ⟨2, ![N, K]⟩ φ) (idx : IVec ⟨2, ![M, 1]⟩ w) (upd : FVec Ideal ⟨2, ![M, K]⟩ φ)
    (n : Fin N) (k : Fin K) :
    Host.scatterAdd d x idx upd (ix2 n k)
      = x (ix2 n k) + ∑ e : Fin M, if (idx (ix2 e (0 : Fin 1))).toInt = (n.val : Int) then upd (ix2 e k) else 0 := by
  show Ideal.hostScatterAdd d x idx upd (ix2 n k) = _
  unfold Ideal.hostScatterAdd
  congr 1
  rw [Finset.sum_filter, sum_idx2]
  refine Finset.sum_congr rfl fun e _ => ?_
  simp only [rows_resultIdx?_iff d huw hiw hsd hivd idx]
  by_cases ht : (idx (ix2 e (0 : Fin 1))).toInt = (n.val : Int)
  · simp [ht]
  · simp [ht]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Entries of a rank-1 operand -/

section Vec
variable {N M w : Nat} (d : ScatterDims ⟨1, ![N]⟩ ⟨2, ![M, 1]⟩ ⟨1, ![M]⟩)

/-- Update entry `e` reads its start index at entry `(e, 0)` of the column of entry numbers. -/
theorem vec_siIdx (huw : d.updateWindowDims = []) (hivd : d.indexVectorDim = 1)
    (e : Fin M) (c : Fin d.scatterDimsToOperandDims.length) (hc : c.val = 0) :
    d.siIdx (ix1 e) c = ix2 e (0 : Fin 1) := by
  have hus : d.uScatter = [0] := by
    show Shape.kept _ d.updateWindowDims = _
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton hus]
    rfl
  | ⟨1, _⟩ =>
    unfold ScatterDims.siIdx
    rw [dif_pos (by rw [hivd])]
    apply Fin.ext
    exact hc

/-- The window of update entry `e` starts at the signed value of start index `e`. -/
theorem vec_start (huw : d.updateWindowDims = []) (hsd : d.scatterDimsToOperandDims = [0])
    (hivd : d.indexVectorDim = 1) (idx : IVec ⟨2, ![M, 1]⟩ w) (e : Fin M) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d huw hivd]
  show List.idxOf (0 : Fin 1) d.scatterDimsToOperandDims = 0
  rw [hsd]; simp

/-- The operand's one axis is inserted: the window coordinate there is `0`. -/
theorem vec_window (hiw : d.insertedWindowDims = [0]) (j : (⟨1, ![M]⟩ : Shape).Idx) :
    d.window j 0 = 0 := by
  have hsk : d.sKept = [] := by
    show Shape.kept _ d.insertedWindowDims = _
    rw [hiw]; rfl
  have hk : (0 : Fin 1) ∉ d.sKept := by rw [hsk]; exact List.not_mem_nil
  unfold ScatterDims.window
  rw [dif_neg hk]

/-- Update entry `e` lands at operand entry `n` exactly when start index `e`, read signed, is `n`. -/
theorem vec_resultIdx?_iff (huw : d.updateWindowDims = []) (hiw : d.insertedWindowDims = [0])
    (hsd : d.scatterDimsToOperandDims = [0]) (hivd : d.indexVectorDim = 1)
    (idx : IVec ⟨2, ![M, 1]⟩ w) (e : Fin M) (n : Fin N) :
    d.resultIdx? (ix1 e) idx = some (ix1 n) ↔ (idx (ix2 e (0 : Fin 1))).toInt = (n.val : Int) := by
  have h0 := vec_start d huw hsd hivd idx e
  have w0 := vec_window d hiw (ix1 e)
  have hn := n.isLt
  unfold ScatterDims.resultIdx?
  split
  · next h =>
    rw [Option.some.injEq]
    constructor
    · intro hf
      have f0 : (d.start (ix1 e) idx 0 + (d.window (ix1 e) 0 : Int)).toNat = n.val :=
        congrArg (fun f => (f 0).val) hf
      have g0 : 0 ≤ d.start (ix1 e) idx 0 + (d.window (ix1 e) 0 : Int) := (h 0).1
      rw [h0, w0] at f0 g0
      omega
    · intro ht
      funext a
      apply Fin.ext
      match a with
      | ⟨0, _⟩ =>
        show (d.start (ix1 e) idx 0 + (d.window (ix1 e) 0 : Int)).toNat = n.val
        rw [h0, w0]; omega
  · next h =>
    constructor
    · intro hf; exact absurd hf (by simp)
    · intro ht
      exfalso; apply h
      intro a
      match a with
      | ⟨0, _⟩ =>
        show 0 ≤ d.start (ix1 e) idx 0 + (d.window (ix1 e) 0 : Int)
          ∧ d.start (ix1 e) idx 0 + (d.window (ix1 e) 0 : Int) < (N : Int)
        rw [h0, w0]; omega

end Vec

/-- The same for a rank-1 operand `[N]` and rank-1 updates `[M]` (no window axis). -/
theorem scatterAdd_vec_apply {N M w : Nat}
    (d : ScatterDims ⟨1, ![N]⟩ ⟨2, ![M, 1]⟩ ⟨1, ![M]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e : Fin M, if (idx (ix2 e (0 : Fin 1))).toInt = (n.val : Int) then upd (ix1 e) else 0 := by
  show Ideal.hostScatterAdd d x idx upd (ix1 n) = _
  unfold Ideal.hostScatterAdd
  congr 1
  rw [Finset.sum_filter, sum_idx1]
  refine Finset.sum_congr rfl fun e _ => ?_
  simp only [vec_resultIdx?_iff d huw hiw hsd hivd idx]

/-! ## The row gather -/

/-- A gather of whole rows of an `[N, K]` operand at an `[M, 1]` column of row numbers (offset axis 1, collapsed
    axis 0, the one start-index component naming operand axis 0, slices `1 × K`), read at entry `(e, k)`: the
    operand's entry `k` of the row at the start index read signed and clamped into `[0, N − 1]`. -/
theorem gather_rows_apply {α : Type} {N M K w : Nat}
    (d : GatherDims ⟨2, ![N, K]⟩ ⟨2, ![M, 1]⟩ ⟨2, ![M, K]⟩)
    (hoff : d.offsetDims = [1]) (hcoll : d.collapsedSliceDims = [0]) (hob : d.operandBatchingDims = [])
    (hsim : d.startIndexMap = [0]) (hivd : d.indexVectorDim = 1) (hss : d.sliceSizes = ![1, K])
    (x : (⟨2, ![N, K]⟩ : Shape).Idx → α) (idx : IVec ⟨2, ![M, 1]⟩ w) (e : Fin M) (k : Fin K) (hN : 0 < N) :
    Host.gather d x idx (ix2 e k)
      = x (ix2 ⟨min (idx (ix2 e (0 : Fin 1))).toInt.toNat (N - 1), by omega⟩ k) := by
  unfold Host.gather
  congr 1
  funext a
  apply Fin.ext
  have hbd : d.batchDims = [0] := by
    show Shape.kept _ d.offsetDims = _
    rw [hoff]; rfl
  have hsk : d.sKept = [1] := by
    show Shape.kept _ (d.collapsedSliceDims ++ d.operandBatchingDims) = _
    rw [hcoll, hob]; rfl
  match a with
  | ⟨0, _⟩ =>
    -- axis 0 is collapsed and carries the start index: clamped start, no batching or offset coordinate
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    show d.start (ix2 e k) idx 0 + d.batchCoord (ix2 e k) 0 + d.offCoord (ix2 e k) 0 = _
    rw [GatherDims.batchCoord_eq_zero _ _ _ hb, GatherDims.offCoord_eq_zero _ _ _ hk]
    simp only [Nat.add_zero]
    unfold GatherDims.start
    rw [dif_pos hm, hsl]
    show min (idx _).toInt.toNat (N - 1) = min (idx (ix2 e (0 : Fin 1))).toInt.toNat (N - 1)
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1 is the offset axis: start 0, no batching coordinate, the result's coordinate 1
    have hb : (1 : Fin 2) ∉ d.operandBatchingDims := by rw [hob]; exact List.not_mem_nil
    have hk : (1 : Fin 2) ∈ d.sKept := by rw [hsk]; exact List.mem_singleton.mpr rfl
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ hb]
    unfold GatherDims.start GatherDims.offCoord
    rw [dif_neg hm, dif_pos hk, getElem_of_eq_singleton hoff]
    simp only [Nat.add_zero, Nat.zero_add]
    rfl

end Cert.LibScatterRows

end
-- ==== Proof.KerRead1.lean ====
/-
  The host arithmetic between the kernel launches, read entry by entry.

  The scatter of the flattened GEMM output into a table of zeros holds, at row r and channel d, the sum over the
  27 offsets and the 159744 padded pairs of the update entries whose normalised destination word is exactly r. The
  mean and the variance tables hold, at channel c, the specification's mean and variance of the table's column c.
  The scale and shift tables, the scaled-shifted-rectified rows and a vector laid out as a one-row table are read
  at an entry as the corresponding scalar expressions.
-/
import proofs.«429804_j40699110096963_3_alg».proof.Proof.KerDefs1
import proofs.«429804_j40699110096963_3_alg».proof.Proof.Spec
import proofs.«429804_j40699110096963_3_alg».proof.Proof.Consts
import proofs.«429804_j40699110096963_3_alg».proof.Proof.LibScatterRows
import proofs.«429804_j40699110096963_3_alg».proof.Proof.LibFlat
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.KernelIdeal.Hand

open Idealize.ShloMosaic Idealize.ShloMosaic.ValueIdx
open Cert.KernelIdeal
open Facts₀ Facts

variable [Facts]

/-- A vector laid out as a one-row table keeps its entries: entry c sits at row 0, column c. -/
theorem kRow_apply (v : FVec Ideal S32 .f32) (c : Fin 32) : kRow v (ix2 (0 : Fin 1) c) = v (ix1 c) := by
  unfold kRow
  refine shapeCast_apply v _ _ _ ?_
  rw [Shape.rowMajor_val_one, Shape.rowMajor_val_two]
  show c.val = 0 * 32 + c.val
  omega

/-- A vector broadcast along the columns of a one-row table reads entry c at column c. -/
theorem bcastRow_apply (v : FVec Ideal S32 .f32) (c : Fin 32) :
    broadcastInDim S1x32 ![1] bcast_S32_S1x32_1 v (ix2 (0 : Fin 1) c) = v (ix1 c) :=
  broadcastInDim_apply _ _ v _ _ fun a => match a with | ⟨0, _⟩ => rfl

/-- A one-row table broadcast down the 150000 rows reads, at row r and column c, the row's entry c. -/
theorem bcastDown_apply (v : FVec Ideal S1x32 .f32) (r : Fin 150000) (c : Fin 32) :
    broadcastInDim S150000x32 ![0, 1] bcast_S1x32_S150000x32_0_1 v (ix2 r c) = v (ix2 (0 : Fin 1) c) :=
  broadcastInDim_apply _ _ v _ _ fun a => match a with | ⟨0, _⟩ => rfl | ⟨1, _⟩ => rfl

/-- A one-row table broadcast over offsets and pairs reads, at (k, m, c), the row's entry c. -/
theorem bcast3_apply (v : FVec Ideal S1x32 .f32) (k : Fin 27) (mm : Fin 159744) (c : Fin 32) :
    broadcastInDim S27x159744x32 ![0, 1, 2] bcast_S1x1x32_S27x159744x32_0_1_2
        (broadcastInDim S1x1x32 ![1, 2] bcast_S1x32_S1x1x32_1_2 v) (ix3 k mm c) = v (ix2 (0 : Fin 1) c) := by
  refine (broadcastInDim_apply _ _ _ _ (ix3 (0 : Fin 1) (0 : Fin 1) c)
    fun a => match a with | ⟨0, _⟩ => rfl | ⟨1, _⟩ => rfl | ⟨2, _⟩ => rfl).trans ?_
  exact broadcastInDim_apply _ _ v _ _ fun a => match a with | ⟨0, _⟩ => rfl | ⟨1, _⟩ => rfl

/-- The scale table at channel c: gamma's entry times the reciprocal square root of the stabilised variance. -/
theorem kScale_apply (g : FVec Ideal S32 .f32) (var : FVec Ideal S1x32 .f32) (c : Fin 32) :
    kScale g var (ix2 (0 : Fin 1) c) = g (ix1 c) * Ideal.rsqrt (var (ix2 (0 : Fin 1) c) + SparseConv.eps) := by
  show kRow g (ix2 (0 : Fin 1) c) * Ideal.rsqrt (var (ix2 (0 : Fin 1) c) + Ideal.ofBits .f32 0x3727C5AC#32) = _
  rw [kRow_apply]
  rfl

/-- The shift table at channel c: beta's entry less the mean times the scale. -/
theorem kShift_apply (b : FVec Ideal S32 .f32) (mean scale : FVec Ideal S1x32 .f32) (c : Fin 32) :
    kShift b mean scale (ix2 (0 : Fin 1) c)
      = b (ix1 c) - mean (ix2 (0 : Fin 1) c) * scale (ix2 (0 : Fin 1) c) := by
  show kRow b (ix2 (0 : Fin 1) c) - mean (ix2 (0 : Fin 1) c) * scale (ix2 (0 : Fin 1) c) = _
  rw [kRow_apply]

/-- The scaled, shifted and rectified rows at (k, m, c). -/
theorem kAffRelu_apply (t : FVec Ideal S27x159744x32 .f32) (scale shift : FVec Ideal S1x32 .f32)
    (k : Fin 27) (mm : Fin 159744) (c : Fin 32) :
    kAffRelu t scale shift (ix3 k mm c)
      = max (t (ix3 k mm c) * scale (ix2 (0 : Fin 1) c) + shift (ix2 (0 : Fin 1) c)) 0 := by
  show max (t (ix3 k mm c)
        * broadcastInDim S27x159744x32 ![0, 1, 2] bcast_S1x1x32_S27x159744x32_0_1_2
            (broadcastInDim S1x1x32 ![1, 2] bcast_S1x32_S1x1x32_1_2 scale) (ix3 k mm c)
      + broadcastInDim S27x159744x32 ![0, 1, 2] bcast_S1x1x32_S27x159744x32_0_1_2
            (broadcastInDim S1x1x32 ![1, 2] bcast_S1x32_S1x1x32_1_2 shift) (ix3 k mm c))
      (Ideal.ofBits .f32 0x00000000#32) = _
  rw [bcast3_apply, bcast3_apply, Ideal.ofBits_zero_f32]

/-- The host's sum over the 150000 rows from a zero initial value: at channel c, zero plus the sum of column c. -/
theorem colSum_apply (y : FVec Ideal S150000x32 .f32) (c : Fin 32) :
    Host.reduceAdd y (constant S_ .f32 0x00000000#32) reducesTo_S150000x32_S32_d0 h_S_ (ix1 c)
      = 0 + ∑ r : Fin 150000, y (ix2 r c) := by
  have hR : S150000x32.Reduces [0] S32 := by decide
  refine (hostReduceAdd_apply y _ _ _ _).trans ?_
  refine (Ideal.hostReduceAdd_single reducesTo_S150000x32_S32_d0 hR y _ (ix1 c)).trans ?_
  show Ideal.ofBits .f32 0x00000000#32 + _ = _
  rw [Ideal.ofBits_zero_f32]
  refine congrArg (fun s => (0 : EReal) + s) ?_
  refine Finset.sum_congr rfl fun r _ => ?_
  refine congrArg y ?_
  funext a
  match a with
  | ⟨0, _⟩ => rfl
  | ⟨1, _⟩ => rfl

/-- The mean table at channel c is the specification's mean of column c. -/
theorem kMean_apply (y : FVec Ideal S150000x32 .f32) (c : Fin 32) :
    kMean y (ix2 (0 : Fin 1) c) = SparseConv.mean (fun r c => y (ix2 r c)) c := by
  show Ideal.div (broadcastInDim S1x32 ![1] bcast_S32_S1x32_1
      (Host.reduceAdd y (constant S_ .f32 0x00000000#32) reducesTo_S150000x32_S32_d0 h_S_) (ix2 (0 : Fin 1) c))
      (Ideal.ofBits .f32 0x48127C00#32) = _
  rw [bcastRow_apply, colSum_apply]
  rfl

/-- The variance's divisor, 150000 less zero, is above zero: the guard of the variance holds. -/
theorem dof_gt : Ideal.cmp .ogt SparseConv.dof (Ideal.ofBits .f32 0x00000000#32) = 1#1 := by
  rw [SparseConv.dof_eq, Ideal.ofBits_zero_f32]
  have h : (0 : EReal) < ((150000 : ℝ) : EReal) := by exact_mod_cast (by norm_num : (0 : ℝ) < 150000)
  show BitVec.ofBool (decide ((0 : EReal) < ((150000 : ℝ) : EReal))) = 1#1
  rw [decide_eq_true h]
  rfl

/-- The variance table at channel c is the specification's variance of column c. -/
theorem kVar_apply (y : FVec Ideal S150000x32 .f32) (c : Fin 32) :
    kVar y (ix2 (0 : Fin 1) c) = SparseConv.var (fun r c => y (ix2 r c)) c := by
  have hdev : ∀ r : Fin 150000,
      mulf (subf y (broadcastInDim S150000x32 ![0, 1] bcast_S1x32_S150000x32_0_1 (kMean y)))
           (subf y (broadcastInDim S150000x32 ![0, 1] bcast_S1x32_S150000x32_0_1 (kMean y))) (ix2 r c)
        = (y (ix2 r c) - SparseConv.mean (fun r c => y (ix2 r c)) c)
            * (y (ix2 r c) - SparseConv.mean (fun r c => y (ix2 r c)) c) := by
    intro r
    rw [mulf_apply, subf_apply, bcastDown_apply, kMean_apply]
  show Scalar.select (Ideal.cmp .ogt SparseConv.dof (Ideal.ofBits .f32 0x00000000#32))
      (Ideal.div (broadcastInDim S1x32 ![1] bcast_S32_S1x32_1
          (Host.reduceAdd
            (mulf (subf y (broadcastInDim S150000x32 ![0, 1] bcast_S1x32_S150000x32_0_1 (kMean y)))
                  (subf y (broadcastInDim S150000x32 ![0, 1] bcast_S1x32_S150000x32_0_1 (kMean y))))
            (constant S_ .f32 0x00000000#32) reducesTo_S150000x32_S32_d0 h_S_) (ix2 (0 : Fin 1) c))
        SparseConv.dof)
      (Ideal.ofBits .f32 0x7FC00000#32) = _
  rw [dof_gt, select_one, bcastRow_apply, colSum_apply,
    Finset.sum_congr (s₁ := Finset.univ) rfl fun r _ => hdev r]
  rfl

/-- The flat position of pair (k, m): 27 offsets of 159744 pairs are 4313088 positions. -/
theorem flat_eq : 27 * 159744 = 4313088 := by norm_num

/-- A row scatter-add of 4313088 update rows along a column of row numbers, read at row r and channel d with the
    updates counted offset by offset and pair by pair. -/
theorem scat_core (x : FVec Ideal S150000x32 .f32) (idx : IVec S4313088 32) (upd : FVec Ideal S4313088x32 .f32)
    (r : Fin 150000) (d : Fin 32) :
    Host.scatterAdd scatter_S150000x32_S4313088x1_S4313088x32_1_0_0_1 x
        (broadcastInDim S4313088x1 ![0] bcast_S4313088_S4313088x1_0 idx) upd (ix2 r d)
      = x (ix2 r d) + ∑ k : Fin 27, ∑ mm : Fin 159744,
          if (idx (ix1 (⟨k.val * 159744 + mm.val, Cert.LibFlat.flat_lt flat_eq k mm⟩ : Fin 4313088))).toInt = (r.val : Int)
          then upd (ix2 (⟨k.val * 159744 + mm.val, Cert.LibFlat.flat_lt flat_eq k mm⟩ : Fin 4313088) d) else 0 := by
  refine (Cert.LibScatterRows.scatterAdd_rows_apply scatter_S150000x32_S4313088x1_S4313088x32_1_0_0_1
    rfl rfl rfl rfl x _ upd r d).trans ?_
  refine congrArg (fun s => x (ix2 r d) + s) ?_
  rw [Cert.LibFlat.sum_flat flat_eq]
  refine Finset.sum_congr rfl fun k _ => Finset.sum_congr rfl fun mm _ => ?_
  rw [broadcastInDim_apply _ _ idx _ (ix1 (⟨k.val * 159744 + mm.val, Cert.LibFlat.flat_lt flat_eq k mm⟩ : Fin 4313088))
    fun a => match a with | ⟨0, _⟩ => rfl]

/-- The scatter of the GEMM output into the table of zeros at row r and channel d: zero plus the sum, over offsets
    and pairs, of the update entries whose normalised destination word is exactly r. -/
theorem kScat_apply (contrib : FVec Ideal S27x159744x32 .f32) (op : IVec S27x159744 32) (r : Fin 150000)
    (d : Fin 32) :
    kScat contrib op (ix2 r d)
      = 0 + ∑ k : Fin 27, ∑ mm : Fin 159744,
          if (SparseConv.nrm (op (ix2 k mm))).toInt = (r.val : Int) then contrib (ix3 k mm d) else 0 := by
  unfold kScat
  dsimp only
  refine (scat_core _ _ _ r d).trans ?_
  have h0 : broadcastInDim S150000x32 ![] bcast_S_S150000x32 (constant (F := Ideal) S_ .f32 0x00000000#32) (ix2 r d)
      = (0 : EReal) := Ideal.ofBits_zero_f32
  rw [h0]
  refine congrArg (fun s => (0 : EReal) + s) ?_
  refine Finset.sum_congr rfl fun k _ => Finset.sum_congr rfl fun mm _ => ?_
  have h1 := Cert.LibFlat.shapeCast_flat2_apply_of_eq flat_eq op shapeCasts_S27x159744_S4313088 k mm
  have h2 := Cert.LibFlat.shapeCast_flat3_apply_of_eq flat_eq contrib shapeCasts_S27x159744x32_S4313088x32 k mm d
  show (if (SparseConv.nrm (shapeCast S4313088 op shapeCasts_S27x159744_S4313088
            (ix1 (⟨k.val * 159744 + mm.val, Cert.LibFlat.flat_lt flat_eq k mm⟩ : Fin 4313088)))).toInt = (r.val : Int)
        then shapeCast S4313088x32 contrib shapeCasts_S27x159744x32_S4313088x32
            (ix2 (⟨k.val * 159744 + mm.val, Cert.LibFlat.flat_lt flat_eq k mm⟩ : Fin 4313088) d) else 0) = _
  rw [h1, h2]

end Cert.KernelIdeal.Hand

end
-- ==== Proof.Algebra.lean ====
/-
  The algebra that joins the two programs.

  * A double sum over 27 × 159744 pairs whose last 9744 columns contribute nothing is the double sum over the first
    27 × 150000 pairs: the convolution computed over padded maps is the convolution.
  * Selecting a value by a validity bit is multiplying it by the bit.
  * On finite numbers, the affine form  y·(g·s) + (b − m·(g·s))  is batch normalisation's  ((y − m)·s)·g + b  (the
    distributive law, which is where finiteness is needed), and everything the first convolution and its statistics
    produce from finite inputs is finite; the reciprocal root of a variance plus the positive stabiliser is finite
    because a variance is a mean of squares.
  Together: the forms the kernel program computes are the block.
-/
import Idealize.ShloMosaic.PureOps.Ideal
import Idealize.ShloMosaic.PureOps.Ideal.Laws
import proofs.«429804_j40699110096963_3_alg».proof.Proof.Spec
import proofs.«429804_j40699110096963_3_alg».proof.Proof.Consts

noncomputable section

open scoped BigOperators

namespace Cert.SparseConv

open Idealize.ShloMosaic

/-! ## Finite extended reals -/

/-- An extended real that is a real number. -/
def IsReal (v : EReal) : Prop := ∃ r : ℝ, v = (r : EReal)

theorem IsReal.zero : IsReal 0 := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.ite {p : Prop} [Decidable p] {a b : EReal} (ha : IsReal a) (hb : IsReal b) :
    IsReal (if p then a else b) := by
  split <;> assumption

theorem IsReal.max_zero {a : EReal} (ha : IsReal a) : IsReal (max a 0) := by
  rcases le_total a 0 with h | h
  · rw [max_eq_right h]; exact IsReal.zero
  · rw [max_eq_left h]; exact ha

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A finite sum of coerced reals is the coerced sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_mf (b : BitVec 1) : IsReal (mf b) := ⟨_, rfl⟩

/-- Dividing a finite number by the row count leaves a finite number: the product with 1/150000. -/
theorem div_rows (x : ℝ) : Ideal.div (x : EReal) ((150000 : ℝ) : EReal) = ((x * (1 / 150000) : ℝ) : EReal) := by
  rw [Ideal.div_coe (by norm_num : (150000 : ℝ) ≠ 0), ← EReal.coe_mul]

/-! ## Finiteness of the block's pieces -/

theorem isReal_conv {h : Mat} {W : Ker} (hh : ∀ r c, IsReal (h r c)) (hW : ∀ k a b, IsReal (W k a b))
    (imap omap : IdxT) (mask : MaskT) (r : Fin 150000) (d : Fin 32) : IsReal (conv h W imap omap mask r d) := by
  unfold conv
  exact IsReal.zero.add (IsReal.sum _ _ fun k _ => IsReal.sum _ _ fun m _ =>
    IsReal.ite (IsReal.sum _ _ fun c _ => ((hh _ _).mul (isReal_mf _)).mul (hW _ _ _)) IsReal.zero)

theorem isReal_mean {y : Mat} (hy : ∀ r c, IsReal (y r c)) (c : Fin 32) : IsReal (mean y c) := by
  obtain ⟨s, hs⟩ := IsReal.zero.add (IsReal.sum Finset.univ (fun r => y r c) fun r _ => hy r c)
  unfold mean
  rw [hs, nF_eq, div_rows]
  exact ⟨_, rfl⟩

/-- A variance of finite numbers is a non-negative real: a sum of squares over the row count. -/
theorem var_nonneg {y : Mat} (hy : ∀ r c, IsReal (y r c)) (c : Fin 32) :
    ∃ v : ℝ, 0 ≤ v ∧ var y c = (v : EReal) := by
  choose f hf using fun r => hy r c
  obtain ⟨mu, hmu⟩ := isReal_mean hy c
  refine ⟨(∑ r : Fin 150000, (f r - mu) * (f r - mu)) * (1 / 150000), ?_, ?_⟩
  · exact mul_nonneg (Finset.sum_nonneg fun r _ => mul_self_nonneg _) (by norm_num)
  · unfold var
    rw [dof_eq, hmu]
    have : (∑ r : Fin 150000, (y r c - (mu : EReal)) * (y r c - (mu : EReal)))
        = ((∑ r : Fin 150000, (f r - mu) * (f r - mu) : ℝ) : EReal) := by
      rw [coe_sum]
      refine Finset.sum_congr rfl fun r _ => ?_
      rw [hf r, ← EReal.coe_sub, ← EReal.coe_mul]
    rw [this, zero_add, div_rows]

/-- So the reciprocal root of a variance plus the stabiliser is finite. -/
theorem isReal_rsqrt_var {y : Mat} (hy : ∀ r c, IsReal (y r c)) (c : Fin 32) :
    IsReal (Ideal.rsqrt (var y c + eps)) := by
  obtain ⟨v, hv0, hv⟩ := var_nonneg hy c
  rw [hv, eps_eq, ← EReal.coe_add]
  have hpos : (0 : ℝ) < v + 10995116 / 1099511627776 := by positivity
  rw [Ideal.rsqrt_coe, if_neg (not_lt.2 hpos.le), if_neg hpos.ne']
  exact ⟨_, rfl⟩

/-! ## The two identities at one entry -/

/-- Selecting by a validity bit is multiplying by it. -/
theorem select_eq_mul_mf (b : BitVec 1) (v : EReal) : (if b = 1#1 then v else 0) = v * mf b := by
  by_cases h : b = 1#1
  · subst h
    rw [if_pos rfl]
    have : mf 1#1 = 1 := by unfold mf; simp
    rw [this, mul_one]
  · have h0 : b = 0#1 := by bv_omega
    subst h0
    rw [if_neg h]
    have : mf 0#1 = 0 := by unfold mf; simp
    rw [this, mul_zero]

/-- The affine form of a normalised entry, on finite numbers. -/
theorem affine_eq_bn {y m s g b : EReal} (hy : IsReal y) (hm : IsReal m) (hs : IsReal s) (hg : IsReal g)
    (hb : IsReal b) : y * (g * s) + (b - m * (g * s)) = ((y - m) * s) * g + b := by
  obtain ⟨y, rfl⟩ := hy; obtain ⟨m, rfl⟩ := hm; obtain ⟨s, rfl⟩ := hs; obtain ⟨g, rfl⟩ := hg; obtain ⟨b, rfl⟩ := hb
  simp only [← EReal.coe_mul, ← EReal.coe_sub, ← EReal.coe_add]
  congr 1
  ring

/-! ## Padded maps -/

/-- A sum over `n'` positions of which only the first `n` contribute. -/
theorem sum_fin_pad {β : Type*} [AddCommMonoid β] {n n' : ℕ} (hn : n ≤ n') (F : Fin n' → β) (G : Fin n → β)
    (h1 : ∀ (i : Fin n') (hi : i.val < n), F i = G ⟨i.val, hi⟩) (h2 : ∀ i : Fin n', n ≤ i.val → F i = 0) :
    ∑ i, F i = ∑ j, G j := by
  let F' : ℕ → β := fun i => if h : i < n then G ⟨i, h⟩ else 0
  have e1 : ∀ i : Fin n', F i = F' i.val := fun i => by
    by_cases hi : i.val < n
    · simp only [F', dif_pos hi]; exact h1 i hi
    · simp only [F', dif_neg hi]; exact h2 i (not_lt.1 hi)
  have e2 : ∀ j : Fin n, G j = F' j.val := fun j => by simp only [F', dif_pos j.isLt]
  rw [Finset.sum_congr rfl fun i _ => e1 i, Finset.sum_congr rfl fun j _ => e2 j,
    Fin.sum_univ_eq_sum_range F' n', Fin.sum_univ_eq_sum_range F' n]
  symm
  refine Finset.sum_subset (Finset.range_mono hn) fun i _ hi => ?_
  have : ¬ i < n := fun h => hi (Finset.mem_range.2 h)
  simp only [F', dif_neg this]

/-- The convolution as the kernel program sums it: over 159744 columns of pairs, the gathered and masked rows given as
    one array. -/
def convK (g : Fin 27 → Fin 159744 → Fin 32 → EReal) (W : Ker) (op : Fin 27 → Fin 159744 → BitVec 32) : Mat :=
  fun r d => 0 + ∑ k : Fin 27, ∑ mm : Fin 159744,
    if (nrm (op k mm)).toInt = (r.val : Int) then ∑ c : Fin 32, g k mm c * W k c d else 0

/-- Over maps padded with pairs that carry zero rows, it is the convolution. -/
theorem convK_eq_conv (g : Fin 27 → Fin 159744 → Fin 32 → EReal) (W : Ker) (op : Fin 27 → Fin 159744 → BitVec 32)
    (h : Mat) (imap omap : IdxT) (mask : MaskT)
    (hg : ∀ k (mm : Fin 159744) c, g k mm c
      = if hm : mm.val < 150000 then h (rowOf (imap k ⟨mm.val, hm⟩)) c * mf (mask k ⟨mm.val, hm⟩) else 0)
    (ho : ∀ k (mm : Fin 159744) (hm : mm.val < 150000), op k mm = omap k ⟨mm.val, hm⟩) :
    convK g W op = conv h W imap omap mask := by
  funext r d
  unfold convK conv
  refine congrArg (fun z : EReal => 0 + z) ?_
  refine Finset.sum_congr rfl fun k _ => ?_
  refine sum_fin_pad (n := 150000) (n' := 159744) (by norm_num) _ _ (fun mm hm => ?_) (fun mm hm => ?_)
  · rw [ho k mm hm]
    refine if_congr Iff.rfl (Finset.sum_congr rfl fun c _ => ?_) rfl
    rw [hg k mm c, dif_pos hm]
  · have hz : ∀ c, g k mm c = 0 := fun c => by rw [hg k mm c, dif_neg (not_lt.2 hm)]
    simp only [hz, zero_mul, Finset.sum_const_zero, ite_self]

/-! ## The kernel program's forms are the block -/

/-- From finite inputs and in the kernel program's forms — first-layer rows `G1` gathered and masked over padded maps,
    second-layer rows `G2` the masked positive part of the affine form of rows `T` read back from the first
    layer's result, the last normalisation written out — the result is the block. -/
theorem block_of_kernel_forms (x : Mat) (W1 : Ker) (g1 b1 : Chan) (W2 : Ker) (g2 b2 : Chan) (imap omap : IdxT)
    (mask : MaskT) (hx : ∀ r c, IsReal (x r c)) (hW1 : ∀ k a b, IsReal (W1 k a b)) (hg1 : ∀ c, IsReal (g1 c))
    (hb1 : ∀ c, IsReal (b1 c))
    (G1 G2 T : Fin 27 → Fin 159744 → Fin 32 → EReal) (op : Fin 27 → Fin 159744 → BitVec 32)
    (mp : Fin 27 → Fin 159744 → BitVec 1)
    (hop : ∀ k (mm : Fin 159744) (hm : mm.val < 150000), op k mm = omap k ⟨mm.val, hm⟩)
    (hmp : ∀ k (mm : Fin 159744), mp k mm = if hm : mm.val < 150000 then mask k ⟨mm.val, hm⟩ else 0#1)
    (hG1 : ∀ k (mm : Fin 159744) c, G1 k mm c
      = if hm : mm.val < 150000 then x (rowOf (imap k ⟨mm.val, hm⟩)) c * mf (mask k ⟨mm.val, hm⟩) else 0)
    (hT : ∀ k (mm : Fin 159744) c (hm : mm.val < 150000),
      T k mm c = convK G1 W1 op (rowOf (imap k ⟨mm.val, hm⟩)) c)
    (hG2 : ∀ k (mm : Fin 159744) c, G2 k mm c
      = if mp k mm = 1#1 then
          max (T k mm c * (g1 c * Ideal.rsqrt (var (convK G1 W1 op) c + eps))
            + (b1 c - mean (convK G1 W1 op) c * (g1 c * Ideal.rsqrt (var (convK G1 W1 op) c + eps)))) 0
        else 0)
    (r : Fin 150000) (c : Fin 32) :
    max ((((convK G2 W2 op r c - mean (convK G2 W2 op) c) * Ideal.rsqrt (var (convK G2 W2 op) c + eps)) * g2 c
        + b2 c) + x r c) 0
      = block x W1 g1 b1 W2 g2 b2 imap omap mask r c := by
  have e1 : convK G1 W1 op = conv x W1 imap omap mask := convK_eq_conv G1 W1 op x imap omap mask hG1 hop
  rw [e1] at hT hG2
  have hy1 : ∀ r c, IsReal (conv x W1 imap omap mask r c) := fun r c => isReal_conv hx hW1 imap omap mask r c
  have e2 : convK G2 W2 op = conv (relu (bn (conv x W1 imap omap mask) g1 b1)) W2 imap omap mask := by
    refine convK_eq_conv G2 W2 op _ imap omap mask (fun k mm c => ?_) hop
    rw [hG2 k mm c, hmp k mm]
    by_cases hm : mm.val < 150000
    · rw [dif_pos hm, dif_pos hm, hT k mm c hm, select_eq_mul_mf]
      refine congrArg (fun z : EReal => z * mf (mask k ⟨mm.val, hm⟩)) ?_
      unfold relu bn
      rw [affine_eq_bn (hy1 _ _) (isReal_mean hy1 c) (isReal_rsqrt_var hy1 c) (hg1 c) (hb1 c)]
    · rw [dif_neg hm, dif_neg hm, if_neg (by decide)]
  rw [e2]
  rfl

end Cert.SparseConv

end
-- ==== Proof.KerValue.lean ====
/-
  The kernel program's result is the block.

  The last boundary's contents at the result buffer are what the third kernel leaves: batch normalisation, skip and
  positive part of the second layer's scattered table. That table is the scatter-add of the second kernel's products;
  its left operand is the masked positive part of the affine form of rows taken from the first layer's table, which in
  turn is the scatter-add of the first kernel's products of the gathered, masked rows of the input. Read index by
  index, these are the forms of Proof/Algebra.lean, which on finite inputs with index words inside the table are the
  block.
-/
import proofs.«429804_j40699110096963_3_alg».proof.Proof.Gen.KernelIdeal.Frame
import proofs.«429804_j40699110096963_3_alg».proof.Proof.KerTerms0
import proofs.«429804_j40699110096963_3_alg».proof.Proof.KerTerms
import proofs.«429804_j40699110096963_3_alg».proof.Proof.KerTerms2
import proofs.«429804_j40699110096963_3_alg».proof.Proof.KerGemm0
import proofs.«429804_j40699110096963_3_alg».proof.Proof.KerGemm1
import proofs.«429804_j40699110096963_3_alg».proof.Proof.KerBn
import proofs.«429804_j40699110096963_3_alg».proof.Proof.KerRead0
import proofs.«429804_j40699110096963_3_alg».proof.Proof.KerRead1
import proofs.«429804_j40699110096963_3_alg».proof.Proof.Algebra
import Idealize.ShloMosaic.Lib.ValueIdx

noncomputable section

open scoped BigOperators

namespace Cert.KernelIdeal.Hand

open Idealize.ShloMosaic Idealize.ShloMosaic.ValueIdx
open Cert.KernelIdeal Cert.KernelIdeal.Gen Cert.SparseConv

variable (m : (ℓ : Loc nD τ sig) → Buf (Elt Ideal) ℓ) (ρ : Dev nD → PrngReg) (c : Dev nD)

/-- The argument arrays as launched. -/
abbrev a0 : FVec Ideal S150000x32 .f32 := m ((c.tc : Thread nD τ).loc main_arg0)
abbrev a1 : FVec Ideal S27x32x32 .f32 := m ((c.tc : Thread nD τ).loc main_arg1)
abbrev a2 : FVec Ideal S32 .f32 := m ((c.tc : Thread nD τ).loc main_arg2)
abbrev a3 : FVec Ideal S32 .f32 := m ((c.tc : Thread nD τ).loc main_arg3)
abbrev a4 : FVec Ideal S27x32x32 .f32 := m ((c.tc : Thread nD τ).loc main_arg4)
abbrev a5 : FVec Ideal S32 .f32 := m ((c.tc : Thread nD τ).loc main_arg5)
abbrev a6 : FVec Ideal S32 .f32 := m ((c.tc : Thread nD τ).loc main_arg6)
abbrev a7 : IVec S27x150000 32 := m ((c.tc : Thread nD τ).loc main_arg7)
abbrev a8 : IVec S27x150000 32 := m ((c.tc : Thread nD τ).loc main_arg8)
abbrev a9 : IVec S27x150000 1 := m ((c.tc : Thread nD τ).loc main_arg9)

/-- The first layer's table, as the fold holds it after the first scatter. -/
abbrev y1 : FVec Ideal S150000x32 .f32 := Gen.W12 m ρ c (Proc.devRef .tc main_v17)

/-- The padded destination words, pair by pair. -/
abbrev opK : Fin 27 → Fin 159744 → BitVec 32 := fun k mm => kPadI (a8 m c) (ix2 k mm)
/-- The first kernel's left operand, entry by entry. -/
abbrev g1K : Fin 27 → Fin 159744 → Fin 32 → EReal := fun k mm cc => kG1 (a0 m c) (a7 m c) (a9 m c) (ix3 k mm cc)

/-- The first layer's table is the convolution in the kernel program's form. -/
theorem y1_apply (r : Fin 150000) (d : Fin 32) :
    y1 m ρ c (ix2 r d) = convK (g1K m c) (fun k a b => a1 m c (ix3 k a b)) (opK m c) r d := by
  unfold y1
  rw [t_v17, kScat_apply]
  unfold convK
  refine congrArg (fun z : EReal => 0 + z) ?_
  refine Finset.sum_congr rfl fun k _ => Finset.sum_congr rfl fun mm _ => ?_
  refine if_congr Iff.rfl ?_ rfl
  rw [t_v7, gemm0_final, t_v6, t_arg1_at10]
  rfl

/-- The per-channel scale and shift of the first normalisation, as the fold holds them. -/
abbrev scaleK : FVec Ideal S1x32 .f32 := kScale (a2 m c) (kVar (y1 m ρ c))
abbrev shiftK : FVec Ideal S1x32 .f32 := kShift (a3 m c) (kMean (y1 m ρ c)) (scaleK m ρ c)

/-- The rows taken back from the first layer's table, entry by entry. -/
abbrev tK : Fin 27 → Fin 159744 → Fin 32 → EReal := fun k mm cc => kTake (y1 m ρ c) (kPadI (a7 m c)) (ix3 k mm cc)
/-- The padded validity bits, pair by pair. -/
abbrev mpK : Fin 27 → Fin 159744 → BitVec 1 := fun k mm => kPadM (a9 m c) (ix2 k mm)
/-- The second kernel's left operand, entry by entry. -/
abbrev g2K : Fin 27 → Fin 159744 → Fin 32 → EReal := fun k mm cc =>
  kG2 (y1 m ρ c) (scaleK m ρ c) (shiftK m ρ c) (kPadI (a7 m c)) (kPadM (a9 m c)) (ix3 k mm cc)

/-- The second layer's table, as the fold holds it when the third kernel is entered. -/
abbrev y2 : FVec Ideal S150000x32 .f32 := Gen.V22 m ρ c main_v53

theorem y1_fun : (fun r d => y1 m ρ c (ix2 r d)) = convK (g1K m c) (fun k a b => a1 m c (ix3 k a b)) (opK m c) :=
  funext fun r => funext fun d => y1_apply m ρ c r d

/-- The second layer's table is the convolution in the kernel program's form. -/
theorem y2_apply (r : Fin 150000) (d : Fin 32) :
    y2 m ρ c (ix2 r d) = convK (g2K m ρ c) (fun k a b => a4 m c (ix3 k a b)) (opK m c) r d := by
  unfold y2
  rw [t_v53, kScat_apply]
  unfold convK
  refine congrArg (fun z : EReal => 0 + z) ?_
  refine Finset.sum_congr rfl fun k _ => Finset.sum_congr rfl fun mm _ => ?_
  refine if_congr Iff.rfl ?_ rfl
  rw [t_v43, gemm1_final, t_v42, t_arg4_at18]
  rfl

theorem y2_fun : (fun r d => y2 m ρ c (ix2 r d)) = convK (g2K m ρ c) (fun k a b => a4 m c (ix3 k a b)) (opK m c) :=
  funext fun r => funext fun d => y2_apply m ρ c r d

/-- The second kernel's left operand at an entry: the masked positive part of the affine form. -/
theorem g2K_apply (k : Fin 27) (mm : Fin 159744) (cc : Fin 32) :
    g2K m ρ c k mm cc
      = if mpK m c k mm = 1#1 then
          max (tK m ρ c k mm cc * (a2 m c (ix1 cc) * Ideal.rsqrt (var (fun r d => y1 m ρ c (ix2 r d)) cc + eps))
            + (a3 m c (ix1 cc) - mean (fun r d => y1 m ρ c (ix2 r d)) cc
                * (a2 m c (ix1 cc) * Ideal.rsqrt (var (fun r d => y1 m ρ c (ix2 r d)) cc + eps)))) 0
        else 0 := by
  show kG2 _ _ _ _ _ (ix3 k mm cc) = _
  unfold kG2
  show kWhere _ _ (ix3 k mm cc) = _
  rw [kWhere_apply, kAffRelu_apply]
  unfold shiftK scaleK
  rw [kShift_apply, kScale_apply, kVar_apply, kMean_apply]

/-- The kernel program's result is the block: from finite float inputs and source index words inside the table. -/
theorem ker_value (hx : ∀ i, ∃ r : ℝ, a0 m c i = (r : EReal)) (hW1 : ∀ i, ∃ r : ℝ, a1 m c i = (r : EReal))
    (hg1 : ∀ i, ∃ r : ℝ, a2 m c i = (r : EReal)) (hb1 : ∀ i, ∃ r : ℝ, a3 m c i = (r : EReal))
    (hin : ∀ i, 0 ≤ (a7 m c i).toInt ∧ (a7 m c i).toInt < 150000) (r : Fin 150000) (ch : Fin 32) :
    (Gen.W23 m ρ c (Proc.devRef .tc main_v61) : S150000x32.Idx → EReal) (ix2 r ch)
      = block (fun r d => a0 m c (ix2 r d)) (fun k a b => a1 m c (ix3 k a b)) (fun d => a2 m c (ix1 d))
          (fun d => a3 m c (ix1 d)) (fun k a b => a4 m c (ix3 k a b)) (fun d => a5 m c (ix1 d))
          (fun d => a6 m c (ix1 d)) (fun k mm => a7 m c (ix2 k mm)) (fun k mm => a8 m c (ix2 k mm))
          (fun k mm => a9 m c (ix2 k mm)) r ch := by
  rw [t_v61, bn_value_of (Gen.V22 m ρ) c r ch (y2 m ρ c) (a0 m c) (kMean (y2 m ρ c)) (kVar (y2 m ρ c))
    (kRow (a5 m c)) (kRow (a6 m c)) rfl (t_arg0_at22 m ρ c) (t_v57 m ρ c) (t_v58 m ρ c) (t_v59 m ρ c) (t_v60 m ρ c)]
  rw [kMean_apply, kVar_apply, kRow_apply, kRow_apply, y2_apply, y2_fun,
    show Ideal.ofBits .f32 0x3727C5AC#32 = eps from rfl]
  have hop : ∀ k (mm : Fin 159744) (hm : mm.val < 150000), opK m c k mm = a8 m c (ix2 k ⟨mm.val, hm⟩) := by
    intro k mm hm
    show kPadI (a8 m c) (ix2 k mm) = _
    rw [kPadI_apply, dif_pos hm]
  have hmp : ∀ k (mm : Fin 159744), mpK m c k mm
      = if hm : mm.val < 150000 then a9 m c (ix2 k ⟨mm.val, hm⟩) else 0#1 := fun k mm => kPadM_apply _ k mm
  have hG1 : ∀ k (mm : Fin 159744) cc, g1K m c k mm cc
      = if hm : mm.val < 150000 then a0 m c (ix2 (rowOf (a7 m c (ix2 k ⟨mm.val, hm⟩))) cc)
          * mf (a9 m c (ix2 k ⟨mm.val, hm⟩)) else 0 :=
    fun k mm cc => kG1_apply _ _ _ (fun k m' => hin _) k mm cc
  have hT : ∀ k (mm : Fin 159744) cc (hm : mm.val < 150000), tK m ρ c k mm cc
      = convK (g1K m c) (fun k a b => a1 m c (ix3 k a b)) (opK m c) (rowOf (a7 m c (ix2 k ⟨mm.val, hm⟩))) cc := by
    intro k mm cc hm
    show kTake (y1 m ρ c) (kPadI (a7 m c)) (ix3 k mm cc) = _
    have hw : kPadI (a7 m c) (ix2 k mm) = a7 m c (ix2 k ⟨mm.val, hm⟩) := by rw [kPadI_apply, dif_pos hm]
    have h0 := (hin (ix2 k ⟨mm.val, hm⟩)).1
    have h1 := (hin (ix2 k ⟨mm.val, hm⟩)).2
    rw [kTake_apply, hw, nrm_of_nonneg _ h0, if_pos ⟨h0, by omega⟩, y1_apply]
  have hG2 : ∀ k (mm : Fin 159744) cc, g2K m ρ c k mm cc
      = if mpK m c k mm = 1#1 then
          max (tK m ρ c k mm cc * (a2 m c (ix1 cc)
              * Ideal.rsqrt (var (convK (g1K m c) (fun k a b => a1 m c (ix3 k a b)) (opK m c)) cc + eps))
            + (a3 m c (ix1 cc) - mean (convK (g1K m c) (fun k a b => a1 m c (ix3 k a b)) (opK m c)) cc
                * (a2 m c (ix1 cc)
                  * Ideal.rsqrt (var (convK (g1K m c) (fun k a b => a1 m c (ix3 k a b)) (opK m c)) cc + eps)))) 0
        else 0 := by
    intro k mm cc
    rw [g2K_apply, y1_fun]
  exact block_of_kernel_forms (fun r d => a0 m c (ix2 r d)) (fun k a b => a1 m c (ix3 k a b)) (fun d => a2 m c (ix1 d))
    (fun d => a3 m c (ix1 d)) (fun k a b => a4 m c (ix3 k a b)) (fun d => a5 m c (ix1 d)) (fun d => a6 m c (ix1 d))
    (fun k mm => a7 m c (ix2 k mm)) (fun k mm => a8 m c (ix2 k mm)) (fun k mm => a9 m c (ix2 k mm))
    (fun r d => hx _) (fun k a b => hW1 _) (fun d => hg1 _) (fun d => hb1 _)
    (g1K m c) (g2K m ρ c) (tK m ρ c) (opK m c) (mpK m c) hop hmp hG1 hT hG2 r ch

end Cert.KernelIdeal.Hand

end
-- ==== Proof.RefRun.lean ====
import proofs.«429804_j40699110096963_3_alg».proof.Proof.Gen.ReferenceIdeal
import Idealize.ShloMosaic.Lib.StableHlo.Run

/-!
The reference program's @main read as ONE straight line of host operations, and its run.

@main calls the module-local functions `_var` (twice; each call in turn calls `_where`) and `relu` (twice). A call
means its callee's body substituted at the call site over that call's own buffers, so @main is the list `ops`
below: its own ninety-nine operations in order and, at each call, the callee's operations over the call's buffer
record (`_var`: nineteen and then `_where`'s three; `relu`: three) — one hundred and forty-nine in all.
Every weakly fair execution then ends with each buffer at the fold of these operations over the launch
contents, and none of them writes an argument buffer.
-/

noncomputable section

namespace Cert.ReferenceIdeal.Hand

open Cert.ReferenceIdeal Idealize.ShloMosaic Idealize.ShloMosaic.TcCoe Idealize.SL.Sem Idealize.ShloMosaic.StableHlo

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

variable {F : FTy → Type} [FloatOps F] [Facts]
open Facts₀ Facts

/-- @main's operations in order, each call replaced by its callee's operations over the call's buffers. -/
abbrev ops : List (HloOp τ sig (Elt F)) :=
  [ StableHlo.nullary main_c (constantI S_ 32 0#32),
    StableHlo.unary main_c main_v0 (broadcastInDim S27x150000 ![] bcast_S_S27x150000 : (⟨S_, .i32⟩ : BufTy).Contents (Elt F) → (⟨S27x150000, .i32⟩ : BufTy).Contents (Elt F)),
    StableHlo.binary main_arg7 main_v0 main_v1 (cmpi .slt : (⟨S27x150000, .i32⟩ : BufTy).Contents (Elt F) → (⟨S27x150000, .i32⟩ : BufTy).Contents (Elt F) → (⟨S27x150000, .i1⟩ : BufTy).Contents (Elt F)),
    StableHlo.nullary main_c_0 (constantI S_ 32 150000#32),
    StableHlo.unary main_c_0 main_v2 (broadcastInDim S27x150000 ![] bcast_S_S27x150000 : (⟨S_, .i32⟩ : BufTy).Contents (Elt F) → (⟨S27x150000, .i32⟩ : BufTy).Contents (Elt F)),
    StableHlo.binary main_arg7 main_v2 main_v3 (addi : (⟨S27x150000, .i32⟩ : BufTy).Contents (Elt F) → (⟨S27x150000, .i32⟩ : BufTy).Contents (Elt F) → (⟨S27x150000, .i32⟩ : BufTy).Contents (Elt F)),
    StableHlo.ternary main_v1 main_v3 main_arg7 main_v4 (select : (⟨S27x150000, .i1⟩ : BufTy).Contents (Elt F) → (⟨S27x150000, .i32⟩ : BufTy).Contents (Elt F) → (⟨S27x150000, .i32⟩ : BufTy).Contents (Elt F) → (⟨S27x150000, .i32⟩ : BufTy).Contents (Elt F)),
    StableHlo.unary main_v4 main_v5 (broadcastInDim S27x150000x1 ![0, 1] bcast_S27x150000_S27x150000x1_0_1 : (⟨S27x150000, .i32⟩ : BufTy).Contents (Elt F) → (⟨S27x150000x1, .i32⟩ : BufTy).Contents (Elt F)),
    StableHlo.binary main_arg0 main_v5 main_v6 ((fun x i => Host.gather gather_S150000x32_S27x150000x1_S27x150000x32_2_0_n_n_0_2_132 x i) : (⟨S150000x32, .f32⟩ : BufTy).Contents (Elt F) → (⟨S27x150000x1, .i32⟩ : BufTy).Contents (Elt F) → (⟨S27x150000x32, .f32⟩ : BufTy).Contents (Elt F)),
    StableHlo.unary main_arg9 main_v7 (broadcastInDim S27x150000x1 ![0, 1] bcast_S27x150000_S27x150000x1_0_1 : (⟨S27x150000, .i1⟩ : BufTy).Contents (Elt F) → (⟨S27x150000x1, .i1⟩ : BufTy).Contents (Elt F)),
    StableHlo.unary main_v7 main_v8 (uitofp .f32 : (⟨S27x150000x1, .i1⟩ : BufTy).Contents (Elt F) → (⟨S27x150000x1, .f32⟩ : BufTy).Contents (Elt F)),
    StableHlo.unary main_v8 main_v9 (broadcastInDim S27x150000x32 ![0, 1, 2] bcast_S27x150000x1_S27x150000x32_0_1_2 : (⟨S27x150000x1, .f32⟩ : BufTy).Contents (Elt F) → (⟨S27x150000x32, .f32⟩ : BufTy).Contents (Elt F)),
    StableHlo.binary main_v6 main_v9 main_v10 (mulf : (⟨S27x150000x32, .f32⟩ : BufTy).Contents (Elt F) → (⟨S27x150000x32, .f32⟩ : BufTy).Contents (Elt F) → (⟨S27x150000x32, .f32⟩ : BufTy).Contents (Elt F)),
    StableHlo.binary main_v10 main_arg1 main_v11 ((fun l r => Host.dotGeneral dot_S27x150000x32_S27x32x32_S27x150000x32_2_1_1_2_0_0 none l r) : (⟨S27x150000x32, .f32⟩ : BufTy).Contents (Elt F) → (⟨S27x32x32, .f32⟩ : BufTy).Contents (Elt F) → (⟨S27x150000x32, .f32⟩ : BufTy).Contents (Elt F)),
    StableHlo.nullary main_cst (constant S_ .f32 0x00000000#32),
    StableHlo.unary main_cst main_v12 (broadcastInDim S150000x32 ![] bcast_S_S150000x32 : (⟨S_, .f32⟩ : BufTy).Contents (Elt F) → (⟨S150000x32, .f32⟩ : BufTy).Contents (Elt F)),
    StableHlo.reshape main_arg8 main_v13 rfl shapeCasts_S27x150000_S4050000,
    StableHlo.reshape main_v11 main_v14 rfl shapeCasts_S27x150000x32_S4050000x32,
    StableHlo.nullary main_c_1 (constantI S_ 32 0#32),
    StableHlo.unary main_c_1 main_v15 (broadcastInDim S4050000 ![] bcast_S_S4050000 : (⟨S_, .i32⟩ : BufTy).Contents (Elt F) → (⟨S4050000, .i32⟩ : BufTy).Contents (Elt F)),
    StableHlo.binary main_v13 main_v15 main_v16 (cmpi .slt : (⟨S4050000, .i32⟩ : BufTy).Contents (Elt F) → (⟨S4050000, .i32⟩ : BufTy).Contents (Elt F) → (⟨S4050000, .i1⟩ : BufTy).Contents (Elt F)),
    StableHlo.nullary main_c_2 (constantI S_ 32 150000#32),
    StableHlo.unary main_c_2 main_v17 (broadcastInDim S4050000 ![] bcast_S_S4050000 : (⟨S_, .i32⟩ : BufTy).Contents (Elt F) → (⟨S4050000, .i32⟩ : BufTy).Contents (Elt F)),
    StableHlo.binary main_v13 main_v17 main_v18 (addi : (⟨S4050000, .i32⟩ : BufTy).Contents (Elt F) → (⟨S4050000, .i32⟩ : BufTy).Contents (Elt F) → (⟨S4050000, .i32⟩ : BufTy).Contents (Elt F)),
    StableHlo.ternary main_v16 main_v18 main_v13 main_v19 (select : (⟨S4050000, .i1⟩ : BufTy).Contents (Elt F) → (⟨S4050000, .i32⟩ : BufTy).Contents (Elt F) → (⟨S4050000, .i32⟩ : BufTy).Contents (Elt F) → (⟨S4050000, .i32⟩ : BufTy).Contents (Elt F)),
    StableHlo.unary main_v19 main_v20 (broadcastInDim S4050000x1 ![0] bcast_S4050000_S4050000x1_0 : (⟨S4050000, .i32⟩ : BufTy).Contents (Elt F) → (⟨S4050000x1, .i32⟩ : BufTy).Contents (Elt F)),
    StableHlo.ternary main_v12 main_v20 main_v14 main_v21 ((fun x i u => Host.scatterAdd scatter_S150000x32_S4050000x1_S4050000x32_1_0_0_1 x i u) : (⟨S150000x32, .f32⟩ : BufTy).Contents (Elt F) → (⟨S4050000x1, .i32⟩ : BufTy).Contents (Elt F) → (⟨S4050000x32, .f32⟩ : BufTy).Contents (Elt F) → (⟨S150000x32, .f32⟩ : BufTy).Contents (Elt F)),
    StableHlo.nullary main_cst_3 (constant S_ .f32 0x00000000#32),
    StableHlo.binary main_v21 main_cst_3 main_v22 ((fun x v => Host.reduceAdd x v reducesTo_S150000x32_S32_d0 h_S_) : (⟨S150000x32, .f32⟩ : BufTy).Contents (Elt F) → (⟨S_, .f32⟩ : BufTy).Contents (Elt F) → (⟨S32, .f32⟩ : BufTy).Contents (Elt F)),
    StableHlo.nullary main_cst_4 (constant S_ .f32 0x48127C00#32),
    StableHlo.unary main_cst_4 main_v23 (broadcastInDim S32 ![] bcast_S_S32 : (⟨S_, .f32⟩ : BufTy).Contents (Elt F) → (⟨S32, .f32⟩ : BufTy).Contents (Elt F)),
    StableHlo.binary main_v22 main_v23 main_v24 (Host.divf : (⟨S32, .f32⟩ : BufTy).Contents (Elt F) → (⟨S32, .f32⟩ : BufTy).Contents (Elt F) → (⟨S32, .f32⟩ : BufTy).Contents (Elt F)),
    StableHlo.nullary main_c_5 (constantI S_ 32 0#32),
    StableHlo.TRef.nullary main_call0.cst (constant S_ .f32 0x00000000#32),
    StableHlo.TRef.binary (StableHlo.TRef.of main_v21 : StableHlo.TRef sig ⟨S150000x32, .f32⟩) main_call0.cst main_call0.v0 (fun x v => Host.reduceAdd x v reducesTo_S150000x32_S32_d0 h_S_),
    StableHlo.TRef.unary main_call0.v0 main_call0.v1 (broadcastInDim S1x32 ![1] bcast_S32_S1x32_1),
    StableHlo.TRef.nullary main_call0.cst_0 (constant S_ .f32 0x48127C00#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S150000x32 ![0, 1] bcast_S1x32_S150000x32_0_1),
    StableHlo.TRef.binary (StableHlo.TRef.of main_v21 : StableHlo.TRef sig ⟨S150000x32, .f32⟩) main_call0.v4 main_call0.v5 subf,
    StableHlo.TRef.binary main_call0.v5 main_call0.v5 main_call0.v6 mulf,
    StableHlo.TRef.unary (StableHlo.TRef.of main_c_5 : StableHlo.TRef sig ⟨S_, .i32⟩) main_call0.v7 (sitofp .f32),
    StableHlo.TRef.nullary main_call0.cst_1 (constant S_ .f32 0x48127C00#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S150000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v24 main_v26 (broadcastInDim S1x32 ![1] bcast_S32_S1x32_1 : (⟨S32, .f32⟩ : BufTy).Contents (Elt F) → (⟨S1x32, .f32⟩ : BufTy).Contents (Elt F)),
    StableHlo.unary main_v26 main_v27 (broadcastInDim S150000x32 ![0, 1] bcast_S1x32_S150000x32_0_1 : (⟨S1x32, .f32⟩ : BufTy).Contents (Elt F) → (⟨S150000x32, .f32⟩ : BufTy).Contents (Elt F)),
    StableHlo.binary main_v21 main_v27 main_v28 (subf : (⟨S150000x32, .f32⟩ : BufTy).Contents (Elt F) → (⟨S150000x32, .f32⟩ : BufTy).Contents (Elt F) → (⟨S150000x32, .f32⟩ : BufTy).Contents (Elt F)),
    StableHlo.nullary main_cst_6 (constant S_ .f32 0x3727C5AC#32),
    StableHlo.unary main_cst_6 main_v29 (broadcastInDim S32 ![] bcast_S_S32 : (⟨S_, .f32⟩ : BufTy).Contents (Elt F) → (⟨S32, .f32⟩ : BufTy).Contents (Elt F)),
    StableHlo.binary main_v25 main_v29 main_v30 (addf : (⟨S32, .f32⟩ : BufTy).Contents (Elt F) → (⟨S32, .f32⟩ : BufTy).Contents (Elt F) → (⟨S32, .f32⟩ : BufTy).Contents (Elt F)),
    StableHlo.unary main_v30 main_v31 (Host.rsqrt : (⟨S32, .f32⟩ : BufTy).Contents (Elt F) → (⟨S32, .f32⟩ : BufTy).Contents (Elt F)),
    StableHlo.unary main_v31 main_v32 (broadcastInDim S1x32 ![1] bcast_S32_S1x32_1 : (⟨S32, .f32⟩ : BufTy).Contents (Elt F) → (⟨S1x32, .f32⟩ : BufTy).Contents (Elt F)),
    StableHlo.unary main_v32 main_v33 (broadcastInDim S150000x32 ![0, 1] bcast_S1x32_S150000x32_0_1 : (⟨S1x32, .f32⟩ : BufTy).Contents (Elt F) → (⟨S150000x32, .f32⟩ : BufTy).Contents (Elt F)),
    StableHlo.binary main_v28 main_v33 main_v34 (mulf : (⟨S150000x32, .f32⟩ : BufTy).Contents (Elt F) → (⟨S150000x32, .f32⟩ : BufTy).Contents (Elt F) → (⟨S150000x32, .f32⟩ : BufTy).Contents (Elt F)),
    StableHlo.unary main_arg2 main_v35 (broadcastInDim S1x32 ![1] bcast_S32_S1x32_1 : (⟨S32, .f32⟩ : BufTy).Contents (Elt F) → (⟨S1x32, .f32⟩ : BufTy).Contents (Elt F)),
    StableHlo.unary main_v35 main_v36 (broadcastInDim S150000x32 ![0, 1] bcast_S1x32_S150000x32_0_1 : (⟨S1x32, .f32⟩ : BufTy).Contents (Elt F) → (⟨S150000x32, .f32⟩ : BufTy).Contents (Elt F)),
    StableHlo.binary main_v34 main_v36 main_v37 (mulf : (⟨S150000x32, .f32⟩ : BufTy).Contents (Elt F) → (⟨S150000x32, .f32⟩ : BufTy).Contents (Elt F) → (⟨S150000x32, .f32⟩ : BufTy).Contents (Elt F)),
    StableHlo.unary main_arg3 main_v38 (broadcastInDim S1x32 ![1] bcast_S32_S1x32_1 : (⟨S32, .f32⟩ : BufTy).Contents (Elt F) → (⟨S1x32, .f32⟩ : BufTy).Contents (Elt F)),
    StableHlo.unary main_v38 main_v39 (broadcastInDim S150000x32 ![0, 1] bcast_S1x32_S150000x32_0_1 : (⟨S1x32, .f32⟩ : BufTy).Contents (Elt F) → (⟨S150000x32, .f32⟩ : BufTy).Contents (Elt F)),
    StableHlo.binary main_v37 main_v39 main_v40 (addf : (⟨S150000x32, .f32⟩ : BufTy).Contents (Elt F) → (⟨S150000x32, .f32⟩ : BufTy).Contents (Elt F) → (⟨S150000x32, .f32⟩ : BufTy).Contents (Elt F)),
    StableHlo.TRef.nullary main_call1.cst (constant S_ .f32 0x00000000#32),
    StableHlo.TRef.unary main_call1.cst main_call1.v0 (broadcastInDim S150000x32 ![] bcast_S_S150000x32),
    StableHlo.TRef.binary (StableHlo.TRef.of main_v40 : StableHlo.TRef sig ⟨S150000x32, .f32⟩) main_call1.v0 main_call1.v1 maximumf,
    StableHlo.nullary main_c_7 (constantI S_ 32 0#32),
    StableHlo.unary main_c_7 main_v42 (broadcastInDim S27x150000 ![] bcast_S_S27x150000 : (⟨S_, .i32⟩ : BufTy).Contents (Elt F) → (⟨S27x150000, .i32⟩ : BufTy).Contents (Elt F)),
    StableHlo.binary main_arg7 main_v42 main_v43 (cmpi .slt : (⟨S27x150000, .i32⟩ : BufTy).Contents (Elt F) → (⟨S27x150000, .i32⟩ : BufTy).Contents (Elt F) → (⟨S27x150000, .i1⟩ : BufTy).Contents (Elt F)),
    StableHlo.nullary main_c_8 (constantI S_ 32 150000#32),
    StableHlo.unary main_c_8 main_v44 (broadcastInDim S27x150000 ![] bcast_S_S27x150000 : (⟨S_, .i32⟩ : BufTy).Contents (Elt F) → (⟨S27x150000, .i32⟩ : BufTy).Contents (Elt F)),
    StableHlo.binary main_arg7 main_v44 main_v45 (addi : (⟨S27x150000, .i32⟩ : BufTy).Contents (Elt F) → (⟨S27x150000, .i32⟩ : BufTy).Contents (Elt F) → (⟨S27x150000, .i32⟩ : BufTy).Contents (Elt F)),
    StableHlo.ternary main_v43 main_v45 main_arg7 main_v46 (select : (⟨S27x150000, .i1⟩ : BufTy).Contents (Elt F) → (⟨S27x150000, .i32⟩ : BufTy).Contents (Elt F) → (⟨S27x150000, .i32⟩ : BufTy).Contents (Elt F) → (⟨S27x150000, .i32⟩ : BufTy).Contents (Elt F)),
    StableHlo.unary main_v46 main_v47 (broadcastInDim S27x150000x1 ![0, 1] bcast_S27x150000_S27x150000x1_0_1 : (⟨S27x150000, .i32⟩ : BufTy).Contents (Elt F) → (⟨S27x150000x1, .i32⟩ : BufTy).Contents (Elt F)),
    StableHlo.binary main_v41 main_v47 main_v48 ((fun x i => Host.gather gather_S150000x32_S27x150000x1_S27x150000x32_2_0_n_n_0_2_132 x i) : (⟨S150000x32, .f32⟩ : BufTy).Contents (Elt F) → (⟨S27x150000x1, .i32⟩ : BufTy).Contents (Elt F) → (⟨S27x150000x32, .f32⟩ : BufTy).Contents (Elt F)),
    StableHlo.unary main_arg9 main_v49 (broadcastInDim S27x150000x1 ![0, 1] bcast_S27x150000_S27x150000x1_0_1 : (⟨S27x150000, .i1⟩ : BufTy).Contents (Elt F) → (⟨S27x150000x1, .i1⟩ : BufTy).Contents (Elt F)),
    StableHlo.unary main_v49 main_v50 (uitofp .f32 : (⟨S27x150000x1, .i1⟩ : BufTy).Contents (Elt F) → (⟨S27x150000x1, .f32⟩ : BufTy).Contents (Elt F)),
    StableHlo.unary main_v50 main_v51 (broadcastInDim S27x150000x32 ![0, 1, 2] bcast_S27x150000x1_S27x150000x32_0_1_2 : (⟨S27x150000x1, .f32⟩ : BufTy).Contents (Elt F) → (⟨S27x150000x32, .f32⟩ : BufTy).Contents (Elt F)),
    StableHlo.binary main_v48 main_v51 main_v52 (mulf : (⟨S27x150000x32, .f32⟩ : BufTy).Contents (Elt F) → (⟨S27x150000x32, .f32⟩ : BufTy).Contents (Elt F) → (⟨S27x150000x32, .f32⟩ : BufTy).Contents (Elt F)),
    StableHlo.binary main_v52 main_arg4 main_v53 ((fun l r => Host.dotGeneral dot_S27x150000x32_S27x32x32_S27x150000x32_2_1_1_2_0_0 none l r) : (⟨S27x150000x32, .f32⟩ : BufTy).Contents (Elt F) → (⟨S27x32x32, .f32⟩ : BufTy).Contents (Elt F) → (⟨S27x150000x32, .f32⟩ : BufTy).Contents (Elt F)),
    StableHlo.nullary main_cst_9 (constant S_ .f32 0x00000000#32),
    StableHlo.unary main_cst_9 main_v54 (broadcastInDim S150000x32 ![] bcast_S_S150000x32 : (⟨S_, .f32⟩ : BufTy).Contents (Elt F) → (⟨S150000x32, .f32⟩ : BufTy).Contents (Elt F)),
    StableHlo.reshape main_arg8 main_v55 rfl shapeCasts_S27x150000_S4050000,
    StableHlo.reshape main_v53 main_v56 rfl shapeCasts_S27x150000x32_S4050000x32,
    StableHlo.nullary main_c_10 (constantI S_ 32 0#32),
    StableHlo.unary main_c_10 main_v57 (broadcastInDim S4050000 ![] bcast_S_S4050000 : (⟨S_, .i32⟩ : BufTy).Contents (Elt F) → (⟨S4050000, .i32⟩ : BufTy).Contents (Elt F)),
    StableHlo.binary main_v55 main_v57 main_v58 (cmpi .slt : (⟨S4050000, .i32⟩ : BufTy).Contents (Elt F) → (⟨S4050000, .i32⟩ : BufTy).Contents (Elt F) → (⟨S4050000, .i1⟩ : BufTy).Contents (Elt F)),
    StableHlo.nullary main_c_11 (constantI S_ 32 150000#32),
    StableHlo.unary main_c_11 main_v59 (broadcastInDim S4050000 ![] bcast_S_S4050000 : (⟨S_, .i32⟩ : BufTy).Contents (Elt F) → (⟨S4050000, .i32⟩ : BufTy).Contents (Elt F)),
    StableHlo.binary main_v55 main_v59 main_v60 (addi : (⟨S4050000, .i32⟩ : BufTy).Contents (Elt F) → (⟨S4050000, .i32⟩ : BufTy).Contents (Elt F) → (⟨S4050000, .i32⟩ : BufTy).Contents (Elt F)),
    StableHlo.ternary main_v58 main_v60 main_v55 main_v61 (select : (⟨S4050000, .i1⟩ : BufTy).Contents (Elt F) → (⟨S4050000, .i32⟩ : BufTy).Contents (Elt F) → (⟨S4050000, .i32⟩ : BufTy).Contents (Elt F) → (⟨S4050000, .i32⟩ : BufTy).Contents (Elt F)),
    StableHlo.unary main_v61 main_v62 (broadcastInDim S4050000x1 ![0] bcast_S4050000_S4050000x1_0 : (⟨S4050000, .i32⟩ : BufTy).Contents (Elt F) → (⟨S4050000x1, .i32⟩ : BufTy).Contents (Elt F)),
    StableHlo.ternary main_v54 main_v62 main_v56 main_v63 ((fun x i u => Host.scatterAdd scatter_S150000x32_S4050000x1_S4050000x32_1_0_0_1 x i u) : (⟨S150000x32, .f32⟩ : BufTy).Contents (Elt F) → (⟨S4050000x1, .i32⟩ : BufTy).Contents (Elt F) → (⟨S4050000x32, .f32⟩ : BufTy).Contents (Elt F) → (⟨S150000x32, .f32⟩ : BufTy).Contents (Elt F)),
    StableHlo.nullary main_cst_12 (constant S_ .f32 0x00000000#32),
    StableHlo.binary main_v63 main_cst_12 main_v64 ((fun x v => Host.reduceAdd x v reducesTo_S150000x32_S32_d0 h_S_) : (⟨S150000x32, .f32⟩ : BufTy).Contents (Elt F) → (⟨S_, .f32⟩ : BufTy).Contents (Elt F) → (⟨S32, .f32⟩ : BufTy).Contents (Elt F)),
    StableHlo.nullary main_cst_13 (constant S_ .f32 0x48127C00#32),
    StableHlo.unary main_cst_13 main_v65 (broadcastInDim S32 ![] bcast_S_S32 : (⟨S_, .f32⟩ : BufTy).Contents (Elt F) → (⟨S32, .f32⟩ : BufTy).Contents (Elt F)),
    StableHlo.binary main_v64 main_v65 main_v66 (Host.divf : (⟨S32, .f32⟩ : BufTy).Contents (Elt F) → (⟨S32, .f32⟩ : BufTy).Contents (Elt F) → (⟨S32, .f32⟩ : BufTy).Contents (Elt F)),
    StableHlo.nullary main_c_14 (constantI S_ 32 0#32),
    StableHlo.TRef.nullary main_call2.cst (constant S_ .f32 0x00000000#32),
    StableHlo.TRef.binary (StableHlo.TRef.of main_v63 : StableHlo.TRef sig ⟨S150000x32, .f32⟩) main_call2.cst main_call2.v0 (fun x v => Host.reduceAdd x v reducesTo_S150000x32_S32_d0 h_S_),
    StableHlo.TRef.unary main_call2.v0 main_call2.v1 (broadcastInDim S1x32 ![1] bcast_S32_S1x32_1),
    StableHlo.TRef.nullary main_call2.cst_0 (constant S_ .f32 0x48127C00#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S150000x32 ![0, 1] bcast_S1x32_S150000x32_0_1),
    StableHlo.TRef.binary (StableHlo.TRef.of main_v63 : StableHlo.TRef sig ⟨S150000x32, .f32⟩) main_call2.v4 main_call2.v5 subf,
    StableHlo.TRef.binary main_call2.v5 main_call2.v5 main_call2.v6 mulf,
    StableHlo.TRef.unary (StableHlo.TRef.of main_c_14 : StableHlo.TRef sig ⟨S_, .i32⟩) main_call2.v7 (sitofp .f32),
    StableHlo.TRef.nullary main_call2.cst_1 (constant S_ .f32 0x48127C00#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S150000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v66 main_v68 (broadcastInDim S1x32 ![1] bcast_S32_S1x32_1 : (⟨S32, .f32⟩ : BufTy).Contents (Elt F) → (⟨S1x32, .f32⟩ : BufTy).Contents (Elt F)),
    StableHlo.unary main_v68 main_v69 (broadcastInDim S150000x32 ![0, 1] bcast_S1x32_S150000x32_0_1 : (⟨S1x32, .f32⟩ : BufTy).Contents (Elt F) → (⟨S150000x32, .f32⟩ : BufTy).Contents (Elt F)),
    StableHlo.binary main_v63 main_v69 main_v70 (subf : (⟨S150000x32, .f32⟩ : BufTy).Contents (Elt F) → (⟨S150000x32, .f32⟩ : BufTy).Contents (Elt F) → (⟨S150000x32, .f32⟩ : BufTy).Contents (Elt F)),
    StableHlo.nullary main_cst_15 (constant S_ .f32 0x3727C5AC#32),
    StableHlo.unary main_cst_15 main_v71 (broadcastInDim S32 ![] bcast_S_S32 : (⟨S_, .f32⟩ : BufTy).Contents (Elt F) → (⟨S32, .f32⟩ : BufTy).Contents (Elt F)),
    StableHlo.binary main_v67 main_v71 main_v72 (addf : (⟨S32, .f32⟩ : BufTy).Contents (Elt F) → (⟨S32, .f32⟩ : BufTy).Contents (Elt F) → (⟨S32, .f32⟩ : BufTy).Contents (Elt F)),
    StableHlo.unary main_v72 main_v73 (Host.rsqrt : (⟨S32, .f32⟩ : BufTy).Contents (Elt F) → (⟨S32, .f32⟩ : BufTy).Contents (Elt F)),
    StableHlo.unary main_v73 main_v74 (broadcastInDim S1x32 ![1] bcast_S32_S1x32_1 : (⟨S32, .f32⟩ : BufTy).Contents (Elt F) → (⟨S1x32, .f32⟩ : BufTy).Contents (Elt F)),
    StableHlo.unary main_v74 main_v75 (broadcastInDim S150000x32 ![0, 1] bcast_S1x32_S150000x32_0_1 : (⟨S1x32, .f32⟩ : BufTy).Contents (Elt F) → (⟨S150000x32, .f32⟩ : BufTy).Contents (Elt F)),
    StableHlo.binary main_v70 main_v75 main_v76 (mulf : (⟨S150000x32, .f32⟩ : BufTy).Contents (Elt F) → (⟨S150000x32, .f32⟩ : BufTy).Contents (Elt F) → (⟨S150000x32, .f32⟩ : BufTy).Contents (Elt F)),
    StableHlo.unary main_arg5 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S150000x32 ![0, 1] bcast_S1x32_S150000x32_0_1 : (⟨S1x32, .f32⟩ : BufTy).Contents (Elt F) → (⟨S150000x32, .f32⟩ : BufTy).Contents (Elt F)),
    StableHlo.binary main_v76 main_v78 main_v79 (mulf : (⟨S150000x32, .f32⟩ : BufTy).Contents (Elt F) → (⟨S150000x32, .f32⟩ : BufTy).Contents (Elt F) → (⟨S150000x32, .f32⟩ : BufTy).Contents (Elt F)),
    StableHlo.unary main_arg6 main_v80 (broadcastInDim S1x32 ![1] bcast_S32_S1x32_1 : (⟨S32, .f32⟩ : BufTy).Contents (Elt F) → (⟨S1x32, .f32⟩ : BufTy).Contents (Elt F)),
    StableHlo.unary main_v80 main_v81 (broadcastInDim S150000x32 ![0, 1] bcast_S1x32_S150000x32_0_1 : (⟨S1x32, .f32⟩ : BufTy).Contents (Elt F) → (⟨S150000x32, .f32⟩ : BufTy).Contents (Elt F)),
    StableHlo.binary main_v79 main_v81 main_v82 (addf : (⟨S150000x32, .f32⟩ : BufTy).Contents (Elt F) → (⟨S150000x32, .f32⟩ : BufTy).Contents (Elt F) → (⟨S150000x32, .f32⟩ : BufTy).Contents (Elt F)),
    StableHlo.binary main_v82 main_arg0 main_v83 (addf : (⟨S150000x32, .f32⟩ : BufTy).Contents (Elt F) → (⟨S150000x32, .f32⟩ : BufTy).Contents (Elt F) → (⟨S150000x32, .f32⟩ : BufTy).Contents (Elt F)),
    StableHlo.TRef.nullary main_call3.cst (constant S_ .f32 0x00000000#32),
    StableHlo.TRef.unary main_call3.cst main_call3.v0 (broadcastInDim S150000x32 ![] bcast_S_S150000x32),
    StableHlo.TRef.binary (StableHlo.TRef.of main_v83 : StableHlo.TRef sig ⟨S150000x32, .f32⟩) main_call3.v0 main_call3.v1 maximumf ]

set_option maxRecDepth 8192 in
set_option maxHeartbeats 4000000 in
/-- @main is that straight line: both windows and the three functions' bodies unfolded, the sequencing
    reassociated to one chain of steps. -/
theorem main_eq (c : Dev nD) : main (F := F) c = StableHlo.seq ops := by
  simp only [main, main_part0, main_part1, fn_var.body, fn_where.body, fn_relu.body, StableHlo.seq, bind_assoc, pure_bind]

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., unary_bufs_sub ..,
    binary_bufs_sub .., binary_bufs_sub .., nullary_bufs_sub .., unary_bufs_sub .., reshape_bufs_sub .., reshape_bufs_sub ..,
    nullary_bufs_sub .., unary_bufs_sub .., binary_bufs_sub .., nullary_bufs_sub .., unary_bufs_sub .., binary_bufs_sub ..,
    ternary_bufs_sub .., unary_bufs_sub .., ternary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., unary_bufs_sub .., binary_bufs_sub .., binary_bufs_sub .., nullary_bufs_sub .., unary_bufs_sub ..,
    reshape_bufs_sub .., reshape_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub ..⟩

/-- On the compiled mesh, for any float values, from any memory with zero counters: every weakly fair execution of
    @main terminates, and in every final state each TensorCore buffer holds the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ

/-! No operation writes an argument buffer: each keeps its launch contents. -/

theorem arg0_eq (V : Valuation τ sig (Elt F)) :
    StableHlo.after ops V (main_arg0 : DevRef τ sig) = V (main_arg0 : DevRef τ sig) := by
  after_results_simp

theorem arg1_eq (V : Valuation τ sig (Elt F)) :
    StableHlo.after ops V (main_arg1 : DevRef τ sig) = V (main_arg1 : DevRef τ sig) := by
  after_results_simp

theorem arg2_eq (V : Valuation τ sig (Elt F)) :
    StableHlo.after ops V (main_arg2 : DevRef τ sig) = V (main_arg2 : DevRef τ sig) := by
  after_results_simp

theorem arg3_eq (V : Valuation τ sig (Elt F)) :
    StableHlo.after ops V (main_arg3 : DevRef τ sig) = V (main_arg3 : DevRef τ sig) := by
  after_results_simp

theorem arg4_eq (V : Valuation τ sig (Elt F)) :
    StableHlo.after ops V (main_arg4 : DevRef τ sig) = V (main_arg4 : DevRef τ sig) := by
  after_results_simp

theorem arg5_eq (V : Valuation τ sig (Elt F)) :
    StableHlo.after ops V (main_arg5 : DevRef τ sig) = V (main_arg5 : DevRef τ sig) := by
  after_results_simp

theorem arg6_eq (V : Valuation τ sig (Elt F)) :
    StableHlo.after ops V (main_arg6 : DevRef τ sig) = V (main_arg6 : DevRef τ sig) := by
  after_results_simp

theorem arg7_eq (V : Valuation τ sig (Elt F)) :
    StableHlo.after ops V (main_arg7 : DevRef τ sig) = V (main_arg7 : DevRef τ sig) := by
  after_results_simp

theorem arg8_eq (V : Valuation τ sig (Elt F)) :
    StableHlo.after ops V (main_arg8 : DevRef τ sig) = V (main_arg8 : DevRef τ sig) := by
  after_results_simp

theorem arg9_eq (V : Valuation τ sig (Elt F)) :
    StableHlo.after ops V (main_arg9 : DevRef τ sig) = V (main_arg9 : DevRef τ sig) := by
  after_results_simp

end Cert.ReferenceIdeal.Hand

end
-- ==== Proof.RefDefs.lean ====
/-
  The reference program's result as a pure function of its ten operands: each stage is the composition of the
  operations the program applies, in the program's order and association, stated over plain vectors.

  A sparse convolution gathers rows of the feature table along a normalised index map, scales them by the validity
  bits read as numbers, contracts them with the weight of each offset, flattens the (offset, pair) axes and adds each
  flattened row into the destination row its normalised index names. Batch normalisation subtracts the per-channel mean,
  multiplies by the reciprocal root of the per-channel variance plus a stabiliser, scales and shifts. The block is
  relu (bn₂ (conv₂ (relu (bn₁ (conv₁ x)))) + x).
-/
import proofs.«429804_j40699110096963_3_alg».proof.ReferenceIdeal
import Idealize.ShloMosaic.PureOps.Ideal

noncomputable section

namespace Cert.ReferenceIdeal.Hand

open Idealize.ShloMosaic Idealize.SL.Sem
open Cert.ReferenceIdeal

variable [Facts]
open Facts₀ Facts

/-- An index map on the (offset, pair) grid normalised: a negative word is moved up by the table's length. -/
def rNrm (m : IVec S27x150000 32) : IVec S27x150000 32 :=
  select (cmpi .slt m (broadcastInDim S27x150000 ![] bcast_S_S27x150000 (constantI S_ 32 0#32)))
    (addi m (broadcastInDim S27x150000 ![] bcast_S_S27x150000 (constantI S_ 32 150000#32))) m

/-- The same normalisation on a flattened map. -/
def rNrmFlat (m : IVec S4050000 32) : IVec S4050000 32 :=
  select (cmpi .slt m (broadcastInDim S4050000 ![] bcast_S_S4050000 (constantI S_ 32 0#32)))
    (addi m (broadcastInDim S4050000 ![] bcast_S_S4050000 (constantI S_ 32 150000#32))) m

/-- The rows of `h` the normalised input map names, one per offset and pair. -/
def rGather (h : FVec Ideal S150000x32 .f32) (imap : IVec S27x150000 32) : FVec Ideal S27x150000x32 .f32 :=
  Host.gather gather_S150000x32_S27x150000x1_S27x150000x32_2_0_n_n_0_2_132 h
    (broadcastInDim S27x150000x1 ![0, 1] bcast_S27x150000_S27x150000x1_0_1 (rNrm imap))

/-- The validity bits as numbers, repeated along the channel axis. -/
def rMaskF (mask : IVec S27x150000 1) : FVec Ideal S27x150000x32 .f32 :=
  broadcastInDim S27x150000x32 ![0, 1, 2] bcast_S27x150000x1_S27x150000x32_0_1_2
    (uitofp .f32 (broadcastInDim S27x150000x1 ![0, 1] bcast_S27x150000_S27x150000x1_0_1 mask) : FVec Ideal S27x150000x1 .f32)

/-- The gathered rows, masked and contracted with each offset's weight. -/
def rDot (h : FVec Ideal S150000x32 .f32) (W : FVec Ideal S27x32x32 .f32) (imap : IVec S27x150000 32)
    (mask : IVec S27x150000 1) : FVec Ideal S27x150000x32 .f32 :=
  Host.dotGeneral dot_S27x150000x32_S27x32x32_S27x150000x32_2_1_1_2_0_0 none (mulf (rGather h imap) (rMaskF mask)) W

/-- The flattened, normalised output map as a column of one-word index vectors. -/
def rOutIdx (omap : IVec S27x150000 32) : IVec S4050000x1 32 :=
  broadcastInDim S4050000x1 ![0] bcast_S4050000_S4050000x1_0
    (rNrmFlat (fun i => shapeCast S4050000 omap shapeCasts_S27x150000_S4050000 i))

/-- The sparse convolution: the contracted rows added into a zero table at the rows the output map names. -/
def rConv (h : FVec Ideal S150000x32 .f32) (W : FVec Ideal S27x32x32 .f32) (imap omap : IVec S27x150000 32)
    (mask : IVec S27x150000 1) : FVec Ideal S150000x32 .f32 :=
  Host.scatterAdd scatter_S150000x32_S4050000x1_S4050000x32_1_0_0_1
    (broadcastInDim S150000x32 ![] bcast_S_S150000x32 (constant S_ .f32 0x00000000#32 : FVec Ideal S_ .f32))
    (rOutIdx omap)
    (fun i => shapeCast S4050000x32 (rDot h W imap mask) shapeCasts_S27x150000x32_S4050000x32 i)

/-- The per-channel mean: the column sums over the row count. -/
def rMean (y : FVec Ideal S150000x32 .f32) : FVec Ideal S32 .f32 :=
  Host.divf (Host.reduceAdd y (constant S_ .f32 0x00000000#32 : FVec Ideal S_ .f32) reducesTo_S150000x32_S32_d0 h_S_)
    (broadcastInDim S32 ![] bcast_S_S32 (constant S_ .f32 0x48127C00#32 : FVec Ideal S_ .f32))

/-- The mean as the variance computes it again: through a one-row table. -/
def rMeanRow (y : FVec Ideal S150000x32 .f32) : FVec Ideal S1x32 .f32 :=
  Host.divf
    (broadcastInDim S1x32 ![1] bcast_S32_S1x32_1
      (Host.reduceAdd y (constant S_ .f32 0x00000000#32 : FVec Ideal S_ .f32) reducesTo_S150000x32_S32_d0 h_S_))
    (broadcastInDim S1x32 ![] bcast_S_S1x32 (constant S_ .f32 0x48127C00#32 : FVec Ideal S_ .f32))

/-- The deviations from the mean, inside the variance. -/
def rDev (y : FVec Ideal S150000x32 .f32) : FVec Ideal S150000x32 .f32 :=
  subf y (broadcastInDim S150000x32 ![0, 1] bcast_S1x32_S150000x32_0_1 (rMeanRow y))

/-- The variance's divisor: the row count less the degrees of freedom taken off (none). -/
def rDof : FVec Ideal S_ .f32 :=
  subf (constant S_ .f32 0x48127C00#32 : FVec Ideal S_ .f32) (sitofp .f32 (constantI S_ 32 0#32))

/-- The per-channel variance: the summed squared deviations over the divisor, kept where the divisor is positive
    (it is), a not-a-number elsewhere. -/
def rVar (y : FVec Ideal S150000x32 .f32) : FVec Ideal S32 .f32 :=
  select
    (broadcastInDim S32 ![] bcast_S_S32 (cmpf .ogt rDof (constant S_ .f32 0x00000000#32 : FVec Ideal S_ .f32)))
    (Host.divf
      (Host.reduceAdd (mulf (rDev y) (rDev y)) (constant S_ .f32 0x00000000#32 : FVec Ideal S_ .f32)
        reducesTo_S150000x32_S32_d0 h_S_)
      (broadcastInDim S32 ![] bcast_S_S32 rDof))
    (broadcastInDim S32 ![] bcast_S_S32 (id (constant S_ .f32 0x7FC00000#32 : FVec Ideal S_ .f32)))

/-- A per-channel vector repeated down the rows. -/
def rRows (v : FVec Ideal S32 .f32) : FVec Ideal S150000x32 .f32 :=
  broadcastInDim S150000x32 ![0, 1] bcast_S1x32_S150000x32_0_1 (broadcastInDim S1x32 ![1] bcast_S32_S1x32_1 v)

/-- Batch normalisation with scale `g` and shift `b`. -/
def rBn (y : FVec Ideal S150000x32 .f32) (g b : FVec Ideal S32 .f32) : FVec Ideal S150000x32 .f32 :=
  addf
    (mulf
      (mulf (subf y (rRows (rMean y)))
        (rRows (Host.rsqrt (addf (rVar y)
          (broadcastInDim S32 ![] bcast_S_S32 (constant S_ .f32 0x3727C5AC#32 : FVec Ideal S_ .f32))))))
      (rRows g))
    (rRows b)

/-- The positive part. -/
def rRelu (y : FVec Ideal S150000x32 .f32) : FVec Ideal S150000x32 .f32 :=
  maximumf y (broadcastInDim S150000x32 ![] bcast_S_S150000x32 (constant S_ .f32 0x00000000#32 : FVec Ideal S_ .f32))

/-- The whole reference: relu (bn₂ (conv₂ (relu (bn₁ (conv₁ x)))) + x). -/
def refOut (x : FVec Ideal S150000x32 .f32) (W1 : FVec Ideal S27x32x32 .f32) (g1 b1 : FVec Ideal S32 .f32)
    (W2 : FVec Ideal S27x32x32 .f32) (g2 b2 : FVec Ideal S32 .f32) (imap omap : IVec S27x150000 32)
    (mask : IVec S27x150000 1) : FVec Ideal S150000x32 .f32 :=
  rRelu (addf (rBn (rConv (rRelu (rBn (rConv x W1 imap omap mask) g1 b1)) W2 imap omap mask) g2 b2) x)

end Cert.ReferenceIdeal.Hand

end
-- ==== Proof.RefOut.lean ====
import proofs.«429804_j40699110096963_3_alg».proof.Proof.RefRun
import proofs.«429804_j40699110096963_3_alg».proof.Proof.RefDefs

/-!
The reference's result buffer, read back: after @main's line of operations the result holds `refOut` of the ten
argument arrays.

The line is cut where the block's stages meet — the first sparse convolution, its batch normalisation, the positive
part, the second convolution, its normalisation, and the residual sum with the last positive part. Over ANY contents
`W` of the buffers, a stage's operations leave in the stage's result buffer the stage's function of the buffers it
reads, and leave every argument buffer as it was; the whole line is the stages one after the other, so the result
is the composition.
-/

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The fold over a concatenation is the fold over the second list from the fold over the first. -/
theorem after_append' {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by
    rw [List.cons_append, StableHlo.after_cons, StableHlo.after_cons, after_append' l₁ l₂]

/-- The first sparse convolution's operations: from the index normalisation to the scatter-add. -/
def conv1Ops : List (HloOp τ sig (Elt F)) :=
  [ StableHlo.nullary main_c (constantI S_ 32 0#32),
    StableHlo.unary main_c main_v0 (broadcastInDim S27x150000 ![] bcast_S_S27x150000 : (⟨S_, .i32⟩ : BufTy).Contents (Elt F) → (⟨S27x150000, .i32⟩ : BufTy).Contents (Elt F)),
    StableHlo.binary main_arg7 main_v0 main_v1 (cmpi .slt : (⟨S27x150000, .i32⟩ : BufTy).Contents (Elt F) → (⟨S27x150000, .i32⟩ : BufTy).Contents (Elt F) → (⟨S27x150000, .i1⟩ : BufTy).Contents (Elt F)),
    StableHlo.nullary main_c_0 (constantI S_ 32 150000#32),
    StableHlo.unary main_c_0 main_v2 (broadcastInDim S27x150000 ![] bcast_S_S27x150000 : (⟨S_, .i32⟩ : BufTy).Contents (Elt F) → (⟨S27x150000, .i32⟩ : BufTy).Contents (Elt F)),
    StableHlo.binary main_arg7 main_v2 main_v3 (addi : (⟨S27x150000, .i32⟩ : BufTy).Contents (Elt F) → (⟨S27x150000, .i32⟩ : BufTy).Contents (Elt F) → (⟨S27x150000, .i32⟩ : BufTy).Contents (Elt F)),
    StableHlo.ternary main_v1 main_v3 main_arg7 main_v4 (select : (⟨S27x150000, .i1⟩ : BufTy).Contents (Elt F) → (⟨S27x150000, .i32⟩ : BufTy).Contents (Elt F) → (⟨S27x150000, .i32⟩ : BufTy).Contents (Elt F) → (⟨S27x150000, .i32⟩ : BufTy).Contents (Elt F)),
    StableHlo.unary main_v4 main_v5 (broadcastInDim S27x150000x1 ![0, 1] bcast_S27x150000_S27x150000x1_0_1 : (⟨S27x150000, .i32⟩ : BufTy).Contents (Elt F) → (⟨S27x150000x1, .i32⟩ : BufTy).Contents (Elt F)),
    StableHlo.binary main_arg0 main_v5 main_v6 ((fun x i => Host.gather gather_S150000x32_S27x150000x1_S27x150000x32_2_0_n_n_0_2_132 x i) : (⟨S150000x32, .f32⟩ : BufTy).Contents (Elt F) → (⟨S27x150000x1, .i32⟩ : BufTy).Contents (Elt F) → (⟨S27x150000x32, .f32⟩ : BufTy).Contents (Elt F)),
    StableHlo.unary main_arg9 main_v7 (broadcastInDim S27x150000x1 ![0, 1] bcast_S27x150000_S27x150000x1_0_1 : (⟨S27x150000, .i1⟩ : BufTy).Contents (Elt F) → (⟨S27x150000x1, .i1⟩ : BufTy).Contents (Elt F)),
    StableHlo.unary main_v7 main_v8 (uitofp .f32 : (⟨S27x150000x1, .i1⟩ : BufTy).Contents (Elt F) → (⟨S27x150000x1, .f32⟩ : BufTy).Contents (Elt F)),
    StableHlo.unary main_v8 main_v9 (broadcastInDim S27x150000x32 ![0, 1, 2] bcast_S27x150000x1_S27x150000x32_0_1_2 : (⟨S27x150000x1, .f32⟩ : BufTy).Contents (Elt F) → (⟨S27x150000x32, .f32⟩ : BufTy).Contents (Elt F)),
    StableHlo.binary main_v6 main_v9 main_v10 (mulf : (⟨S27x150000x32, .f32⟩ : BufTy).Contents (Elt F) → (⟨S27x150000x32, .f32⟩ : BufTy).Contents (Elt F) → (⟨S27x150000x32, .f32⟩ : BufTy).Contents (Elt F)),
    StableHlo.binary main_v10 main_arg1 main_v11 ((fun l r => Host.dotGeneral dot_S27x150000x32_S27x32x32_S27x150000x32_2_1_1_2_0_0 none l r) : (⟨S27x150000x32, .f32⟩ : BufTy).Contents (Elt F) → (⟨S27x32x32, .f32⟩ : BufTy).Contents (Elt F) → (⟨S27x150000x32, .f32⟩ : BufTy).Contents (Elt F)),
    StableHlo.nullary main_cst (constant S_ .f32 0x00000000#32),
    StableHlo.unary main_cst main_v12 (broadcastInDim S150000x32 ![] bcast_S_S150000x32 : (⟨S_, .f32⟩ : BufTy).Contents (Elt F) → (⟨S150000x32, .f32⟩ : BufTy).Contents (Elt F)),
    StableHlo.reshape main_arg8 main_v13 rfl shapeCasts_S27x150000_S4050000,
    StableHlo.reshape main_v11 main_v14 rfl shapeCasts_S27x150000x32_S4050000x32,
    StableHlo.nullary main_c_1 (constantI S_ 32 0#32),
    StableHlo.unary main_c_1 main_v15 (broadcastInDim S4050000 ![] bcast_S_S4050000 : (⟨S_, .i32⟩ : BufTy).Contents (Elt F) → (⟨S4050000, .i32⟩ : BufTy).Contents (Elt F)),
    StableHlo.binary main_v13 main_v15 main_v16 (cmpi .slt : (⟨S4050000, .i32⟩ : BufTy).Contents (Elt F) → (⟨S4050000, .i32⟩ : BufTy).Contents (Elt F) → (⟨S4050000, .i1⟩ : BufTy).Contents (Elt F)),
    StableHlo.nullary main_c_2 (constantI S_ 32 150000#32),
    StableHlo.unary main_c_2 main_v17 (broadcastInDim S4050000 ![] bcast_S_S4050000 : (⟨S_, .i32⟩ : BufTy).Contents (Elt F) → (⟨S4050000, .i32⟩ : BufTy).Contents (Elt F)),
    StableHlo.binary main_v13 main_v17 main_v18 (addi : (⟨S4050000, .i32⟩ : BufTy).Contents (Elt F) → (⟨S4050000, .i32⟩ : BufTy).Contents (Elt F) → (⟨S4050000, .i32⟩ : BufTy).Contents (Elt F)),
    StableHlo.ternary main_v16 main_v18 main_v13 main_v19 (select : (⟨S4050000, .i1⟩ : BufTy).Contents (Elt F) → (⟨S4050000, .i32⟩ : BufTy).Contents (Elt F) → (⟨S4050000, .i32⟩ : BufTy).Contents (Elt F) → (⟨S4050000, .i32⟩ : BufTy).Contents (Elt F)),
    StableHlo.unary main_v19 main_v20 (broadcastInDim S4050000x1 ![0] bcast_S4050000_S4050000x1_0 : (⟨S4050000, .i32⟩ : BufTy).Contents (Elt F) → (⟨S4050000x1, .i32⟩ : BufTy).Contents (Elt F)),
    StableHlo.ternary main_v12 main_v20 main_v14 main_v21 ((fun x i u => Host.scatterAdd scatter_S150000x32_S4050000x1_S4050000x32_1_0_0_1 x i u) : (⟨S150000x32, .f32⟩ : BufTy).Contents (Elt F) → (⟨S4050000x1, .i32⟩ : BufTy).Contents (Elt F) → (⟨S4050000x32, .f32⟩ : BufTy).Contents (Elt F) → (⟨S150000x32, .f32⟩ : BufTy).Contents (Elt F)) ]

/-- The first batch normalisation's operations: the mean, the variance (with its guard), the scale and shift. -/
def bn1Ops : List (HloOp τ sig (Elt F)) :=
  [ StableHlo.nullary main_cst_3 (constant S_ .f32 0x00000000#32),
    StableHlo.binary main_v21 main_cst_3 main_v22 ((fun x v => Host.reduceAdd x v reducesTo_S150000x32_S32_d0 h_S_) : (⟨S150000x32, .f32⟩ : BufTy).Contents (Elt F) → (⟨S_, .f32⟩ : BufTy).Contents (Elt F) → (⟨S32, .f32⟩ : BufTy).Contents (Elt F)),
    StableHlo.nullary main_cst_4 (constant S_ .f32 0x48127C00#32),
    StableHlo.unary main_cst_4 main_v23 (broadcastInDim S32 ![] bcast_S_S32 : (⟨S_, .f32⟩ : BufTy).Contents (Elt F) → (⟨S32, .f32⟩ : BufTy).Contents (Elt F)),
    StableHlo.binary main_v22 main_v23 main_v24 (Host.divf : (⟨S32, .f32⟩ : BufTy).Contents (Elt F) → (⟨S32, .f32⟩ : BufTy).Contents (Elt F) → (⟨S32, .f32⟩ : BufTy).Contents (Elt F)),
    StableHlo.nullary main_c_5 (constantI S_ 32 0#32),
    StableHlo.TRef.nullary main_call0.cst (constant S_ .f32 0x00000000#32),
    StableHlo.TRef.binary (StableHlo.TRef.of main_v21 : StableHlo.TRef sig ⟨S150000x32, .f32⟩) main_call0.cst main_call0.v0 (fun x v => Host.reduceAdd x v reducesTo_S150000x32_S32_d0 h_S_),
    StableHlo.TRef.unary main_call0.v0 main_call0.v1 (broadcastInDim S1x32 ![1] bcast_S32_S1x32_1),
    StableHlo.TRef.nullary main_call0.cst_0 (constant S_ .f32 0x48127C00#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S150000x32 ![0, 1] bcast_S1x32_S150000x32_0_1),
    StableHlo.TRef.binary (StableHlo.TRef.of main_v21 : StableHlo.TRef sig ⟨S150000x32, .f32⟩) main_call0.v4 main_call0.v5 subf,
    StableHlo.TRef.binary main_call0.v5 main_call0.v5 main_call0.v6 mulf,
    StableHlo.TRef.unary (StableHlo.TRef.of main_c_5 : StableHlo.TRef sig ⟨S_, .i32⟩) main_call0.v7 (sitofp .f32),
    StableHlo.TRef.nullary main_call0.cst_1 (constant S_ .f32 0x48127C00#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S150000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v24 main_v26 (broadcastInDim S1x32 ![1] bcast_S32_S1x32_1 : (⟨S32, .f32⟩ : BufTy).Contents (Elt F) → (⟨S1x32, .f32⟩ : BufTy).Contents (Elt F)),
    StableHlo.unary main_v26 main_v27 (broadcastInDim S150000x32 ![0, 1] bcast_S1x32_S150000x32_0_1 : (⟨S1x32, .f32⟩ : BufTy).Contents (Elt F) → (⟨S150000x32, .f32⟩ : BufTy).Contents (Elt F)),
    StableHlo.binary main_v21 main_v27 main_v28 (subf : (⟨S150000x32, .f32⟩ : BufTy).Contents (Elt F) → (⟨S150000x32, .f32⟩ : BufTy).Contents (Elt F) → (⟨S150000x32, .f32⟩ : BufTy).Contents (Elt F)),
    StableHlo.nullary main_cst_6 (constant S_ .f32 0x3727C5AC#32),
    StableHlo.unary main_cst_6 main_v29 (broadcastInDim S32 ![] bcast_S_S32 : (⟨S_, .f32⟩ : BufTy).Contents (Elt F) → (⟨S32, .f32⟩ : BufTy).Contents (Elt F)),
    StableHlo.binary main_v25 main_v29 main_v30 (addf : (⟨S32, .f32⟩ : BufTy).Contents (Elt F) → (⟨S32, .f32⟩ : BufTy).Contents (Elt F) → (⟨S32, .f32⟩ : BufTy).Contents (Elt F)),
    StableHlo.unary main_v30 main_v31 (Host.rsqrt : (⟨S32, .f32⟩ : BufTy).Contents (Elt F) → (⟨S32, .f32⟩ : BufTy).Contents (Elt F)),
    StableHlo.unary main_v31 main_v32 (broadcastInDim S1x32 ![1] bcast_S32_S1x32_1 : (⟨S32, .f32⟩ : BufTy).Contents (Elt F) → (⟨S1x32, .f32⟩ : BufTy).Contents (Elt F)),
    StableHlo.unary main_v32 main_v33 (broadcastInDim S150000x32 ![0, 1] bcast_S1x32_S150000x32_0_1 : (⟨S1x32, .f32⟩ : BufTy).Contents (Elt F) → (⟨S150000x32, .f32⟩ : BufTy).Contents (Elt F)),
    StableHlo.binary main_v28 main_v33 main_v34 (mulf : (⟨S150000x32, .f32⟩ : BufTy).Contents (Elt F) → (⟨S150000x32, .f32⟩ : BufTy).Contents (Elt F) → (⟨S150000x32, .f32⟩ : BufTy).Contents (Elt F)),
    StableHlo.unary main_arg2 main_v35 (broadcastInDim S1x32 ![1] bcast_S32_S1x32_1 : (⟨S32, .f32⟩ : BufTy).Contents (Elt F) → (⟨S1x32, .f32⟩ : BufTy).Contents (Elt F)),
    StableHlo.unary main_v35 main_v36 (broadcastInDim S150000x32 ![0, 1] bcast_S1x32_S150000x32_0_1 : (⟨S1x32, .f32⟩ : BufTy).Contents (Elt F) → (⟨S150000x32, .f32⟩ : BufTy).Contents (Elt F)),
    StableHlo.binary main_v34 main_v36 main_v37 (mulf : (⟨S150000x32, .f32⟩ : BufTy).Contents (Elt F) → (⟨S150000x32, .f32⟩ : BufTy).Contents (Elt F) → (⟨S150000x32, .f32⟩ : BufTy).Contents (Elt F)),
    StableHlo.unary main_arg3 main_v38 (broadcastInDim S1x32 ![1] bcast_S32_S1x32_1 : (⟨S32, .f32⟩ : BufTy).Contents (Elt F) → (⟨S1x32, .f32⟩ : BufTy).Contents (Elt F)),
    StableHlo.unary main_v38 main_v39 (broadcastInDim S150000x32 ![0, 1] bcast_S1x32_S150000x32_0_1 : (⟨S1x32, .f32⟩ : BufTy).Contents (Elt F) → (⟨S150000x32, .f32⟩ : BufTy).Contents (Elt F)),
    StableHlo.binary main_v37 main_v39 main_v40 (addf : (⟨S150000x32, .f32⟩ : BufTy).Contents (Elt F) → (⟨S150000x32, .f32⟩ : BufTy).Contents (Elt F) → (⟨S150000x32, .f32⟩ : BufTy).Contents (Elt F)) ]

/-- The first positive part's operations. -/
def relu1Ops : List (HloOp τ sig (Elt F)) :=
  [ StableHlo.TRef.nullary main_call1.cst (constant S_ .f32 0x00000000#32),
    StableHlo.TRef.unary main_call1.cst main_call1.v0 (broadcastInDim S150000x32 ![] bcast_S_S150000x32),
    StableHlo.TRef.binary (StableHlo.TRef.of main_v40 : StableHlo.TRef sig ⟨S150000x32, .f32⟩) main_call1.v0 main_call1.v1 maximumf ]

/-- The second sparse convolution's operations. -/
def conv2Ops : List (HloOp τ sig (Elt F)) :=
  [ StableHlo.nullary main_c_7 (constantI S_ 32 0#32),
    StableHlo.unary main_c_7 main_v42 (broadcastInDim S27x150000 ![] bcast_S_S27x150000 : (⟨S_, .i32⟩ : BufTy).Contents (Elt F) → (⟨S27x150000, .i32⟩ : BufTy).Contents (Elt F)),
    StableHlo.binary main_arg7 main_v42 main_v43 (cmpi .slt : (⟨S27x150000, .i32⟩ : BufTy).Contents (Elt F) → (⟨S27x150000, .i32⟩ : BufTy).Contents (Elt F) → (⟨S27x150000, .i1⟩ : BufTy).Contents (Elt F)),
    StableHlo.nullary main_c_8 (constantI S_ 32 150000#32),
    StableHlo.unary main_c_8 main_v44 (broadcastInDim S27x150000 ![] bcast_S_S27x150000 : (⟨S_, .i32⟩ : BufTy).Contents (Elt F) → (⟨S27x150000, .i32⟩ : BufTy).Contents (Elt F)),
    StableHlo.binary main_arg7 main_v44 main_v45 (addi : (⟨S27x150000, .i32⟩ : BufTy).Contents (Elt F) → (⟨S27x150000, .i32⟩ : BufTy).Contents (Elt F) → (⟨S27x150000, .i32⟩ : BufTy).Contents (Elt F)),
    StableHlo.ternary main_v43 main_v45 main_arg7 main_v46 (select : (⟨S27x150000, .i1⟩ : BufTy).Contents (Elt F) → (⟨S27x150000, .i32⟩ : BufTy).Contents (Elt F) → (⟨S27x150000, .i32⟩ : BufTy).Contents (Elt F) → (⟨S27x150000, .i32⟩ : BufTy).Contents (Elt F)),
    StableHlo.unary main_v46 main_v47 (broadcastInDim S27x150000x1 ![0, 1] bcast_S27x150000_S27x150000x1_0_1 : (⟨S27x150000, .i32⟩ : BufTy).Contents (Elt F) → (⟨S27x150000x1, .i32⟩ : BufTy).Contents (Elt F)),
    StableHlo.binary main_v41 main_v47 main_v48 ((fun x i => Host.gather gather_S150000x32_S27x150000x1_S27x150000x32_2_0_n_n_0_2_132 x i) : (⟨S150000x32, .f32⟩ : BufTy).Contents (Elt F) → (⟨S27x150000x1, .i32⟩ : BufTy).Contents (Elt F) → (⟨S27x150000x32, .f32⟩ : BufTy).Contents (Elt F)),
    StableHlo.unary main_arg9 main_v49 (broadcastInDim S27x150000x1 ![0, 1] bcast_S27x150000_S27x150000x1_0_1 : (⟨S27x150000, .i1⟩ : BufTy).Contents (Elt F) → (⟨S27x150000x1, .i1⟩ : BufTy).Contents (Elt F)),
    StableHlo.unary main_v49 main_v50 (uitofp .f32 : (⟨S27x150000x1, .i1⟩ : BufTy).Contents (Elt F) → (⟨S27x150000x1, .f32⟩ : BufTy).Contents (Elt F)),
    StableHlo.unary main_v50 main_v51 (broadcastInDim S27x150000x32 ![0, 1, 2] bcast_S27x150000x1_S27x150000x32_0_1_2 : (⟨S27x150000x1, .f32⟩ : BufTy).Contents (Elt F) → (⟨S27x150000x32, .f32⟩ : BufTy).Contents (Elt F)),
    StableHlo.binary main_v48 main_v51 main_v52 (mulf : (⟨S27x150000x32, .f32⟩ : BufTy).Contents (Elt F) → (⟨S27x150000x32, .f32⟩ : BufTy).Contents (Elt F) → (⟨S27x150000x32, .f32⟩ : BufTy).Contents (Elt F)),
    StableHlo.binary main_v52 main_arg4 main_v53 ((fun l r => Host.dotGeneral dot_S27x150000x32_S27x32x32_S27x150000x32_2_1_1_2_0_0 none l r) : (⟨S27x150000x32, .f32⟩ : BufTy).Contents (Elt F) → (⟨S27x32x32, .f32⟩ : BufTy).Contents (Elt F) → (⟨S27x150000x32, .f32⟩ : BufTy).Contents (Elt F)),
    StableHlo.nullary main_cst_9 (constant S_ .f32 0x00000000#32),
    StableHlo.unary main_cst_9 main_v54 (broadcastInDim S150000x32 ![] bcast_S_S150000x32 : (⟨S_, .f32⟩ : BufTy).Contents (Elt F) → (⟨S150000x32, .f32⟩ : BufTy).Contents (Elt F)),
    StableHlo.reshape main_arg8 main_v55 rfl shapeCasts_S27x150000_S4050000,
    StableHlo.reshape main_v53 main_v56 rfl shapeCasts_S27x150000x32_S4050000x32,
    StableHlo.nullary main_c_10 (constantI S_ 32 0#32),
    StableHlo.unary main_c_10 main_v57 (broadcastInDim S4050000 ![] bcast_S_S4050000 : (⟨S_, .i32⟩ : BufTy).Contents (Elt F) → (⟨S4050000, .i32⟩ : BufTy).Contents (Elt F)),
    StableHlo.binary main_v55 main_v57 main_v58 (cmpi .slt : (⟨S4050000, .i32⟩ : BufTy).Contents (Elt F) → (⟨S4050000, .i32⟩ : BufTy).Contents (Elt F) → (⟨S4050000, .i1⟩ : BufTy).Contents (Elt F)),
    StableHlo.nullary main_c_11 (constantI S_ 32 150000#32),
    StableHlo.unary main_c_11 main_v59 (broadcastInDim S4050000 ![] bcast_S_S4050000 : (⟨S_, .i32⟩ : BufTy).Contents (Elt F) → (⟨S4050000, .i32⟩ : BufTy).Contents (Elt F)),
    StableHlo.binary main_v55 main_v59 main_v60 (addi : (⟨S4050000, .i32⟩ : BufTy).Contents (Elt F) → (⟨S4050000, .i32⟩ : BufTy).Contents (Elt F) → (⟨S4050000, .i32⟩ : BufTy).Contents (Elt F)),
    StableHlo.ternary main_v58 main_v60 main_v55 main_v61 (select : (⟨S4050000, .i1⟩ : BufTy).Contents (Elt F) → (⟨S4050000, .i32⟩ : BufTy).Contents (Elt F) → (⟨S4050000, .i32⟩ : BufTy).Contents (Elt F) → (⟨S4050000, .i32⟩ : BufTy).Contents (Elt F)),
    StableHlo.unary main_v61 main_v62 (broadcastInDim S4050000x1 ![0] bcast_S4050000_S4050000x1_0 : (⟨S4050000, .i32⟩ : BufTy).Contents (Elt F) → (⟨S4050000x1, .i32⟩ : BufTy).Contents (Elt F)),
    StableHlo.ternary main_v54 main_v62 main_v56 main_v63 ((fun x i u => Host.scatterAdd scatter_S150000x32_S4050000x1_S4050000x32_1_0_0_1 x i u) : (⟨S150000x32, .f32⟩ : BufTy).Contents (Elt F) → (⟨S4050000x1, .i32⟩ : BufTy).Contents (Elt F) → (⟨S4050000x32, .f32⟩ : BufTy).Contents (Elt F) → (⟨S150000x32, .f32⟩ : BufTy).Contents (Elt F)) ]

/-- The second batch normalisation's operations. -/
def bn2Ops : List (HloOp τ sig (Elt F)) :=
  [ StableHlo.nullary main_cst_12 (constant S_ .f32 0x00000000#32),
    StableHlo.binary main_v63 main_cst_12 main_v64 ((fun x v => Host.reduceAdd x v reducesTo_S150000x32_S32_d0 h_S_) : (⟨S150000x32, .f32⟩ : BufTy).Contents (Elt F) → (⟨S_, .f32⟩ : BufTy).Contents (Elt F) → (⟨S32, .f32⟩ : BufTy).Contents (Elt F)),
    StableHlo.nullary main_cst_13 (constant S_ .f32 0x48127C00#32),
    StableHlo.unary main_cst_13 main_v65 (broadcastInDim S32 ![] bcast_S_S32 : (⟨S_, .f32⟩ : BufTy).Contents (Elt F) → (⟨S32, .f32⟩ : BufTy).Contents (Elt F)),
    StableHlo.binary main_v64 main_v65 main_v66 (Host.divf : (⟨S32, .f32⟩ : BufTy).Contents (Elt F) → (⟨S32, .f32⟩ : BufTy).Contents (Elt F) → (⟨S32, .f32⟩ : BufTy).Contents (Elt F)),
    StableHlo.nullary main_c_14 (constantI S_ 32 0#32),
    StableHlo.TRef.nullary main_call2.cst (constant S_ .f32 0x00000000#32),
    StableHlo.TRef.binary (StableHlo.TRef.of main_v63 : StableHlo.TRef sig ⟨S150000x32, .f32⟩) main_call2.cst main_call2.v0 (fun x v => Host.reduceAdd x v reducesTo_S150000x32_S32_d0 h_S_),
    StableHlo.TRef.unary main_call2.v0 main_call2.v1 (broadcastInDim S1x32 ![1] bcast_S32_S1x32_1),
    StableHlo.TRef.nullary main_call2.cst_0 (constant S_ .f32 0x48127C00#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S150000x32 ![0, 1] bcast_S1x32_S150000x32_0_1),
    StableHlo.TRef.binary (StableHlo.TRef.of main_v63 : StableHlo.TRef sig ⟨S150000x32, .f32⟩) main_call2.v4 main_call2.v5 subf,
    StableHlo.TRef.binary main_call2.v5 main_call2.v5 main_call2.v6 mulf,
    StableHlo.TRef.unary (StableHlo.TRef.of main_c_14 : StableHlo.TRef sig ⟨S_, .i32⟩) main_call2.v7 (sitofp .f32),
    StableHlo.TRef.nullary main_call2.cst_1 (constant S_ .f32 0x48127C00#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S150000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v66 main_v68 (broadcastInDim S1x32 ![1] bcast_S32_S1x32_1 : (⟨S32, .f32⟩ : BufTy).Contents (Elt F) → (⟨S1x32, .f32⟩ : BufTy).Contents (Elt F)),
    StableHlo.unary main_v68 main_v69 (broadcastInDim S150000x32 ![0, 1] bcast_S1x32_S150000x32_0_1 : (⟨S1x32, .f32⟩ : BufTy).Contents (Elt F) → (⟨S150000x32, .f32⟩ : BufTy).Contents (Elt F)),
    StableHlo.binary main_v63 main_v69 main_v70 (subf : (⟨S150000x32, .f32⟩ : BufTy).Contents (Elt F) → (⟨S150000x32, .f32⟩ : BufTy).Contents (Elt F) → (⟨S150000x32, .f32⟩ : BufTy).Contents (Elt F)),
    StableHlo.nullary main_cst_15 (constant S_ .f32 0x3727C5AC#32),
    StableHlo.unary main_cst_15 main_v71 (broadcastInDim S32 ![] bcast_S_S32 : (⟨S_, .f32⟩ : BufTy).Contents (Elt F) → (⟨S32, .f32⟩ : BufTy).Contents (Elt F)),
    StableHlo.binary main_v67 main_v71 main_v72 (addf : (⟨S32, .f32⟩ : BufTy).Contents (Elt F) → (⟨S32, .f32⟩ : BufTy).Contents (Elt F) → (⟨S32, .f32⟩ : BufTy).Contents (Elt F)),
    StableHlo.unary main_v72 main_v73 (Host.rsqrt : (⟨S32, .f32⟩ : BufTy).Contents (Elt F) → (⟨S32, .f32⟩ : BufTy).Contents (Elt F)),
    StableHlo.unary main_v73 main_v74 (broadcastInDim S1x32 ![1] bcast_S32_S1x32_1 : (⟨S32, .f32⟩ : BufTy).Contents (Elt F) → (⟨S1x32, .f32⟩ : BufTy).Contents (Elt F)),
    StableHlo.unary main_v74 main_v75 (broadcastInDim S150000x32 ![0, 1] bcast_S1x32_S150000x32_0_1 : (⟨S1x32, .f32⟩ : BufTy).Contents (Elt F) → (⟨S150000x32, .f32⟩ : BufTy).Contents (Elt F)),
    StableHlo.binary main_v70 main_v75 main_v76 (mulf : (⟨S150000x32, .f32⟩ : BufTy).Contents (Elt F) → (⟨S150000x32, .f32⟩ : BufTy).Contents (Elt F) → (⟨S150000x32, .f32⟩ : BufTy).Contents (Elt F)),
    StableHlo.unary main_arg5 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S150000x32 ![0, 1] bcast_S1x32_S150000x32_0_1 : (⟨S1x32, .f32⟩ : BufTy).Contents (Elt F) → (⟨S150000x32, .f32⟩ : BufTy).Contents (Elt F)),
    StableHlo.binary main_v76 main_v78 main_v79 (mulf : (⟨S150000x32, .f32⟩ : BufTy).Contents (Elt F) → (⟨S150000x32, .f32⟩ : BufTy).Contents (Elt F) → (⟨S150000x32, .f32⟩ : BufTy).Contents (Elt F)),
    StableHlo.unary main_arg6 main_v80 (broadcastInDim S1x32 ![1] bcast_S32_S1x32_1 : (⟨S32, .f32⟩ : BufTy).Contents (Elt F) → (⟨S1x32, .f32⟩ : BufTy).Contents (Elt F)),
    StableHlo.unary main_v80 main_v81 (broadcastInDim S150000x32 ![0, 1] bcast_S1x32_S150000x32_0_1 : (⟨S1x32, .f32⟩ : BufTy).Contents (Elt F) → (⟨S150000x32, .f32⟩ : BufTy).Contents (Elt F)),
    StableHlo.binary main_v79 main_v81 main_v82 (addf : (⟨S150000x32, .f32⟩ : BufTy).Contents (Elt F) → (⟨S150000x32, .f32⟩ : BufTy).Contents (Elt F) → (⟨S150000x32, .f32⟩ : BufTy).Contents (Elt F)) ]

/-- The residual sum and the last positive part. -/
def tailOps : List (HloOp τ sig (Elt F)) :=
  [ StableHlo.binary main_v82 main_arg0 main_v83 (addf : (⟨S150000x32, .f32⟩ : BufTy).Contents (Elt F) → (⟨S150000x32, .f32⟩ : BufTy).Contents (Elt F) → (⟨S150000x32, .f32⟩ : BufTy).Contents (Elt F)),
    StableHlo.TRef.nullary main_call3.cst (constant S_ .f32 0x00000000#32),
    StableHlo.TRef.unary main_call3.cst main_call3.v0 (broadcastInDim S150000x32 ![] bcast_S_S150000x32),
    StableHlo.TRef.binary (StableHlo.TRef.of main_v83 : StableHlo.TRef sig ⟨S150000x32, .f32⟩) main_call3.v0 main_call3.v1 maximumf ]

/-- The whole line is the six stages, one after the other. -/
theorem ops_split :
    (ops (F := F)) = conv1Ops ++ (bn1Ops ++ (relu1Ops ++ (conv2Ops ++ (bn2Ops ++ tailOps)))) := rfl

/-! ## Each stage's result, over any contents -/

attribute [local irreducible] Host.gather Host.scatterAdd Host.reduceAdd in
set_option maxRecDepth 8192 in
set_option maxHeartbeats 2000000 in
theorem conv1_out (W : Valuation τ sig (Elt Ideal)) :
    StableHlo.after (conv1Ops (F := Ideal)) W (main_v21 : DevRef τ sig) = rConv (W (main_arg0 : DevRef τ sig)) (W (main_arg1 : DevRef τ sig)) (W (main_arg7 : DevRef τ sig)) (W (main_arg8 : DevRef τ sig)) (W (main_arg9 : DevRef τ sig)) := by
  unfold conv1Ops
  after_results_simp
  rfl

attribute [local irreducible] Host.gather Host.scatterAdd Host.reduceAdd in
set_option maxRecDepth 8192 in
set_option maxHeartbeats 2000000 in
theorem bn1_out (W : Valuation τ sig (Elt Ideal)) :
    StableHlo.after (bn1Ops (F := Ideal)) W (main_v40 : DevRef τ sig) = rBn (W (main_v21 : DevRef τ sig)) (W (main_arg2 : DevRef τ sig)) (W (main_arg3 : DevRef τ sig)) := by
  unfold bn1Ops
  after_results_simp
  rfl

attribute [local irreducible] Host.gather Host.scatterAdd Host.reduceAdd in
set_option maxRecDepth 8192 in
set_option maxHeartbeats 2000000 in
theorem relu1_out (W : Valuation τ sig (Elt Ideal)) :
    StableHlo.after (relu1Ops (F := Ideal)) W (main_v41 : DevRef τ sig) = rRelu (W (main_v40 : DevRef τ sig)) := by
  unfold relu1Ops
  after_results_simp
  rfl

attribute [local irreducible] Host.gather Host.scatterAdd Host.reduceAdd in
set_option maxRecDepth 8192 in
set_option maxHeartbeats 2000000 in
theorem conv2_out (W : Valuation τ sig (Elt Ideal)) :
    StableHlo.after (conv2Ops (F := Ideal)) W (main_v63 : DevRef τ sig) = rConv (W (main_v41 : DevRef τ sig)) (W (main_arg4 : DevRef τ sig)) (W (main_arg7 : DevRef τ sig)) (W (main_arg8 : DevRef τ sig)) (W (main_arg9 : DevRef τ sig)) := by
  unfold conv2Ops
  after_results_simp
  rfl

attribute [local irreducible] Host.gather Host.scatterAdd Host.reduceAdd in
set_option maxRecDepth 8192 in
set_option maxHeartbeats 2000000 in
theorem bn2_out (W : Valuation τ sig (Elt Ideal)) :
    StableHlo.after (bn2Ops (F := Ideal)) W (main_v82 : DevRef τ sig) = rBn (W (main_v63 : DevRef τ sig)) (W (main_arg5 : DevRef τ sig)) (W (main_arg6 : DevRef τ sig)) := by
  unfold bn2Ops
  after_results_simp
  rfl

attribute [local irreducible] Host.gather Host.scatterAdd Host.reduceAdd in
set_option maxRecDepth 8192 in
set_option maxHeartbeats 2000000 in
theorem tail_out (W : Valuation τ sig (Elt Ideal)) :
    StableHlo.after (tailOps (F := Ideal)) W (main_v84 : DevRef τ sig) = rRelu (addf (W (main_v82 : DevRef τ sig)) (W (main_arg0 : DevRef τ sig))) := by
  unfold tailOps
  after_results_simp
  rfl

/-! ## No stage writes an argument buffer -/

theorem conv1Ops_arg0 (W : Valuation τ sig (Elt Ideal)) :
    StableHlo.after (conv1Ops (F := Ideal)) W (main_arg0 : DevRef τ sig) = W (main_arg0 : DevRef τ sig) := by
  unfold conv1Ops
  after_results_simp

theorem conv1Ops_arg2 (W : Valuation τ sig (Elt Ideal)) :
    StableHlo.after (conv1Ops (F := Ideal)) W (main_arg2 : DevRef τ sig) = W (main_arg2 : DevRef τ sig) := by
  unfold conv1Ops
  after_results_simp

theorem conv1Ops_arg3 (W : Valuation τ sig (Elt Ideal)) :
    StableHlo.after (conv1Ops (F := Ideal)) W (main_arg3 : DevRef τ sig) = W (main_arg3 : DevRef τ sig) := by
  unfold conv1Ops
  after_results_simp

theorem conv1Ops_arg4 (W : Valuation τ sig (Elt Ideal)) :
    StableHlo.after (conv1Ops (F := Ideal)) W (main_arg4 : DevRef τ sig) = W (main_arg4 : DevRef τ sig) := by
  unfold conv1Ops
  after_results_simp

theorem conv1Ops_arg5 (W : Valuation τ sig (Elt Ideal)) :
    StableHlo.after (conv1Ops (F := Ideal)) W (main_arg5 : DevRef τ sig) = W (main_arg5 : DevRef τ sig) := by
  unfold conv1Ops
  after_results_simp

theorem conv1Ops_arg6 (W : Valuation τ sig (Elt Ideal)) :
    StableHlo.after (conv1Ops (F := Ideal)) W (main_arg6 : DevRef τ sig) = W (main_arg6 : DevRef τ sig) := by
  unfold conv1Ops
  after_results_simp

theorem conv1Ops_arg7 (W : Valuation τ sig (Elt Ideal)) :
    StableHlo.after (conv1Ops (F := Ideal)) W (main_arg7 : DevRef τ sig) = W (main_arg7 : DevRef τ sig) := by
  unfold conv1Ops
  after_results_simp

theorem conv1Ops_arg8 (W : Valuation τ sig (Elt Ideal)) :
    StableHlo.after (conv1Ops (F := Ideal)) W (main_arg8 : DevRef τ sig) = W (main_arg8 : DevRef τ sig) := by
  unfold conv1Ops
  after_results_simp

theorem conv1Ops_arg9 (W : Valuation τ sig (Elt Ideal)) :
    StableHlo.after (conv1Ops (F := Ideal)) W (main_arg9 : DevRef τ sig) = W (main_arg9 : DevRef τ sig) := by
  unfold conv1Ops
  after_results_simp

theorem bn1Ops_arg0 (W : Valuation τ sig (Elt Ideal)) :
    StableHlo.after (bn1Ops (F := Ideal)) W (main_arg0 : DevRef τ sig) = W (main_arg0 : DevRef τ sig) := by
  unfold bn1Ops
  after_results_simp

theorem bn1Ops_arg4 (W : Valuation τ sig (Elt Ideal)) :
    StableHlo.after (bn1Ops (F := Ideal)) W (main_arg4 : DevRef τ sig) = W (main_arg4 : DevRef τ sig) := by
  unfold bn1Ops
  after_results_simp

theorem bn1Ops_arg5 (W : Valuation τ sig (Elt Ideal)) :
    StableHlo.after (bn1Ops (F := Ideal)) W (main_arg5 : DevRef τ sig) = W (main_arg5 : DevRef τ sig) := by
  unfold bn1Ops
  after_results_simp

theorem bn1Ops_arg6 (W : Valuation τ sig (Elt Ideal)) :
    StableHlo.after (bn1Ops (F := Ideal)) W (main_arg6 : DevRef τ sig) = W (main_arg6 : DevRef τ sig) := by
  unfold bn1Ops
  after_results_simp

theorem bn1Ops_arg7 (W : Valuation τ sig (Elt Ideal)) :
    StableHlo.after (bn1Ops (F := Ideal)) W (main_arg7 : DevRef τ sig) = W (main_arg7 : DevRef τ sig) := by
  unfold bn1Ops
  after_results_simp

theorem bn1Ops_arg8 (W : Valuation τ sig (Elt Ideal)) :
    StableHlo.after (bn1Ops (F := Ideal)) W (main_arg8 : DevRef τ sig) = W (main_arg8 : DevRef τ sig) := by
  unfold bn1Ops
  after_results_simp

theorem bn1Ops_arg9 (W : Valuation τ sig (Elt Ideal)) :
    StableHlo.after (bn1Ops (F := Ideal)) W (main_arg9 : DevRef τ sig) = W (main_arg9 : DevRef τ sig) := by
  unfold bn1Ops
  after_results_simp

theorem relu1Ops_arg0 (W : Valuation τ sig (Elt Ideal)) :
    StableHlo.after (relu1Ops (F := Ideal)) W (main_arg0 : DevRef τ sig) = W (main_arg0 : DevRef τ sig) := by
  unfold relu1Ops
  after_results_simp

theorem relu1Ops_arg4 (W : Valuation τ sig (Elt Ideal)) :
    StableHlo.after (relu1Ops (F := Ideal)) W (main_arg4 : DevRef τ sig) = W (main_arg4 : DevRef τ sig) := by
  unfold relu1Ops
  after_results_simp

theorem relu1Ops_arg5 (W : Valuation τ sig (Elt Ideal)) :
    StableHlo.after (relu1Ops (F := Ideal)) W (main_arg5 : DevRef τ sig) = W (main_arg5 : DevRef τ sig) := by
  unfold relu1Ops
  after_results_simp

theorem relu1Ops_arg6 (W : Valuation τ sig (Elt Ideal)) :
    StableHlo.after (relu1Ops (F := Ideal)) W (main_arg6 : DevRef τ sig) = W (main_arg6 : DevRef τ sig) := by
  unfold relu1Ops
  after_results_simp

theorem relu1Ops_arg7 (W : Valuation τ sig (Elt Ideal)) :
    StableHlo.after (relu1Ops (F := Ideal)) W (main_arg7 : DevRef τ sig) = W (main_arg7 : DevRef τ sig) := by
  unfold relu1Ops
  after_results_simp

theorem relu1Ops_arg8 (W : Valuation τ sig (Elt Ideal)) :
    StableHlo.after (relu1Ops (F := Ideal)) W (main_arg8 : DevRef τ sig) = W (main_arg8 : DevRef τ sig) := by
  unfold relu1Ops
  after_results_simp

theorem relu1Ops_arg9 (W : Valuation τ sig (Elt Ideal)) :
    StableHlo.after (relu1Ops (F := Ideal)) W (main_arg9 : DevRef τ sig) = W (main_arg9 : DevRef τ sig) := by
  unfold relu1Ops
  after_results_simp

theorem conv2Ops_arg0 (W : Valuation τ sig (Elt Ideal)) :
    StableHlo.after (conv2Ops (F := Ideal)) W (main_arg0 : DevRef τ sig) = W (main_arg0 : DevRef τ sig) := by
  unfold conv2Ops
  after_results_simp

theorem conv2Ops_arg5 (W : Valuation τ sig (Elt Ideal)) :
    StableHlo.after (conv2Ops (F := Ideal)) W (main_arg5 : DevRef τ sig) = W (main_arg5 : DevRef τ sig) := by
  unfold conv2Ops
  after_results_simp

theorem conv2Ops_arg6 (W : Valuation τ sig (Elt Ideal)) :
    StableHlo.after (conv2Ops (F := Ideal)) W (main_arg6 : DevRef τ sig) = W (main_arg6 : DevRef τ sig) := by
  unfold conv2Ops
  after_results_simp

theorem bn2Ops_arg0 (W : Valuation τ sig (Elt Ideal)) :
    StableHlo.after (bn2Ops (F := Ideal)) W (main_arg0 : DevRef τ sig) = W (main_arg0 : DevRef τ sig) := by
  unfold bn2Ops
  after_results_simp

/-! ## The composition -/

/-- The result buffer after the whole line is `refOut` of the argument arrays: the line split into its stages, each
    stage's result rewritten to its function of what the stage before left, and the arguments carried through every
    stage unchanged. -/
theorem out_eq (V : Valuation τ sig (Elt Ideal)) :
    StableHlo.after (ops (F := Ideal)) V (main_v84 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [ops_split]
  simp only [after_append']
  rw [tail_out, bn2_out, bn2Ops_arg0, conv2_out, conv2Ops_arg0, conv2Ops_arg5, conv2Ops_arg6,
    relu1_out, relu1Ops_arg0, relu1Ops_arg4, relu1Ops_arg5, relu1Ops_arg6, relu1Ops_arg7, relu1Ops_arg8, relu1Ops_arg9,
    bn1_out, bn1Ops_arg0, bn1Ops_arg4, bn1Ops_arg5, bn1Ops_arg6, bn1Ops_arg7, bn1Ops_arg8, bn1Ops_arg9,
    conv1_out, conv1Ops_arg0, conv1Ops_arg2, conv1Ops_arg3, conv1Ops_arg4, conv1Ops_arg5, conv1Ops_arg6,
    conv1Ops_arg7, conv1Ops_arg8, conv1Ops_arg9]
  rfl

end Cert.ReferenceIdeal.Hand

end
-- ==== Proof.RefRead.lean ====
/-
  The reference's result read index by index: each stage of the program, read at one row and channel, is the
  corresponding formula of the specification, with the same association of the arithmetic.

  The gathered row is the feature row at the normalised, clamped index word; the validity bit enters as the number it
  denotes; the contraction is the sum over the 32 input channels; the flattened (offset, pair) axis of the scatter is
  split back into the double sum over offsets and pairs; the column sums of the normalisation are sums over the 150000
  rows; and the variance's guard (the divisor is positive) always takes the quotient.
-/
import proofs.«429804_j40699110096963_3_alg».proof.Proof.RefDefs
import proofs.«429804_j40699110096963_3_alg».proof.Proof.Spec
import proofs.«429804_j40699110096963_3_alg».proof.Proof.Consts
import proofs.«429804_j40699110096963_3_alg».proof.Proof.LibScatterRows
import proofs.«429804_j40699110096963_3_alg».proof.Proof.LibGather3
import proofs.«429804_j40699110096963_3_alg».proof.Proof.LibFlat
import Idealize.ShloMosaic.PureOps.Ideal.Laws
import Idealize.ShloMosaic.Lib.ValueIdx
import Idealize.ShloMosaic.Lib.Pipeline.Value

noncomputable section

open scoped BigOperators

namespace Cert.ReferenceIdeal.Hand

open Idealize.ShloMosaic Idealize.ShloMosaic.ValueIdx Idealize.SL.Sem
open Cert.ReferenceIdeal

variable [Facts]
open Facts₀ Facts

/-! ## Index maps -/

/-- The normalised map at a position is the normalised word. -/
theorem rNrm_apply (m : IVec S27x150000 32) (i : S27x150000.Idx) : rNrm m i = SparseConv.nrm (m i) := rfl

/-- The same on a flattened map. -/
theorem rNrmFlat_apply (m : IVec S4050000 32) (i : S4050000.Idx) : rNrmFlat m i = SparseConv.nrm (m i) := rfl

/-- A map with a trailing unit axis reads the map. -/
theorem bcastUnit_apply {α : Type} (m : S27x150000.Idx → α) (k : Fin 27) (e : Fin 150000) :
    broadcastInDim S27x150000x1 ![0, 1] bcast_S27x150000_S27x150000x1_0_1 m (ix3 k e (0 : Fin 1)) = m (ix2 k e) :=
  broadcastInDim_apply _ _ _ _ (ix2 k e) (fun a => by match a with | ⟨0, _⟩ => rfl | ⟨1, _⟩ => rfl)

/-! ## The gathered rows, the mask, the contraction -/

/-- A gathered entry is the feature row at the normalised, clamped index word. -/
theorem rGather_apply (h : FVec Ideal S150000x32 .f32) (imap : IVec S27x150000 32) (k : Fin 27) (e : Fin 150000)
    (c : Fin 32) : rGather h imap (ix3 k e c) = h (ix2 (SparseConv.rowOf (imap (ix2 k e))) c) := by
  unfold rGather
  refine (Cert.LibGather3.gather_rows3_apply _ rfl rfl rfl rfl rfl rfl h _ k e c (by norm_num)).trans ?_
  refine congrArg h (funext fun a => ?_)
  match a with
  | ⟨0, _⟩ =>
    refine Fin.ext ?_
    show min _ _ = min _ _
    rw [bcastUnit_apply, rNrm_apply]
  | ⟨1, _⟩ => rfl

/-- The mask as numbers reads the validity bit's number on every channel. -/
theorem rMaskF_apply (mask : IVec S27x150000 1) (k : Fin 27) (e : Fin 150000) (c : Fin 32) :
    rMaskF mask (ix3 k e c) = SparseConv.mf (mask (ix2 k e)) := by
  unfold rMaskF
  rw [broadcastInDim_apply _ _ _ _ (ix3 k e (0 : Fin 1))
    (fun a => by match a with | ⟨0, _⟩ => rfl | ⟨1, _⟩ => rfl | ⟨2, _⟩ => rfl)]
  show (((broadcastInDim S27x150000x1 ![0, 1] bcast_S27x150000_S27x150000x1_0_1 mask (ix3 k e (0 : Fin 1))).toNat : ℝ) : EReal) = _
  rw [bcastUnit_apply]
  rfl

/-- The contraction at (offset, pair, channel out): the sum over the channels in. -/
theorem rDot_apply (h : FVec Ideal S150000x32 .f32) (W : FVec Ideal S27x32x32 .f32) (imap : IVec S27x150000 32)
    (mask : IVec S27x150000 1) (k : Fin 27) (e : Fin 150000) (d : Fin 32) :
    rDot h W imap mask (ix3 k e d)
      = ∑ c : Fin 32, (h (ix2 (SparseConv.rowOf (imap (ix2 k e))) c) * SparseConv.mf (mask (ix2 k e))) * W (ix3 k c d) := by
  unfold rDot
  show FloatOps.dotGeneral dot_S27x150000x32_S27x32x32_S27x150000x32_2_1_1_2_0_0 none .single _ _ _ = _
  rw [Ideal.dotGeneral_apply]
  rw [← (contrEquiv1 dot_S27x150000x32_S27x32x32_S27x150000x32_2_1_1_2_0_0 32 rfl rfl).symm.sum_comp]
  refine Finset.sum_congr rfl fun c _ => ?_
  have hl : dot_S27x150000x32_S27x32x32_S27x150000x32_2_1_1_2_0_0.lhsIdx (ix3 k e d)
      ((contrEquiv1 dot_S27x150000x32_S27x32x32_S27x150000x32_2_1_1_2_0_0 32 rfl rfl).symm c) = ix3 k e c := by
    funext a
    match a with
    | ⟨0, _⟩ => exact Fin.ext rfl
    | ⟨1, _⟩ => exact Fin.ext rfl
    | ⟨2, _⟩ =>
      exact Fin.ext ((DotDims.lhsIdx_val_of_single _ rfl _ _).trans (contrEquiv1_symm_val _ 32 rfl rfl c))
  have hr : dot_S27x150000x32_S27x32x32_S27x150000x32_2_1_1_2_0_0.rhsIdx (ix3 k e d)
      ((contrEquiv1 dot_S27x150000x32_S27x32x32_S27x150000x32_2_1_1_2_0_0 32 rfl rfl).symm c) = ix3 k c d := by
    funext a
    match a with
    | ⟨0, _⟩ => exact Fin.ext rfl
    | ⟨1, _⟩ =>
      exact Fin.ext ((DotDims.rhsIdx_val_of_single _ rfl _ _).trans (contrEquiv1_symm_val _ 32 rfl rfl c))
    | ⟨2, _⟩ => exact Fin.ext rfl
  rw [hl, hr, mulf_apply, rGather_apply, rMaskF_apply]

/-! ## The scatter -/

/-- The flat position of (offset, pair). -/
abbrev flatPos (k : Fin 27) (e : Fin 150000) : Fin 4050000 :=
  ⟨k.val * 150000 + e.val, Cert.LibFlat.flat_lt (by norm_num : 27 * 150000 = 4050000) k e⟩

/-- The scatter's index column at the flat position of (offset, pair) is the normalised output word. -/
theorem rOutIdx_apply (omap : IVec S27x150000 32) (k : Fin 27) (e : Fin 150000) :
    rOutIdx omap (ix2 (flatPos k e) (0 : Fin 1)) = SparseConv.nrm (omap (ix2 k e)) := by
  unfold rOutIdx
  rw [broadcastInDim_apply _ _ _ _ (ix1 (flatPos k e)) (fun a => by match a with | ⟨0, _⟩ => rfl)]
  rw [rNrmFlat_apply]
  show SparseConv.nrm (shapeCast S4050000 omap shapeCasts_S27x150000_S4050000 (ix1 (flatPos k e))) = _
  rw [Cert.LibFlat.shapeCast_flat2_apply_of_eq (by norm_num : 27 * 150000 = 4050000) omap _ k e]

/-- The sparse convolution read at a row and channel. -/
theorem rConv_apply (h : FVec Ideal S150000x32 .f32) (W : FVec Ideal S27x32x32 .f32) (imap omap : IVec S27x150000 32)
    (mask : IVec S27x150000 1) (r : Fin 150000) (d : Fin 32) :
    rConv h W imap omap mask (ix2 r d)
      = SparseConv.conv (fun r c => h (ix2 r c)) (fun k a b => W (ix3 k a b)) (fun k m => imap (ix2 k m))
          (fun k m => omap (ix2 k m)) (fun k m => mask (ix2 k m)) r d := by
  unfold rConv
  rw [Cert.LibScatterRows.scatterAdd_rows_apply _ rfl rfl rfl rfl]
  unfold SparseConv.conv
  refine congrArg₂ (· + ·) ?_ ?_
  · show Ideal.ofBits .f32 0x00000000#32 = 0
    exact Ideal.ofBits_zero_f32
  · rw [Cert.LibFlat.sum_flat (by norm_num : 27 * 150000 = 4050000)]
    refine Finset.sum_congr rfl fun k _ => Finset.sum_congr rfl fun m _ => ?_
    have hi := rOutIdx_apply omap k m
    have hu : shapeCast S4050000x32 (rDot h W imap mask) shapeCasts_S27x150000x32_S4050000x32 (ix2 (flatPos k m) d)
        = rDot h W imap mask (ix3 k m d) :=
      Cert.LibFlat.shapeCast_flat3_apply_of_eq (by norm_num : 27 * 150000 = 4050000) _ _ k m d
    show (if (rOutIdx omap (ix2 (flatPos k m) (0 : Fin 1))).toInt = (r.val : Int) then
        shapeCast S4050000x32 (rDot h W imap mask) shapeCasts_S27x150000x32_S4050000x32 (ix2 (flatPos k m) d) else 0) = _
    rw [hi, hu, rDot_apply]

/-! ## Batch normalisation -/

/-- A column sum of a table: zero plus the sum over the rows. -/
theorem colSum_apply (y : FVec Ideal S150000x32 .f32) (c : Fin 32) :
    Host.reduceAdd y (constant S_ .f32 0x00000000#32 : FVec Ideal S_ .f32) reducesTo_S150000x32_S32_d0 h_S_ (ix1 c)
      = 0 + ∑ r : Fin 150000, y (ix2 r c) := by
  show Ideal.hostReduceAdd reducesTo_S150000x32_S32_d0 y (Ideal.ofBits .f32 0x00000000#32) (ix1 c) = _
  rw [Ideal.hostReduceAdd_single reducesTo_S150000x32_S32_d0 (by decide) y _ (ix1 c), Ideal.ofBits_zero_f32]
  refine congrArg (fun s => 0 + s) ?_
  refine Finset.sum_congr rfl fun r _ => congrArg y (funext fun a => ?_)
  match a with
  | ⟨0, _⟩ => rfl
  | ⟨1, _⟩ => rfl

/-- A per-channel vector repeated down the rows reads the vector at the channel. -/
theorem rRows_apply (v : FVec Ideal S32 .f32) (r : Fin 150000) (c : Fin 32) : rRows v (ix2 r c) = v (ix1 c) := by
  unfold rRows
  rw [broadcastInDim_apply _ _ _ _ (ix2 (0 : Fin 1) c) (fun a => by match a with | ⟨0, _⟩ => rfl | ⟨1, _⟩ => rfl)]
  exact broadcastInDim_apply _ _ _ _ (ix1 c) (fun a => by match a with | ⟨0, _⟩ => rfl)

/-- The mean read at a channel. -/
theorem rMean_apply (y : FVec Ideal S150000x32 .f32) (c : Fin 32) :
    rMean y (ix1 c) = SparseConv.mean (fun r c => y (ix2 r c)) c := by
  unfold rMean SparseConv.mean SparseConv.nF
  show Ideal.div (Host.reduceAdd y (constant S_ .f32 0x00000000#32 : FVec Ideal S_ .f32) reducesTo_S150000x32_S32_d0 h_S_ (ix1 c))
    (Ideal.ofBits .f32 0x48127C00#32) = _
  rw [colSum_apply]

/-- The mean as the variance computes it, read at a channel: the same mean. -/
theorem rMeanRow_apply (y : FVec Ideal S150000x32 .f32) (c : Fin 32) :
    rMeanRow y (ix2 (0 : Fin 1) c) = SparseConv.mean (fun r c => y (ix2 r c)) c := by
  unfold rMeanRow SparseConv.mean SparseConv.nF
  show Ideal.div (broadcastInDim S1x32 ![1] bcast_S32_S1x32_1
      (Host.reduceAdd y (constant S_ .f32 0x00000000#32 : FVec Ideal S_ .f32) reducesTo_S150000x32_S32_d0 h_S_) (ix2 (0 : Fin 1) c))
    (Ideal.ofBits .f32 0x48127C00#32) = _
  rw [broadcastInDim_apply _ _ _ _ (ix1 c) (fun a => by match a with | ⟨0, _⟩ => rfl), colSum_apply]

/-- A deviation from the mean. -/
theorem rDev_apply (y : FVec Ideal S150000x32 .f32) (r : Fin 150000) (c : Fin 32) :
    rDev y (ix2 r c) = y (ix2 r c) - SparseConv.mean (fun r c => y (ix2 r c)) c := by
  unfold rDev
  rw [subf_apply, broadcastInDim_apply _ _ _ _ (ix2 (0 : Fin 1) c)
    (fun a => by match a with | ⟨0, _⟩ => rfl | ⟨1, _⟩ => rfl), rMeanRow_apply]

/-- The variance's divisor is the specification's. -/
theorem rDof_apply : rDof ix0 = SparseConv.dof := rfl

/-- The divisor is positive, so the guard's bit is set. -/
theorem guard_bit : Ideal.cmp .ogt SparseConv.dof (Ideal.ofBits .f32 0x00000000#32) = 1#1 := by
  rw [Ideal.ofBits_zero_f32, SparseConv.dof_eq]
  have hpos : (0 : EReal) < ((150000 : ℝ) : EReal) := EReal.coe_pos.mpr (by norm_num)
  simp [Ideal.cmp, hpos]

/-- The variance read at a channel. -/
theorem rVar_apply (y : FVec Ideal S150000x32 .f32) (c : Fin 32) :
    rVar y (ix1 c) = SparseConv.var (fun r c => y (ix2 r c)) c := by
  unfold rVar
  rw [select_apply]
  have hc : broadcastInDim S32 ![] bcast_S_S32 (cmpf .ogt rDof (constant S_ .f32 0x00000000#32 : FVec Ideal S_ .f32)) (ix1 c)
      = 1#1 := by
    rw [broadcastInDim_apply _ _ _ _ ix0 (fun a => a.elim0)]
    exact guard_bit
  rw [hc, select_one]
  unfold SparseConv.var
  show Ideal.div (Host.reduceAdd (mulf (rDev y) (rDev y)) (constant S_ .f32 0x00000000#32 : FVec Ideal S_ .f32)
      reducesTo_S150000x32_S32_d0 h_S_ (ix1 c)) (broadcastInDim S32 ![] bcast_S_S32 rDof (ix1 c)) = _
  rw [colSum_apply, broadcastInDim_apply _ _ _ _ ix0 (fun a => a.elim0), rDof_apply]
  refine congrArg (fun s => Ideal.div (0 + s) SparseConv.dof) ?_
  refine Finset.sum_congr rfl fun r _ => ?_
  rw [mulf_apply, rDev_apply]

/-- Batch normalisation read at a row and channel. -/
theorem rBn_apply (y : FVec Ideal S150000x32 .f32) (g b : FVec Ideal S32 .f32) (r : Fin 150000) (c : Fin 32) :
    rBn y g b (ix2 r c)
      = SparseConv.bn (fun r c => y (ix2 r c)) (fun c => g (ix1 c)) (fun c => b (ix1 c)) r c := by
  unfold rBn SparseConv.bn
  rw [addf_apply, mulf_apply, mulf_apply, subf_apply, rRows_apply, rRows_apply, rRows_apply, rRows_apply, rMean_apply]
  show ((y (ix2 r c) - _) * Ideal.rsqrt (rVar y (ix1 c) + Ideal.ofBits .f32 0x3727C5AC#32)) * g (ix1 c) + b (ix1 c) = _
  rw [rVar_apply]
  rfl

/-- The positive part read at an index. -/
theorem rRelu_apply (y : FVec Ideal S150000x32 .f32) (i : S150000x32.Idx) : rRelu y i = max (y i) 0 := by
  show max (y i) (Ideal.ofBits .f32 0x00000000#32) = _
  rw [Ideal.ofBits_zero_f32]

/-! ## The stages as functions of row and channel -/

theorem mat_rConv (h : FVec Ideal S150000x32 .f32) (W : FVec Ideal S27x32x32 .f32) (imap omap : IVec S27x150000 32)
    (mask : IVec S27x150000 1) :
    (fun (r : Fin 150000) (c : Fin 32) => rConv h W imap omap mask (ix2 r c))
      = SparseConv.conv (fun r c => h (ix2 r c)) (fun k a b => W (ix3 k a b)) (fun k m => imap (ix2 k m))
          (fun k m => omap (ix2 k m)) (fun k m => mask (ix2 k m)) :=
  funext fun r => funext fun c => rConv_apply h W imap omap mask r c

theorem mat_rBn (y : FVec Ideal S150000x32 .f32) (g b : FVec Ideal S32 .f32) :
    (fun (r : Fin 150000) (c : Fin 32) => rBn y g b (ix2 r c))
      = SparseConv.bn (fun r c => y (ix2 r c)) (fun c => g (ix1 c)) (fun c => b (ix1 c)) :=
  funext fun r => funext fun c => rBn_apply y g b r c

theorem mat_rRelu (y : FVec Ideal S150000x32 .f32) :
    (fun (r : Fin 150000) (c : Fin 32) => rRelu y (ix2 r c)) = SparseConv.relu (fun r c => y (ix2 r c)) :=
  funext fun r => funext fun c => rRelu_apply y (ix2 r c)

/-! ## The whole reference -/

/-- The reference's result at a row and channel is the specification's block there. -/
theorem refOut_apply (x : FVec Ideal S150000x32 .f32) (W1 : FVec Ideal S27x32x32 .f32) (g1 b1 : FVec Ideal S32 .f32)
    (W2 : FVec Ideal S27x32x32 .f32) (g2 b2 : FVec Ideal S32 .f32) (imap omap : IVec S27x150000 32)
    (mask : IVec S27x150000 1) (r : Fin 150000) (c : Fin 32) :
    refOut x W1 g1 b1 W2 g2 b2 imap omap mask (ix2 r c)
      = SparseConv.block (fun r c => x (ix2 r c)) (fun k a b => W1 (ix3 k a b)) (fun c => g1 (ix1 c))
          (fun c => b1 (ix1 c)) (fun k a b => W2 (ix3 k a b)) (fun c => g2 (ix1 c)) (fun c => b2 (ix1 c))
          (fun k m => imap (ix2 k m)) (fun k m => omap (ix2 k m)) (fun k m => mask (ix2 k m)) r c := by
  have e1 := mat_rConv x W1 imap omap mask
  have e2 := mat_rBn (rConv x W1 imap omap mask) g1 b1
  have e3 := mat_rRelu (rBn (rConv x W1 imap omap mask) g1 b1)
  have e4 := mat_rConv (rRelu (rBn (rConv x W1 imap omap mask) g1 b1)) W2 imap omap mask
  unfold refOut SparseConv.block
  rw [rRelu_apply, addf_apply, rBn_apply, e4, e3, e2, e1]

end Cert.ReferenceIdeal.Hand

end
-- ==== Proof.PreDecode.lean ====
/-
  The printed precondition, read back. The predicate is the conjunction of seven "every entry has |x| < +∞" tests, one per
  float input, and one "every entry lies in [0, 150000)" test of the first integer table. Each test is an `and`-reduction of a
  one-bit array from the constant 1 into a single word, and the whole predicate is the `and` of those eight words. So the
  predicate being 1 says each reduction is 1, hence each entry's bit is 1. On the extended reals max x (-x) < ⊤ excludes
  both infinities, leaving a real; a signed compare against 0 and against 150000 bounds the word's signed value.
-/
import proofs.«429804_j40699110096963_3_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.Pre_finite_inputs.Hand

open Idealize.ShloMosaic

/-- The scalar shape has one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (-x) is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test: |x| < +∞ came out 1, so x is a real. -/
theorem elem (x : Ideal .f32)
    (h : FloatOps.cmpf .olt (FloatOps.hostAbsf x) (FloatOps.ofBits (F := Ideal) .f32 0x7F800000#32) = 1#1) :
    ∃ r : ℝ, x = (r : EReal) := by
  rw [Ideal.hostAbsf_def, Ideal.absf_def, Ideal.cmpf_def, Ideal.ofBits_def, inf_word] at h
  simp only [Ideal.cmp, StableHlo.Predicate.ofBool_eq_one_iff, decide_eq_true_eq] at h
  exact real_of_abs_lt_top x h

/-- One word's test: 0 ≤ w and w < 150000, signed, both came out 1. -/
theorem idx_range (w : BitVec 32) (h0 : IntOp.cmpi .sge w 0#32 = 1#1) (h1 : IntOp.cmpi .slt w 150000#32 = 1#1) :
    0 ≤ w.toInt ∧ w.toInt < 150000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (150000#32 : BitVec 32).toInt = 150000 := by decide
  rw [e0] at h0; rw [e1] at h1
  exact ⟨h0, h1⟩

/-- "All entries finite" of one float array: the reduction by `and` of the entrywise test is 1, so every entry is a real. -/
theorem all_real {s : Shape} {axes : List (Fin s.rank)} (x : FVec Ideal s .f32) (hb : S_.BroadcastsInDim s (![] : Fin 0 → Fin s.rank))
    (hr : s.ReducesTo axes S_) (hS : 0 < S_.numel) (c : IVec S_ 1) (j : S_.Idx)
    (e : Host.reduce IntOp.andi
          (cmpf .olt (Host.absf x) (broadcastInDim s ![] hb (constant (F := Ideal) S_ .f32 0x7F800000#32))) c hr hS j = 1#1) :
    ∀ i, ∃ r : ℝ, x i = (r : EReal) := fun i =>
  elem (x i) (Host.reduce_andi_all _ c hr hS j e i)

/-- "All entries in [0, 150000)" of one integer array. -/
theorem all_range {s : Shape} {axes : List (Fin s.rank)} (x : IVec s 32) (hb : S_.BroadcastsInDim s (![] : Fin 0 → Fin s.rank))
    (hr : s.ReducesTo axes S_) (hS : 0 < S_.numel) (c : IVec S_ 1) (j : S_.Idx)
    (e : Host.reduce IntOp.andi
          (andi (cmpi .sge x (broadcastInDim s ![] hb (constantI S_ 32 0#32)))
                (cmpi .slt x (broadcastInDim s ![] hb (constantI S_ 32 150000#32)))) c hr hS j = 1#1) :
    ∀ i, 0 ≤ (x i).toInt ∧ (x i).toInt < 150000 := fun i => by
  have hi := Host.reduce_andi_all _ c hr hS j e i
  obtain ⟨h0, h1⟩ := IntOp.andi_eq_one.1 hi
  exact idx_range (x i) h0 h1

theorem decode [Cert.Pre_finite_inputs.Facts] (a0 : FVec Ideal S150000x32 .f32) (a1 : FVec Ideal S27x32x32 .f32)
    (a2 a3 : FVec Ideal S32 .f32) (a4 : FVec Ideal S27x32x32 .f32) (a5 a6 : FVec Ideal S32 .f32)
    (a7 a8 : IVec S27x150000 32) (a9 : IVec S27x150000 1)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, 0 ≤ (a7 i).toInt ∧ (a7 i).toInt < 150000) := by
  have e := congrFun h ValueIdx.ix0
  dsimp only [fn, fn_part1, fn_part2] at e
  obtain ⟨e6, e7⟩ := IntOp.andi_eq_one.1 e
  obtain ⟨e5, e6⟩ := IntOp.andi_eq_one.1 e6
  obtain ⟨e4, e5⟩ := IntOp.andi_eq_one.1 e5
  obtain ⟨e3, e4⟩ := IntOp.andi_eq_one.1 e4
  obtain ⟨e2, e3⟩ := IntOp.andi_eq_one.1 e3
  obtain ⟨e1, e2⟩ := IntOp.andi_eq_one.1 e2
  obtain ⟨e0, e1⟩ := IntOp.andi_eq_one.1 e1
  exact ⟨all_real a0 _ _ _ _ _ e0, all_real a1 _ _ _ _ _ e1, all_real a2 _ _ _ _ _ e2, all_real a3 _ _ _ _ _ e3,
    all_real a4 _ _ _ _ _ e4, all_real a5 _ _ _ _ _ e5, all_real a6 _ _ _ _ _ e6, all_range a7 _ _ _ _ _ e7⟩

end Cert.Pre_finite_inputs.Hand

end
-- ==== Proof.lean ====
/-
  The certificate of the residual sparse-convolution block.

  Both programs compute  relu (bn₂ (conv₂ (relu (bn₁ (conv₁ x)))) + x)  over the extended reals (Proof/Spec.lean).
  The reference does so operation by operation in that order. The kernel program pads the index maps and validity
  bits from 150000 to 159744 pairs (padded pairs carry zero rows, so they add nothing to any destination row), takes
  rows in fill mode (which differs from a clamped gather only at index words outside the table, excluded by the
  precondition on the first index map), selects by the validity bit instead of multiplying by it, runs the per-offset
  matrix products and the last normalisation as kernels, and applies the first normalisation after the second
  layer's row gather, in affine form: on finite inputs the affine form is the normalisation (Proof/Algebra.lean).
  The frames are the generated ones; the kernel program's run is stated with its result at the last boundary's
  contents, read back stage by stage to the block; the reference's run is written out as one straight line of
  operations and read index by index to the same block.
-/
import proofs.«429804_j40699110096963_3_alg».proof.Defs
import proofs.«429804_j40699110096963_3_alg».proof.Proof.Gen.Kernel
import proofs.«429804_j40699110096963_3_alg».proof.Proof.Gen.Kernel.Skeleton
import proofs.«429804_j40699110096963_3_alg».proof.Proof.Gen.Kernel.Launch
import proofs.«429804_j40699110096963_3_alg».proof.Proof.Gen.Kernel.Points
import proofs.«429804_j40699110096963_3_alg».proof.Proof.Gen.Kernel.Frame
import proofs.«429804_j40699110096963_3_alg».proof.Proof.Gen.KernelIdeal
import proofs.«429804_j40699110096963_3_alg».proof.Proof.Gen.KernelIdeal.Skeleton
import proofs.«429804_j40699110096963_3_alg».proof.Proof.Gen.KernelIdeal.Launch
import proofs.«429804_j40699110096963_3_alg».proof.Proof.Gen.KernelIdeal.Points
import proofs.«429804_j40699110096963_3_alg».proof.Proof.Gen.KernelIdeal.Frame
import proofs.«429804_j40699110096963_3_alg».proof.Proof.Gen.ReferenceIdeal
import proofs.«429804_j40699110096963_3_alg».proof.Proof.Gen.Pre_finite_inputs
import proofs.«429804_j40699110096963_3_alg».proof.Proof.KerRun
import proofs.«429804_j40699110096963_3_alg».proof.Proof.KerValue
import proofs.«429804_j40699110096963_3_alg».proof.Proof.RefRun
import proofs.«429804_j40699110096963_3_alg».proof.Proof.RefOut
import proofs.«429804_j40699110096963_3_alg».proof.Proof.RefRead
import proofs.«429804_j40699110096963_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, every buffer at the fold of its operations over the launch contents, read at the
    ten argument arrays, which no operation writes. -/
theorem frame_ri : Cert.frame_ReferenceIdeal := fun m ρ _ =>
  (θ_run Cert.ReferenceIdeal.defs _ _).mono
    (fun r h c =>
      ⟨(h c _).trans (Cert.ReferenceIdeal.Hand.arg0_eq _), (h c _).trans (Cert.ReferenceIdeal.Hand.arg1_eq _),
       (h c _).trans (Cert.ReferenceIdeal.Hand.arg2_eq _), (h c _).trans (Cert.ReferenceIdeal.Hand.arg3_eq _),
       (h c _).trans (Cert.ReferenceIdeal.Hand.arg4_eq _), (h c _).trans (Cert.ReferenceIdeal.Hand.arg5_eq _),
       (h c _).trans (Cert.ReferenceIdeal.Hand.arg6_eq _), (h c _).trans (Cert.ReferenceIdeal.Hand.arg7_eq _),
       (h c _).trans (Cert.ReferenceIdeal.Hand.arg8_eq _), (h c _).trans (Cert.ReferenceIdeal.Hand.arg9_eq _)⟩)
    (Cert.ReferenceIdeal.Hand.run_main (F := Ideal) m ρ)

theorem preserves : Cert.preserves_Kernel_KernelIdeal := trivial

/-- Both runs end at the block of their (agreeing) arguments. -/
theorem algebraic : Cert.algebraic_KernelIdeal_ReferenceIdeal := by
  intro m ρ m' ρ' hpre hagree
  refine ⟨fun c => Cert.KernelIdeal.Gen.W23 m ρ c (Proc.devRef .tc Cert.KernelIdeal.main_v61),
    Cert.KernelIdeal.Hand.run (F := Ideal) m ρ, ?_⟩
  refine (θ_run Cert.ReferenceIdeal.defs _ _).mono (fun r h c => ?_) (Cert.ReferenceIdeal.Hand.run_main (F := Ideal) m' ρ')
  obtain ⟨h0, h1, h2, h3, h4, h5, h6, h7, h8, h9⟩ := hagree c
  obtain ⟨f0, f1, f2, f3, f4, f5, f6, f7⟩ := Cert.Pre_finite_inputs.Hand.decode _ _ _ _ _ _ _ _ _ _ (hpre c)
  refine ⟨?_, (h c _).trans (Cert.ReferenceIdeal.Hand.arg0_eq _), (h c _).trans (Cert.ReferenceIdeal.Hand.arg1_eq _),
       (h c _).trans (Cert.ReferenceIdeal.Hand.arg2_eq _), (h c _).trans (Cert.ReferenceIdeal.Hand.arg3_eq _),
       (h c _).trans (Cert.ReferenceIdeal.Hand.arg4_eq _), (h c _).trans (Cert.ReferenceIdeal.Hand.arg5_eq _),
       (h c _).trans (Cert.ReferenceIdeal.Hand.arg6_eq _), (h c _).trans (Cert.ReferenceIdeal.Hand.arg7_eq _),
       (h c _).trans (Cert.ReferenceIdeal.Hand.arg8_eq _), (h c _).trans (Cert.ReferenceIdeal.Hand.arg9_eq _)⟩
  refine (h c _).trans ?_
  rw [Cert.ReferenceIdeal.Hand.out_eq]
  funext i
  obtain ⟨r', ch, rfl⟩ : ∃ (r' : Fin 150000) (ch : Fin 32), i = ValueIdx.ix2 r' ch := ⟨i 0, i 1, ValueIdx.eq_ix2 i⟩
  rw [Cert.ReferenceIdeal.Hand.refOut_apply]
  have e0 : StableHlo.launchContents m' c (Proc.devRef .tc Cert.ReferenceIdeal.main_arg0)
      = m ((c.tc : Thread Cert.KernelIdeal.nD Cert.KernelIdeal.τ).loc Cert.KernelIdeal.main_arg0) := h0
  have e1 : StableHlo.launchContents m' c (Proc.devRef .tc Cert.ReferenceIdeal.main_arg1)
      = m ((c.tc : Thread Cert.KernelIdeal.nD Cert.KernelIdeal.τ).loc Cert.KernelIdeal.main_arg1) := h1
  have e2 : StableHlo.launchContents m' c (Proc.devRef .tc Cert.ReferenceIdeal.main_arg2)
      = m ((c.tc : Thread Cert.KernelIdeal.nD Cert.KernelIdeal.τ).loc Cert.KernelIdeal.main_arg2) := h2
  have e3 : StableHlo.launchContents m' c (Proc.devRef .tc Cert.ReferenceIdeal.main_arg3)
      = m ((c.tc : Thread Cert.KernelIdeal.nD Cert.KernelIdeal.τ).loc Cert.KernelIdeal.main_arg3) := h3
  have e4 : StableHlo.launchContents m' c (Proc.devRef .tc Cert.ReferenceIdeal.main_arg4)
      = m ((c.tc : Thread Cert.KernelIdeal.nD Cert.KernelIdeal.τ).loc Cert.KernelIdeal.main_arg4) := h4
  have e5 : StableHlo.launchContents m' c (Proc.devRef .tc Cert.ReferenceIdeal.main_arg5)
      = m ((c.tc : Thread Cert.KernelIdeal.nD Cert.KernelIdeal.τ).loc Cert.KernelIdeal.main_arg5) := h5
  have e6 : StableHlo.launchContents m' c (Proc.devRef .tc Cert.ReferenceIdeal.main_arg6)
      = m ((c.tc : Thread Cert.KernelIdeal.nD Cert.KernelIdeal.τ).loc Cert.KernelIdeal.main_arg6) := h6
  have e7 : StableHlo.launchContents m' c (Proc.devRef .tc Cert.ReferenceIdeal.main_arg7)
      = m ((c.tc : Thread Cert.KernelIdeal.nD Cert.KernelIdeal.τ).loc Cert.KernelIdeal.main_arg7) := h7
  have e8 : StableHlo.launchContents m' c (Proc.devRef .tc Cert.ReferenceIdeal.main_arg8)
      = m ((c.tc : Thread Cert.KernelIdeal.nD Cert.KernelIdeal.τ).loc Cert.KernelIdeal.main_arg8) := h8
  have e9 : StableHlo.launchContents m' c (Proc.devRef .tc Cert.ReferenceIdeal.main_arg9)
      = m ((c.tc : Thread Cert.KernelIdeal.nD Cert.KernelIdeal.τ).loc Cert.KernelIdeal.main_arg9) := h9
  rw [e0, e1, e2, e3, e4, e5, e6, e7, e8, e9]
  exact (Cert.KernelIdeal.Hand.ker_value m ρ c f0 f1 f2 f3 f7 r' ch).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
